-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x13 : Shape := ⟨2, ![1024, 13]⟩
abbrev S1024x26000 : Shape := ⟨2, ![1024, 26000]⟩
abbrev S26x1000x64 : Shape := ⟨3, ![26, 1000, 64]⟩
abbrev S_ : Shape := ⟨0, ![]⟩

class Facts : Prop where
  bcast_S_S1024x13 : S_.BroadcastsInDim S1024x13 (![] : Fin 0 → Fin S1024x13.rank)
  reducesTo_S1024x13_S_d0_1 : S1024x13.ReducesTo [0, 1] S_
  h_S_ : 0 < S_.numel
  bcast_S_S26x1000x64 : S_.BroadcastsInDim S26x1000x64 (![] : Fin 0 → Fin S26x1000x64.rank)
  reducesTo_S26x1000x64_S_d0_1_2 : S26x1000x64.ReducesTo [0, 1, 2] S_

variable [Facts]

def fn {F : FTy → Type} [FloatOps F] (main_arg0 : FVec F S1024x13 .f32) (main_arg1 : IVec S1024x26000 32) (main_arg2 : FVec F S26x1000x64 .f32) : IVec S_ 1 :=
  let main_v0 : FVec F S1024x13 .f32 := Host.absf main_arg0
  let main_cst : FVec F S_ .f32 := constant S_ .f32 0x7F800000#32
  let main_v1 : FVec F S1024x13 .f32 := broadcastInDim S1024x13 ![] bcast_S_S1024x13 main_cst
  let main_v2 : IVec S1024x13 1 := cmpf .olt main_v0 main_v1
  let main_c : IVec S_ 1 := constantI S_ 1 1#1
  let main_v3 : IVec S_ 1 := (fun x v => Host.reduce IntOp.andi x v reducesTo_S1024x13_S_d0_1 h_S_) main_v2 main_c
  let main_v4 : FVec F S26x1000x64 .f32 := Host.absf main_arg2
  let main_cst_0 : FVec F S_ .f32 := constant S_ .f32 0x7F800000#32
  let main_v5 : FVec F S26x1000x64 .f32 := broadcastInDim S26x1000x64 ![] bcast_S_S26x1000x64 main_cst_0
  let main_v6 : IVec S26x1000x64 1 := cmpf .olt main_v4 main_v5
  let main_c_1 : IVec S_ 1 := constantI S_ 1 1#1
  let main_v7 : IVec S_ 1 := (fun x v => Host.reduce IntOp.andi x v reducesTo_S26x1000x64_S_d0_1_2 h_S_) main_v6 main_c_1
  let main_v8 : IVec S_ 1 := andi main_v3 main_v7
  main_v8
-- ==== Kernel.lean ====
abbrev S1024x13 : Shape := ⟨2, ![1024, 13]⟩
abbrev S1024x26000 : Shape := ⟨2, ![1024, 26000]⟩
abbrev S26x1000x64 : Shape := ⟨3, ![26, 1000, 64]⟩
abbrev S1024x1677 : Shape := ⟨2, ![1024, 1677]⟩
abbrev S128x13 : Shape := ⟨2, ![128, 13]⟩
abbrev S128x26000 : Shape := ⟨2, ![128, 26000]⟩
abbrev S128x1677 : Shape := ⟨2, ![128, 1677]⟩
abbrev S26x1168x64 : Shape := ⟨3, ![26, 1168, 64]⟩
abbrev S1x1000x64 : Shape := ⟨3, ![1, 1000, 64]⟩
abbrev S1000x64 : Shape := ⟨2, ![1000, 64]⟩
abbrev S128x1168 : Shape := ⟨2, ![128, 1168]⟩
abbrev S1x1168x64 : Shape := ⟨3, ![1, 1168, 64]⟩
abbrev S1168x64 : Shape := ⟨2, ![1168, 64]⟩
abbrev S128x64 : Shape := ⟨2, ![128, 64]⟩

abbrev nBuf : Space → Nat
  | .hbm => 4
  | .vmem => 8
  | .smem => 0
  | _ => 0

abbrev bufTy : (tb : Table) → Fin (tcTables nBuf tb) → BufTy
  | .hbm, ⟨0, _⟩ => ⟨S1024x13, .f32⟩
  | .hbm, ⟨1, _⟩ => ⟨S1024x26000, .i32⟩
  | .hbm, ⟨2, _⟩ => ⟨S26x1000x64, .f32⟩
  | .hbm, ⟨3, _⟩ => ⟨S1024x1677, .f32⟩
  | .local _ .vmem, ⟨0, _⟩ => ⟨S128x13, .f32⟩
  | .local _ .vmem, ⟨1, _⟩ => ⟨S128x13, .f32⟩
  | .local _ .vmem, ⟨2, _⟩ => ⟨S128x26000, .i32⟩
  | .local _ .vmem, ⟨3, _⟩ => ⟨S128x26000, .i32⟩
  | .local _ .vmem, ⟨4, _⟩ => ⟨S26x1000x64, .f32⟩
  | .local _ .vmem, ⟨5, _⟩ => ⟨S128x1677, .f32⟩
  | .local _ .vmem, ⟨6, _⟩ => ⟨S128x1677, .f32⟩
  | .local _ .vmem, ⟨7, _⟩ => ⟨S26x1168x64, .bf16⟩
  | _, _ => ⟨S1024x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x26000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S26x1000x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1677 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S26x1168x64_S26x1168x64_0_0_0 : ∀ a, (![0, 0, 0] : Fin 3 → Nat) a + S26x1168x64.size a ≤ S26x1168x64.size a
  h_S26x1168x64 : 0 < S26x1168x64.numel
  shapeCasts_S26x1168x64_S26x1168x64 : S26x1168x64.ShapeCasts S26x1168x64
  packedbf16_S26x1168x64_S26x1168x64_0_0_0 : (Rect.unit (s := S26x1168x64) ![0, 0, 0] S26x1168x64.size inb_S26x1168x64_S26x1168x64_0_0_0).PackedRows (EltTy.packing .bf16)
  inb_S26x1000x64_S1x1000x64_0_0_0 : ∀ a, (![0, 0, 0] : Fin 3 → Nat) a + S1x1000x64.size a ≤ S26x1000x64.size a
  h_S1x1000x64 : 0 < S1x1000x64.numel
  shapeCasts_S1x1000x64_S1000x64 : S1x1000x64.ShapeCasts S1000x64
  bitsLt_bf16_f32 : FTy.bits .bf16 < FTy.bits .f32
  inb_S26x1168x64_S1x1000x64_0_0_0 : ∀ a, (![0, 0, 0] : Fin 3 → Nat) a + S1x1000x64.size a ≤ S26x1168x64.size a
  shapeCasts_S1000x64_S1x1000x64 : S1000x64.ShapeCasts S1x1000x64
  packedbf16_S26x1168x64_S1x1000x64_0_0_0 : (Rect.unit (s := S26x1168x64) ![0, 0, 0] S1x1000x64.size inb_S26x1168x64_S1x1000x64_0_0_0).PackedRows (EltTy.packing .bf16)
  inb_S26x1000x64_S1x1000x64_1_0_0 : ∀ a, (![1, 0, 0] : Fin 3 → Nat) a + S1x1000x64.size a ≤ S26x1000x64.size a
  inb_S26x1168x64_S1x1000x64_1_104_0 : ∀ a, (![1, 104, 0] : Fin 3 → Nat) a + S1x1000x64.size a ≤ S26x1168x64.size a
  packedbf16_S26x1168x64_S1x1000x64_1_104_0 : (Rect.unit (s := S26x1168x64) ![1, 104, 0] S1x1000x64.size inb_S26x1168x64_S1x1000x64_1_104_0).PackedRows (EltTy.packing .bf16)
  inb_S26x1000x64_S1x1000x64_2_0_0 : ∀ a, (![2, 0, 0] : Fin 3 → Nat) a + S1x1000x64.size a ≤ S26x1000x64.size a
  inb_S26x1168x64_S1x1000x64_2_80_0 : ∀ a, (![2, 80, 0] : Fin 3 → Nat) a + S1x1000x64.size a ≤ S26x1168x64.size a
  packedbf16_S26x1168x64_S1x1000x64_2_80_0 : (Rect.unit (s := S26x1168x64) ![2, 80, 0] S1x1000x64.size inb_S26x1168x64_S1x1000x64_2_80_0).PackedRows (EltTy.packing .bf16)
  inb_S26x1000x64_S1x1000x64_3_0_0 : ∀ a, (![3, 0, 0] : Fin 3 → Nat) a + S1x1000x64.size a ≤ S26x1000x64.size a
  inb_S26x1168x64_S1x1000x64_3_56_0 : ∀ a, (![3, 56, 0] : Fin 3 → Nat) a + S1x1000x64.size a ≤ S26x1168x64.size a
  packedbf16_S26x1168x64_S1x1000x64_3_56_0 : (Rect.unit (s := S26x1168x64) ![3, 56, 0] S1x1000x64.size inb_S26x1168x64_S1x1000x64_3_56_0).PackedRows (EltTy.packing .bf16)
  inb_S26x1000x64_S1x1000x64_4_0_0 : ∀ a, (![4, 0, 0] : Fin 3 → Nat) a + S1x1000x64.size a ≤ S26x1000x64.size a
  inb_S26x1168x64_S1x1000x64_4_32_0 : ∀ a, (![4, 32, 0] : Fin 3 → Nat) a + S1x1000x64.size a ≤ S26x1168x64.size a
  packedbf16_S26x1168x64_S1x1000x64_4_32_0 : (Rect.unit (s := S26x1168x64) ![4, 32, 0] S1x1000x64.size inb_S26x1168x64_S1x1000x64_4_32_0).PackedRows (EltTy.packing .bf16)
  inb_S26x1000x64_S1x1000x64_5_0_0 : ∀ a, (![5, 0, 0] : Fin 3 → Nat) a + S1x1000x64.size a ≤ S26x1000x64.size a
  inb_S26x1168x64_S1x1000x64_5_8_0 : ∀ a, (![5, 8, 0] : Fin 3 → Nat) a + S1x1000x64.size a ≤ S26x1168x64.size a
  packedbf16_S26x1168x64_S1x1000x64_5_8_0 : (Rect.unit (s := S26x1168x64) ![5, 8, 0] S1x1000x64.size inb_S26x1168x64_S1x1000x64_5_8_0).PackedRows (EltTy.packing .bf16)
  inb_S26x1000x64_S1x1000x64_6_0_0 : ∀ a, (![6, 0, 0] : Fin 3 → Nat) a + S1x1000x64.size a ≤ S26x1000x64.size a
  inb_S26x1168x64_S1x1000x64_6_112_0 : ∀ a, (![6, 112, 0] : Fin 3 → Nat) a + S1x1000x64.size a ≤ S26x1168x64.size a
  packedbf16_S26x1168x64_S1x1000x64_6_112_0 : (Rect.unit (s := S26x1168x64) ![6, 112, 0] S1x1000x64.size inb_S26x1168x64_S1x1000x64_6_112_0).PackedRows (EltTy.packing .bf16)
  inb_S26x1000x64_S1x1000x64_7_0_0 : ∀ a, (![7, 0, 0] : Fin 3 → Nat) a + S1x1000x64.size a ≤ S26x1000x64.size a
  inb_S26x1168x64_S1x1000x64_7_88_0 : ∀ a, (![7, 88, 0] : Fin 3 → Nat) a + S1x1000x64.size a ≤ S26x1168x64.size a
  packedbf16_S26x1168x64_S1x1000x64_7_88_0 : (Rect.unit (s := S26x1168x64) ![7, 88, 0] S1x1000x64.size inb_S26x1168x64_S1x1000x64_7_88_0).PackedRows (EltTy.packing .bf16)
  inb_S26x1000x64_S1x1000x64_8_0_0 : ∀ a, (![8, 0, 0] : Fin 3 → Nat) a + S1x1000x64.size a ≤ S26x1000x64.size a
  inb_S26x1168x64_S1x1000x64_8_64_0 : ∀ a, (![8, 64, 0] : Fin 3 → Nat) a + S1x1000x64.size a ≤ S26x1168x64.size a
  packedbf16_S26x1168x64_S1x1000x64_8_64_0 : (Rect.unit (s := S26x1168x64) ![8, 64, 0] S1x1000x64.size inb_S26x1168x64_S1x1000x64_8_64_0).PackedRows (EltTy.packing .bf16)
  inb_S26x1000x64_S1x1000x64_9_0_0 : ∀ a, (![9, 0, 0] : Fin 3 → Nat) a + S1x1000x64.size a ≤ S26x1000x64.size a
  inb_S26x1168x64_S1x1000x64_9_40_0 : ∀ a, (![9, 40, 0] : Fin 3 → Nat) a + S1x1000x64.size a ≤ S26x1168x64.size a
  packedbf16_S26x1168x64_S1x1000x64_9_40_0 : (Rect.unit (s := S26x1168x64) ![9, 40, 0] S1x1000x64.size inb_S26x1168x64_S1x1000x64_9_40_0).PackedRows (EltTy.packing .bf16)
  inb_S26x1000x64_S1x1000x64_10_0_0 : ∀ a, (![10, 0, 0] : Fin 3 → Nat) a + S1x1000x64.size a ≤ S26x1000x64.size a
  inb_S26x1168x64_S1x1000x64_10_16_0 : ∀ a, (![10, 16, 0] : Fin 3 → Nat) a + S1x1000x64.size a ≤ S26x1168x64.size a
  packedbf16_S26x1168x64_S1x1000x64_10_16_0 : (Rect.unit (s := S26x1168x64) ![10, 16, 0] S1x1000x64.size inb_S26x1168x64_S1x1000x64_10_16_0).PackedRows (EltTy.packing .bf16)
  inb_S26x1000x64_S1x1000x64_11_0_0 : ∀ a, (![11, 0, 0] : Fin 3 → Nat) a + S1x1000x64.size a ≤ S26x1000x64.size a
  inb_S26x1168x64_S1x1000x64_11_120_0 : ∀ a, (![11, 120, 0] : Fin 3 → Nat) a + S1x1000x64.size a ≤ S26x1168x64.size a
  packedbf16_S26x1168x64_S1x1000x64_11_120_0 : (Rect.unit (s := S26x1168x64) ![11, 120, 0] S1x1000x64.size inb_S26x1168x64_S1x1000x64_11_120_0).PackedRows (EltTy.packing .bf16)
  inb_S26x1000x64_S1x1000x64_12_0_0 : ∀ a, (![12, 0, 0] : Fin 3 → Nat) a + S1x1000x64.size a ≤ S26x1000x64.size a
  inb_S26x1168x64_S1x1000x64_12_96_0 : ∀ a, (![12, 96, 0] : Fin 3 → Nat) a + S1x1000x64.size a ≤ S26x1168x64.size a
  packedbf16_S26x1168x64_S1x1000x64_12_96_0 : (Rect.unit (s := S26x1168x64) ![12, 96, 0] S1x1000x64.size inb_S26x1168x64_S1x1000x64_12_96_0).PackedRows (EltTy.packing .bf16)
  inb_S26x1000x64_S1x1000x64_13_0_0 : ∀ a, (![13, 0, 0] : Fin 3 → Nat) a + S1x1000x64.size a ≤ S26x1000x64.size a
  inb_S26x1168x64_S1x1000x64_13_72_0 : ∀ a, (![13, 72, 0] : Fin 3 → Nat) a + S1x1000x64.size a ≤ S26x1168x64.size a
  packedbf16_S26x1168x64_S1x1000x64_13_72_0 : (Rect.unit (s := S26x1168x64) ![13, 72, 0] S1x1000x64.size inb_S26x1168x64_S1x1000x64_13_72_0).PackedRows (EltTy.packing .bf16)
  inb_S26x1000x64_S1x1000x64_14_0_0 : ∀ a, (![14, 0, 0] : Fin 3 → Nat) a + S1x1000x64.size a ≤ S26x1000x64.size a
  inb_S26x1168x64_S1x1000x64_14_48_0 : ∀ a, (![14, 48, 0] : Fin 3 → Nat) a + S1x1000x64.size a ≤ S26x1168x64.size a
  packedbf16_S26x1168x64_S1x1000x64_14_48_0 : (Rect.unit (s := S26x1168x64) ![14, 48, 0] S1x1000x64.size inb_S26x1168x64_S1x1000x64_14_48_0).PackedRows (EltTy.packing .bf16)
  inb_S26x1000x64_S1x1000x64_15_0_0 : ∀ a, (![15, 0, 0] : Fin 3 → Nat) a + S1x1000x64.size a ≤ S26x1000x64.size a
  inb_S26x1168x64_S1x1000x64_15_24_0 : ∀ a, (![15, 24, 0] : Fin 3 → Nat) a + S1x1000x64.size a ≤ S26x1168x64.size a
  packedbf16_S26x1168x64_S1x1000x64_15_24_0 : (Rect.unit (s := S26x1168x64) ![15, 24, 0] S1x1000x64.size inb_S26x1168x64_S1x1000x64_15_24_0).PackedRows (EltTy.packing .bf16)
  inb_S26x1000x64_S1x1000x64_16_0_0 : ∀ a, (![16, 0, 0] : Fin 3 → Nat) a + S1x1000x64.size a ≤ S26x1000x64.size a
  inb_S26x1168x64_S1x1000x64_16_0_0 : ∀ a, (![16, 0, 0] : Fin 3 → Nat) a + S1x1000x64.size a ≤ S26x1168x64.size a
  packedbf16_S26x1168x64_S1x1000x64_16_0_0 : (Rect.unit (s := S26x1168x64) ![16, 0, 0] S1x1000x64.size inb_S26x1168x64_S1x1000x64_16_0_0).PackedRows (EltTy.packing .bf16)
  inb_S26x1000x64_S1x1000x64_17_0_0 : ∀ a, (![17, 0, 0] : Fin 3 → Nat) a + S1x1000x64.size a ≤ S26x1000x64.size a
  inb_S26x1168x64_S1x1000x64_17_104_0 : ∀ a, (![17, 104, 0] : Fin 3 → Nat) a + S1x1000x64.size a ≤ S26x1168x64.size a
  packedbf16_S26x1168x64_S1x1000x64_17_104_0 : (Rect.unit (s := S26x1168x64) ![17, 104, 0] S1x1000x64.size inb_S26x1168x64_S1x1000x64_17_104_0).PackedRows (EltTy.packing .bf16)
  inb_S26x1000x64_S1x1000x64_18_0_0 : ∀ a, (![18, 0, 0] : Fin 3 → Nat) a + S1x1000x64.size a ≤ S26x1000x64.size a
  inb_S26x1168x64_S1x1000x64_18_80_0 : ∀ a, (![18, 80, 0] : Fin 3 → Nat) a + S1x1000x64.size a ≤ S26x1168x64.size a
  packedbf16_S26x1168x64_S1x1000x64_18_80_0 : (Rect.unit (s := S26x1168x64) ![18, 80, 0] S1x1000x64.size inb_S26x1168x64_S1x1000x64_18_80_0).PackedRows (EltTy.packing .bf16)
  inb_S26x1000x64_S1x1000x64_19_0_0 : ∀ a, (![19, 0, 0] : Fin 3 → Nat) a + S1x1000x64.size a ≤ S26x1000x64.size a
  inb_S26x1168x64_S1x1000x64_19_56_0 : ∀ a, (![19, 56, 0] : Fin 3 → Nat) a + S1x1000x64.size a ≤ S26x1168x64.size a
  packedbf16_S26x1168x64_S1x1000x64_19_56_0 : (Rect.unit (s := S26x1168x64) ![19, 56, 0] S1x1000x64.size inb_S26x1168x64_S1x1000x64_19_56_0).PackedRows (EltTy.packing .bf16)
  inb_S26x1000x64_S1x1000x64_20_0_0 : ∀ a, (![20, 0, 0] : Fin 3 → Nat) a + S1x1000x64.size a ≤ S26x1000x64.size a
  inb_S26x1168x64_S1x1000x64_20_32_0 : ∀ a, (![20, 32, 0] : Fin 3 → Nat) a + S1x1000x64.size a ≤ S26x1168x64.size a
  packedbf16_S26x1168x64_S1x1000x64_20_32_0 : (Rect.unit (s := S26x1168x64) ![20, 32, 0] S1x1000x64.size inb_S26x1168x64_S1x1000x64_20_32_0).PackedRows (EltTy.packing .bf16)
  inb_S26x1000x64_S1x1000x64_21_0_0 : ∀ a, (![21, 0, 0] : Fin 3 → Nat) a + S1x1000x64.size a ≤ S26x1000x64.size a
  inb_S26x1168x64_S1x1000x64_21_8_0 : ∀ a, (![21, 8, 0] : Fin 3 → Nat) a + S1x1000x64.size a ≤ S26x1168x64.size a
  packedbf16_S26x1168x64_S1x1000x64_21_8_0 : (Rect.unit (s := S26x1168x64) ![21, 8, 0] S1x1000x64.size inb_S26x1168x64_S1x1000x64_21_8_0).PackedRows (EltTy.packing .bf16)
  inb_S26x1000x64_S1x1000x64_22_0_0 : ∀ a, (![22, 0, 0] : Fin 3 → Nat) a + S1x1000x64.size a ≤ S26x1000x64.size a
  inb_S26x1168x64_S1x1000x64_22_112_0 : ∀ a, (![22, 112, 0] : Fin 3 → Nat) a + S1x1000x64.size a ≤ S26x1168x64.size a
  packedbf16_S26x1168x64_S1x1000x64_22_112_0 : (Rect.unit (s := S26x1168x64) ![22, 112, 0] S1x1000x64.size inb_S26x1168x64_S1x1000x64_22_112_0).PackedRows (EltTy.packing .bf16)
  inb_S26x1000x64_S1x1000x64_23_0_0 : ∀ a, (![23, 0, 0] : Fin 3 → Nat) a + S1x1000x64.size a ≤ S26x1000x64.size a
  inb_S26x1168x64_S1x1000x64_23_88_0 : ∀ a, (![23, 88, 0] : Fin 3 → Nat) a + S1x1000x64.size a ≤ S26x1168x64.size a
  packedbf16_S26x1168x64_S1x1000x64_23_88_0 : (Rect.unit (s := S26x1168x64) ![23, 88, 0] S1x1000x64.size inb_S26x1168x64_S1x1000x64_23_88_0).PackedRows (EltTy.packing .bf16)
  inb_S26x1000x64_S1x1000x64_24_0_0 : ∀ a, (![24, 0, 0] : Fin 3 → Nat) a + S1x1000x64.size a ≤ S26x1000x64.size a
  inb_S26x1168x64_S1x1000x64_24_64_0 : ∀ a, (![24, 64, 0] : Fin 3 → Nat) a + S1x1000x64.size a ≤ S26x1168x64.size a
  packedbf16_S26x1168x64_S1x1000x64_24_64_0 : (Rect.unit (s := S26x1168x64) ![24, 64, 0] S1x1000x64.size inb_S26x1168x64_S1x1000x64_24_64_0).PackedRows (EltTy.packing .bf16)
  inb_S26x1000x64_S1x1000x64_25_0_0 : ∀ a, (![25, 0, 0] : Fin 3 → Nat) a + S1x1000x64.size a ≤ S26x1000x64.size a
  inb_S26x1168x64_S1x1000x64_25_168_0 : ∀ a, (![25, 168, 0] : Fin 3 → Nat) a + S1x1000x64.size a ≤ S26x1168x64.size a
  packedbf16_S26x1168x64_S1x1000x64_25_168_0 : (Rect.unit (s := S26x1168x64) ![25, 168, 0] S1x1000x64.size inb_S26x1168x64_S1x1000x64_25_168_0).PackedRows (EltTy.packing .bf16)
  inb_S128x13_S128x13_0_0 : ∀ a, (![0, 0] : Fin 2 → Nat) a + S128x13.size a ≤ S128x13.size a
  h_S128x13 : 0 < S128x13.numel
  inb_S128x1677_S128x13_0_0 : ∀ a, (![0, 0] : Fin 2 → Nat) a + S128x13.size a ≤ S128x1677.size a
  inb_S128x26000_S128x1168_0_0 : ∀ a, (![0, 0] : Fin 2 → Nat) a + S128x1168.size a ≤ S128x26000.size a
  h_S128x1168 : 0 < S128x1168.numel
  inb_S26x1168x64_S1x1168x64_0_0_0 : ∀ a, (![0, 0, 0] : Fin 3 → Nat) a + S1x1168x64.size a ≤ S26x1168x64.size a
  h_S1x1168x64 : 0 < S1x1168x64.numel
  shapeCasts_S1x1168x64_S1168x64 : S1x1168x64.ShapeCasts S1168x64
  inb_S128x1677_S128x64_0_13 : ∀ a, (![0, 13] : Fin 2 → Nat) a + S128x64.size a ≤ S128x1677.size a
  h_S128x64 : 0 < S128x64.numel
  inb_S128x26000_S128x1168_0_896 : ∀ a, (![0, 896] : Fin 2 → Nat) a + S128x1168.size a ≤ S128x26000.size a
  inb_S26x1168x64_S1x1168x64_1_0_0 : ∀ a, (![1, 0, 0] : Fin 3 → Nat) a + S1x1168x64.size a ≤ S26x1168x64.size a
  inb_S128x1677_S128x64_0_77 : ∀ a, (![0, 77] : Fin 2 → Nat) a + S128x64.size a ≤ S128x1677.size a
  inb_S128x26000_S128x1168_0_1920 : ∀ a, (![0, 1920] : Fin 2 → Nat) a + S128x1168.size a ≤ S128x26000.size a
  inb_S26x1168x64_S1x1168x64_2_0_0 : ∀ a, (![2, 0, 0] : Fin 3 → Nat) a + S1x1168x64.size a ≤ S26x1168x64.size a
  inb_S128x1677_S128x64_0_141 : ∀ a, (![0, 141] : Fin 2 → Nat) a + S128x64.size a ≤ S128x1677.size a
  inb_S128x26000_S128x1168_0_2944 : ∀ a, (![0, 2944] : Fin 2 → Nat) a + S128x1168.size a ≤ S128x26000.size a
  inb_S26x1168x64_S1x1168x64_3_0_0 : ∀ a, (![3, 0, 0] : Fin 3 → Nat) a + S1x1168x64.size a ≤ S26x1168x64.size a
  inb_S128x1677_S128x64_0_205 : ∀ a, (![0, 205] : Fin 2 → Nat) a + S128x64.size a ≤ S128x1677.size a
  inb_S128x26000_S128x1168_0_3968 : ∀ a, (![0, 3968] : Fin 2 → Nat) a + S128x1168.size a ≤ S128x26000.size a
  inb_S26x1168x64_S1x1168x64_4_0_0 : ∀ a, (![4, 0, 0] : Fin 3 → Nat) a + S1x1168x64.size a ≤ S26x1168x64.size a
  inb_S128x1677_S128x64_0_269 : ∀ a, (![0, 269] : Fin 2 → Nat) a + S128x64.size a ≤ S128x1677.size a
  inb_S128x26000_S128x1168_0_4992 : ∀ a, (![0, 4992] : Fin 2 → Nat) a + S128x1168.size a ≤ S128x26000.size a
  inb_S26x1168x64_S1x1168x64_5_0_0 : ∀ a, (![5, 0, 0] : Fin 3 → Nat) a + S1x1168x64.size a ≤ S26x1168x64.size a
  inb_S128x1677_S128x64_0_333 : ∀ a, (![0, 333] : Fin 2 → Nat) a + S128x64.size a ≤ S128x1677.size a
  inb_S128x26000_S128x1168_0_5888 : ∀ a, (![0, 5888] : Fin 2 → Nat) a + S128x1168.size a ≤ S128x26000.size a
  inb_S26x1168x64_S1x1168x64_6_0_0 : ∀ a, (![6, 0, 0] : Fin 3 → Nat) a + S1x1168x64.size a ≤ S26x1168x64.size a
  inb_S128x1677_S128x64_0_397 : ∀ a, (![0, 397] : Fin 2 → Nat) a + S128x64.size a ≤ S128x1677.size a
  inb_S128x26000_S128x1168_0_6912 : ∀ a, (![0, 6912] : Fin 2 → Nat) a + S128x1168.size a ≤ S128x26000.size a
  inb_S26x1168x64_S1x1168x64_7_0_0 : ∀ a, (![7, 0, 0] : Fin 3 → Nat) a + S1x1168x64.size a ≤ S26x1168x64.size a
  inb_S128x1677_S128x64_0_461 : ∀ a, (![0, 461] : Fin 2 → Nat) a + S128x64.size a ≤ S128x1677.size a
  inb_S128x26000_S128x1168_0_7936 : ∀ a, (![0, 7936] : Fin 2 → Nat) a + S128x1168.size a ≤ S128x26000.size a
  inb_S26x1168x64_S1x1168x64_8_0_0 : ∀ a, (![8, 0, 0] : Fin 3 → Nat) a + S1x1168x64.size a ≤ S26x1168x64.size a
  inb_S128x1677_S128x64_0_525 : ∀ a, (![0, 525] : Fin 2 → Nat) a + S128x64.size a ≤ S128x1677.size a
  inb_S128x26000_S128x1168_0_8960 : ∀ a, (![0, 8960] : Fin 2 → Nat) a + S128x1168.size a ≤ S128x26000.size a
  inb_S26x1168x64_S1x1168x64_9_0_0 : ∀ a, (![9, 0, 0] : Fin 3 → Nat) a + S1x1168x64.size a ≤ S26x1168x64.size a
  inb_S128x1677_S128x64_0_589 : ∀ a, (![0, 589] : Fin 2 → Nat) a + S128x64.size a ≤ S128x1677.size a
  inb_S128x26000_S128x1168_0_9984 : ∀ a, (![0, 9984] : Fin 2 → Nat) a + S128x1168.size a ≤ S128x26000.size a
  inb_S26x1168x64_S1x1168x64_10_0_0 : ∀ a, (![10, 0, 0] : Fin 3 → Nat) a + S1x1168x64.size a ≤ S26x1168x64.size a
  inb_S128x1677_S128x64_0_653 : ∀ a, (![0, 653] : Fin 2 → Nat) a + S128x64.size a ≤ S128x1677.size a
  inb_S128x26000_S128x1168_0_10880 : ∀ a, (![0, 10880] : Fin 2 → Nat) a + S128x1168.size a ≤ S128x26000.size a
  inb_S26x1168x64_S1x1168x64_11_0_0 : ∀ a, (![11, 0, 0] : Fin 3 → Nat) a + S1x1168x64.size a ≤ S26x1168x64.size a
  inb_S128x1677_S128x64_0_717 : ∀ a, (![0, 717] : Fin 2 → Nat) a + S128x64.size a ≤ S128x1677.size a
  inb_S128x26000_S128x1168_0_11904 : ∀ a, (![0, 11904] : Fin 2 → Nat) a + S128x1168.size a ≤ S128x26000.size a
  inb_S26x1168x64_S1x1168x64_12_0_0 : ∀ a, (![12, 0, 0] : Fin 3 → Nat) a + S1x1168x64.size a ≤ S26x1168x64.size a
  inb_S128x1677_S128x64_0_781 : ∀ a, (![0, 781] : Fin 2 → Nat) a + S128x64.size a ≤ S128x1677.size a
  inb_S128x26000_S128x1168_0_12928 : ∀ a, (![0, 12928] : Fin 2 → Nat) a + S128x1168.size a ≤ S128x26000.size a
  inb_S26x1168x64_S1x1168x64_13_0_0 : ∀ a, (![13, 0, 0] : Fin 3 → Nat) a + S1x1168x64.size a ≤ S26x1168x64.size a
  inb_S128x1677_S128x64_0_845 : ∀ a, (![0, 845] : Fin 2 → Nat) a + S128x64.size a ≤ S128x1677.size a
  inb_S128x26000_S128x1168_0_13952 : ∀ a, (![0, 13952] : Fin 2 → Nat) a + S128x1168.size a ≤ S128x26000.size a
  inb_S26x1168x64_S1x1168x64_14_0_0 : ∀ a, (![14, 0, 0] : Fin 3 → Nat) a + S1x1168x64.size a ≤ S26x1168x64.size a
  inb_S128x1677_S128x64_0_909 : ∀ a, (![0, 909] : Fin 2 → Nat) a + S128x64.size a ≤ S128x1677.size a
  inb_S128x26000_S128x1168_0_14976 : ∀ a, (![0, 14976] : Fin 2 → Nat) a + S128x1168.size a ≤ S128x26000.size a
  inb_S26x1168x64_S1x1168x64_15_0_0 : ∀ a, (![15, 0, 0] : Fin 3 → Nat) a + S1x1168x64.size a ≤ S26x1168x64.size a
  inb_S128x1677_S128x64_0_973 : ∀ a, (![0, 973] : Fin 2 → Nat) a + S128x64.size a ≤ S128x1677.size a
  inb_S128x26000_S128x1168_0_16000 : ∀ a, (![0, 16000] : Fin 2 → Nat) a + S128x1168.size a ≤ S128x26000.size a
  inb_S26x1168x64_S1x1168x64_16_0_0 : ∀ a, (![16, 0, 0] : Fin 3 → Nat) a + S1x1168x64.size a ≤ S26x1168x64.size a
  inb_S128x1677_S128x64_0_1037 : ∀ a, (![0, 1037] : Fin 2 → Nat) a + S128x64.size a ≤ S128x1677.size a
  inb_S128x26000_S128x1168_0_16896 : ∀ a, (![0, 16896] : Fin 2 → Nat) a + S128x1168.size a ≤ S128x26000.size a
  inb_S26x1168x64_S1x1168x64_17_0_0 : ∀ a, (![17, 0, 0] : Fin 3 → Nat) a + S1x1168x64.size a ≤ S26x1168x64.size a
  inb_S128x1677_S128x64_0_1101 : ∀ a, (![0, 1101] : Fin 2 → Nat) a + S128x64.size a ≤ S128x1677.size a
  inb_S128x26000_S128x1168_0_17920 : ∀ a, (![0, 17920] : Fin 2 → Nat) a + S128x1168.size a ≤ S128x26000.size a
  inb_S26x1168x64_S1x1168x64_18_0_0 : ∀ a, (![18, 0, 0] : Fin 3 → Nat) a + S1x1168x64.size a ≤ S26x1168x64.size a
  inb_S128x1677_S128x64_0_1165 : ∀ a, (![0, 1165] : Fin 2 → Nat) a + S128x64.size a ≤ S128x1677.size a
  inb_S128x26000_S128x1168_0_18944 : ∀ a, (![0, 18944] : Fin 2 → Nat) a + S128x1168.size a ≤ S128x26000.size a
  inb_S26x1168x64_S1x1168x64_19_0_0 : ∀ a, (![19, 0, 0] : Fin 3 → Nat) a + S1x1168x64.size a ≤ S26x1168x64.size a
  inb_S128x1677_S128x64_0_1229 : ∀ a, (![0, 1229] : Fin 2 → Nat) a + S128x64.size a ≤ S128x1677.size a
  inb_S128x26000_S128x1168_0_19968 : ∀ a, (![0, 19968] : Fin 2 → Nat) a + S128x1168.size a ≤ S128x26000.size a
  inb_S26x1168x64_S1x1168x64_20_0_0 : ∀ a, (![20, 0, 0] : Fin 3 → Nat) a + S1x1168x64.size a ≤ S26x1168x64.size a
  inb_S128x1677_S128x64_0_1293 : ∀ a, (![0, 1293] : Fin 2 → Nat) a + S128x64.size a ≤ S128x1677.size a
  inb_S128x26000_S128x1168_0_20992 : ∀ a, (![0, 20992] : Fin 2 → Nat) a + S128x1168.size a ≤ S128x26000.size a
  inb_S26x1168x64_S1x1168x64_21_0_0 : ∀ a, (![21, 0, 0] : Fin 3 → Nat) a + S1x1168x64.size a ≤ S26x1168x64.size a
  inb_S128x1677_S128x64_0_1357 : ∀ a, (![0, 1357] : Fin 2 → Nat) a + S128x64.size a ≤ S128x1677.size a
  inb_S128x26000_S128x1168_0_21888 : ∀ a, (![0, 21888] : Fin 2 → Nat) a + S128x1168.size a ≤ S128x26000.size a
  inb_S26x1168x64_S1x1168x64_22_0_0 : ∀ a, (![22, 0, 0] : Fin 3 → Nat) a + S1x1168x64.size a ≤ S26x1168x64.size a
  inb_S128x1677_S128x64_0_1421 : ∀ a, (![0, 1421] : Fin 2 → Nat) a + S128x64.size a ≤ S128x1677.size a
  inb_S128x26000_S128x1168_0_22912 : ∀ a, (![0, 22912] : Fin 2 → Nat) a + S128x1168.size a ≤ S128x26000.size a
  inb_S26x1168x64_S1x1168x64_23_0_0 : ∀ a, (![23, 0, 0] : Fin 3 → Nat) a + S1x1168x64.size a ≤ S26x1168x64.size a
  inb_S128x1677_S128x64_0_1485 : ∀ a, (![0, 1485] : Fin 2 → Nat) a + S128x64.size a ≤ S128x1677.size a
  inb_S128x26000_S128x1168_0_23936 : ∀ a, (![0, 23936] : Fin 2 → Nat) a + S128x1168.size a ≤ S128x26000.size a
  inb_S26x1168x64_S1x1168x64_24_0_0 : ∀ a, (![24, 0, 0] : Fin 3 → Nat) a + S1x1168x64.size a ≤ S26x1168x64.size a
  inb_S128x1677_S128x64_0_1549 : ∀ a, (![0, 1549] : Fin 2 → Nat) a + S128x64.size a ≤ S128x1677.size a
  inb_S128x26000_S128x1168_0_24832 : ∀ a, (![0, 24832] : Fin 2 → Nat) a + S128x1168.size a ≤ S128x26000.size a
  inb_S26x1168x64_S1x1168x64_25_0_0 : ∀ a, (![25, 0, 0] : Fin 3 → Nat) a + S1x1168x64.size a ≤ S26x1168x64.size a
  inb_S128x1677_S128x64_0_1613 : ∀ a, (![0, 1613] : Fin 2 → Nat) a + S128x64.size a ≤ S128x1677.size a
  dot_S128x1168_S1168x64_S128x64_1_0_0_1_n_n_wf : DotDims.WF S128x1168 S1168x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x13.size a ≤ S1024x13.size a
  hwx0_0 : ∀ i : grid0.Coords, EltTy.bits .f32 = 32 ∨ (Rect.block (s := S1024x13) S128x13.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x26000.size a ≤ S1024x26000.size a
  hwx0_1 : ∀ i : grid0.Coords, EltTy.bits .i32 = 32 ∨ (Rect.block (s := S1024x26000) S128x26000.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S26x1000x64.size a ≤ S26x1000x64.size a
  hwx0_2 : ∀ i : grid0.Coords, EltTy.bits .f32 = 32 ∨ (Rect.block (s := S26x1000x64) S26x1000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1677.size a ≤ S1024x1677.size a
  hwx0_3 : ∀ i : grid0.Coords, EltTy.bits .f32 = 32 ∨ (Rect.block (s := S1024x1677) S128x1677.size (cc0_transform_3 i) (hinb0_3 i)).WholeWords (EltTy.packing .f32)

variable [Facts₀]

def dot_S128x1168_S1168x64_S128x64_1_0_0_1_n_n : DotDims S128x1168 S1168x64 S128x64 where
  lhsContracting := [1]
  rhsContracting := [0]
  lhsNonContracting := [0]
  rhsNonContracting := [1]
  lhsBatch := []
  rhsBatch := []
  wf := dot_S128x1168_S1168x64_S128x64_1_0_0_1_n_n_wf

abbrev win0_0 : Pipeline.Window sig grid0 :=
  Pipeline.Window.ofSpec (Memref.whole main_arg0) S128x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x26000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S26x1000x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x1677.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x13 : Shape := ⟨2, ![1024, 13]⟩
abbrev S1024x26000 : Shape := ⟨2, ![1024, 26000]⟩
abbrev S26x1000x64 : Shape := ⟨3, ![26, 1000, 64]⟩
abbrev S1024x1000 : Shape := ⟨2, ![1024, 1000]⟩
abbrev S1x1000x64 : Shape := ⟨3, ![1, 1000, 64]⟩
abbrev S1000x64 : Shape := ⟨2, ![1000, 64]⟩
abbrev S1024x64 : Shape := ⟨2, ![1024, 64]⟩
abbrev S1024x1024 : Shape := ⟨2, ![1024, 1024]⟩
abbrev S1024x640 : Shape := ⟨2, ![1024, 640]⟩
abbrev S1024x1664 : Shape := ⟨2, ![1024, 1664]⟩
abbrev S1024x1677 : Shape := ⟨2, ![1024, 1677]⟩

abbrev nBuf : Space → Nat
  | .hbm => 112
  | .vmem => 0
  | .smem => 0
  | _ => 0

abbrev bufTy : (tb : Table) → Fin (tcTables nBuf tb) → BufTy
  | .hbm, ⟨0, _⟩ => ⟨S1024x13, .f32⟩
  | .hbm, ⟨1, _⟩ => ⟨S1024x26000, .i32⟩
  | .hbm, ⟨2, _⟩ => ⟨S26x1000x64, .f32⟩
  | .hbm, ⟨3, _⟩ => ⟨S1024x26000, .f32⟩
  | .hbm, ⟨4, _⟩ => ⟨S1024x1000, .f32⟩
  | .hbm, ⟨5, _⟩ => ⟨S1x1000x64, .f32⟩
  | .hbm, ⟨6, _⟩ => ⟨S1000x64, .f32⟩
  | .hbm, ⟨7, _⟩ => ⟨S1024x64, .f32⟩
  | .hbm, ⟨8, _⟩ => ⟨S1024x1000, .f32⟩
  | .hbm, ⟨9, _⟩ => ⟨S1x1000x64, .f32⟩
  | .hbm, ⟨10, _⟩ => ⟨S1000x64, .f32⟩
  | .hbm, ⟨11, _⟩ => ⟨S1024x64, .f32⟩
  | .hbm, ⟨12, _⟩ => ⟨S1024x1000, .f32⟩
  | .hbm, ⟨13, _⟩ => ⟨S1x1000x64, .f32⟩
  | .hbm, ⟨14, _⟩ => ⟨S1000x64, .f32⟩
  | .hbm, ⟨15, _⟩ => ⟨S1024x64, .f32⟩
  | .hbm, ⟨16, _⟩ => ⟨S1024x1000, .f32⟩
  | .hbm, ⟨17, _⟩ => ⟨S1x1000x64, .f32⟩
  | .hbm, ⟨18, _⟩ => ⟨S1000x64, .f32⟩
  | .hbm, ⟨19, _⟩ => ⟨S1024x64, .f32⟩
  | .hbm, ⟨20, _⟩ => ⟨S1024x1000, .f32⟩
  | .hbm, ⟨21, _⟩ => ⟨S1x1000x64, .f32⟩
  | .hbm, ⟨22, _⟩ => ⟨S1000x64, .f32⟩
  | .hbm, ⟨23, _⟩ => ⟨S1024x64, .f32⟩
  | .hbm, ⟨24, _⟩ => ⟨S1024x1000, .f32⟩
  | .hbm, ⟨25, _⟩ => ⟨S1x1000x64, .f32⟩
  | .hbm, ⟨26, _⟩ => ⟨S1000x64, .f32⟩
  | .hbm, ⟨27, _⟩ => ⟨S1024x64, .f32⟩
  | .hbm, ⟨28, _⟩ => ⟨S1024x1000, .f32⟩
  | .hbm, ⟨29, _⟩ => ⟨S1x1000x64, .f32⟩
  | .hbm, ⟨30, _⟩ => ⟨S1000x64, .f32⟩
  | .hbm, ⟨31, _⟩ => ⟨S1024x64, .f32⟩
  | .hbm, ⟨32, _⟩ => ⟨S1024x1000, .f32⟩
  | .hbm, ⟨33, _⟩ => ⟨S1x1000x64, .f32⟩
  | .hbm, ⟨34, _⟩ => ⟨S1000x64, .f32⟩
  | .hbm, ⟨35, _⟩ => ⟨S1024x64, .f32⟩
  | .hbm, ⟨36, _⟩ => ⟨S1024x1000, .f32⟩
  | .hbm, ⟨37, _⟩ => ⟨S1x1000x64, .f32⟩
  | .hbm, ⟨38, _⟩ => ⟨S1000x64, .f32⟩
  | .hbm, ⟨39, _⟩ => ⟨S1024x64, .f32⟩
  | .hbm, ⟨40, _⟩ => ⟨S1024x1000, .f32⟩
  | .hbm, ⟨41, _⟩ => ⟨S1x1000x64, .f32⟩
  | .hbm, ⟨42, _⟩ => ⟨S1000x64, .f32⟩
  | .hbm, ⟨43, _⟩ => ⟨S1024x64, .f32⟩
  | .hbm, ⟨44, _⟩ => ⟨S1024x1000, .f32⟩
  | .hbm, ⟨45, _⟩ => ⟨S1x1000x64, .f32⟩
  | .hbm, ⟨46, _⟩ => ⟨S1000x64, .f32⟩
  | .hbm, ⟨47, _⟩ => ⟨S1024x64, .f32⟩
  | .hbm, ⟨48, _⟩ => ⟨S1024x1000, .f32⟩
  | .hbm, ⟨49, _⟩ => ⟨S1x1000x64, .f32⟩
  | .hbm, ⟨50, _⟩ => ⟨S1000x64, .f32⟩
  | .hbm, ⟨51, _⟩ => ⟨S1024x64, .f32⟩
  | .hbm, ⟨52, _⟩ => ⟨S1024x1000, .f32⟩
  | .hbm, ⟨53, _⟩ => ⟨S1x1000x64, .f32⟩
  | .hbm, ⟨54, _⟩ => ⟨S1000x64, .f32⟩
  | .hbm, ⟨55, _⟩ => ⟨S1024x64, .f32⟩
  | .hbm, ⟨56, _⟩ => ⟨S1024x1000, .f32⟩
  | .hbm, ⟨57, _⟩ => ⟨S1x1000x64, .f32⟩
  | .hbm, ⟨58, _⟩ => ⟨S1000x64, .f32⟩
  | .hbm, ⟨59, _⟩ => ⟨S1024x64, .f32⟩
  | .hbm, ⟨60, _⟩ => ⟨S1024x1000, .f32⟩
  | .hbm, ⟨61, _⟩ => ⟨S1x1000x64, .f32⟩
  | .hbm, ⟨62, _⟩ => ⟨S1000x64, .f32⟩
  | .hbm, ⟨63, _⟩ => ⟨S1024x64, .f32⟩
  | .hbm, ⟨64, _⟩ => ⟨S1024x1000, .f32⟩
  | .hbm, ⟨65, _⟩ => ⟨S1x1000x64, .f32⟩
  | .hbm, ⟨66, _⟩ => ⟨S1000x64, .f32⟩
  | .hbm, ⟨67, _⟩ => ⟨S1024x64, .f32⟩
  | .hbm, ⟨68, _⟩ => ⟨S1024x1000, .f32⟩
  | .hbm, ⟨69, _⟩ => ⟨S1x1000x64, .f32⟩
  | .hbm, ⟨70, _⟩ => ⟨S1000x64, .f32⟩
  | .hbm, ⟨71, _⟩ => ⟨S1024x64, .f32⟩
  | .hbm, ⟨72, _⟩ => ⟨S1024x1000, .f32⟩
  | .hbm, ⟨73, _⟩ => ⟨S1x1000x64, .f32⟩
  | .hbm, ⟨74, _⟩ => ⟨S1000x64, .f32⟩
  | .hbm, ⟨75, _⟩ => ⟨S1024x64, .f32⟩
  | .hbm, ⟨76, _⟩ => ⟨S1024x1000, .f32⟩
  | .hbm, ⟨77, _⟩ => ⟨S1x1000x64, .f32⟩
  | .hbm, ⟨78, _⟩ => ⟨S1000x64, .f32⟩
  | .hbm, ⟨79, _⟩ => ⟨S1024x64, .f32⟩
  | .hbm, ⟨80, _⟩ => ⟨S1024x1000, .f32⟩
  | .hbm, ⟨81, _⟩ => ⟨S1x1000x64, .f32⟩
  | .hbm, ⟨82, _⟩ => ⟨S1000x64, .f32⟩
  | .hbm, ⟨83, _⟩ => ⟨S1024x64, .f32⟩
  | .hbm, ⟨84, _⟩ => ⟨S1024x1000, .f32⟩
  | .hbm, ⟨85, _⟩ => ⟨S1x1000x64, .f32⟩
  | .hbm, ⟨86, _⟩ => ⟨S1000x64, .f32⟩
  | .hbm, ⟨87, _⟩ => ⟨S1024x64, .f32⟩
  | .hbm, ⟨88, _⟩ => ⟨S1024x1000, .f32⟩
  | .hbm, ⟨89, _⟩ => ⟨S1x1000x64, .f32⟩
  | .hbm, ⟨90, _⟩ => ⟨S1000x64, .f32⟩
  | .hbm, ⟨91, _⟩ => ⟨S1024x64, .f32⟩
  | .hbm, ⟨92, _⟩ => ⟨S1024x1000, .f32⟩
  | .hbm, ⟨93, _⟩ => ⟨S1x1000x64, .f32⟩
  | .hbm, ⟨94, _⟩ => ⟨S1000x64, .f32⟩
  | .hbm, ⟨95, _⟩ => ⟨S1024x64, .f32⟩
  | .hbm, ⟨96, _⟩ => ⟨S1024x1000, .f32⟩
  | .hbm, ⟨97, _⟩ => ⟨S1x1000x64, .f32⟩
  | .hbm, ⟨98, _⟩ => ⟨S1000x64, .f32⟩
  | .hbm, ⟨99, _⟩ => ⟨S1024x64, .f32⟩
  | .hbm, ⟨100, _⟩ => ⟨S1024x1000, .f32⟩
  | .hbm, ⟨101, _⟩ => ⟨S1x1000x64, .f32⟩
  | .hbm, ⟨102, _⟩ => ⟨S1000x64, .f32⟩
  | .hbm, ⟨103, _⟩ => ⟨S1024x64, .f32⟩
  | .hbm, ⟨104, _⟩ => ⟨S1024x1000, .f32⟩
  | .hbm, ⟨105, _⟩ => ⟨S1x1000x64, .f32⟩
  | .hbm, ⟨106, _⟩ => ⟨S1000x64, .f32⟩
  | .hbm, ⟨107, _⟩ => ⟨S1024x64, .f32⟩
  | .hbm, ⟨108, _⟩ => ⟨S1024x1024, .f32⟩
  | .hbm, ⟨109, _⟩ => ⟨S1024x640, .f32⟩
  | .hbm, ⟨110, _⟩ => ⟨S1024x1664, .f32⟩
  | .hbm, ⟨111, _⟩ => ⟨S1024x1677, .f32⟩
  | _, _ => ⟨S1024x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩

abbrev nD : Nat := 1
abbrev τ : Topo := Topo.v7x

variable {F : FTy → Type} [FloatOps F]

class Facts₀ : Prop where
  slices_S1024x26000_S1024x1000_0_0 : S1024x26000.Slices ![0, 0] S1024x1000
  slices_S26x1000x64_S1x1000x64_0_0_0 : S26x1000x64.Slices ![0, 0, 0] S1x1000x64
  shapeCasts_S1x1000x64_S1000x64 : S1x1000x64.ShapeCasts S1000x64
  slices_S1024x26000_S1024x1000_0_1000 : S1024x26000.Slices ![0, 1000] S1024x1000
  slices_S26x1000x64_S1x1000x64_1_0_0 : S26x1000x64.Slices ![1, 0, 0] S1x1000x64
  slices_S1024x26000_S1024x1000_0_2000 : S1024x26000.Slices ![0, 2000] S1024x1000
  slices_S26x1000x64_S1x1000x64_2_0_0 : S26x1000x64.Slices ![2, 0, 0] S1x1000x64
  slices_S1024x26000_S1024x1000_0_3000 : S1024x26000.Slices ![0, 3000] S1024x1000
  slices_S26x1000x64_S1x1000x64_3_0_0 : S26x1000x64.Slices ![3, 0, 0] S1x1000x64
  slices_S1024x26000_S1024x1000_0_4000 : S1024x26000.Slices ![0, 4000] S1024x1000
  slices_S26x1000x64_S1x1000x64_4_0_0 : S26x1000x64.Slices ![4, 0, 0] S1x1000x64
  slices_S1024x26000_S1024x1000_0_5000 : S1024x26000.Slices ![0, 5000] S1024x1000
  slices_S26x1000x64_S1x1000x64_5_0_0 : S26x1000x64.Slices ![5, 0, 0] S1x1000x64
  slices_S1024x26000_S1024x1000_0_6000 : S1024x26000.Slices ![0, 6000] S1024x1000
  slices_S26x1000x64_S1x1000x64_6_0_0 : S26x1000x64.Slices ![6, 0, 0] S1x1000x64
  slices_S1024x26000_S1024x1000_0_7000 : S1024x26000.Slices ![0, 7000] S1024x1000
  slices_S26x1000x64_S1x1000x64_7_0_0 : S26x1000x64.Slices ![7, 0, 0] S1x1000x64
  slices_S1024x26000_S1024x1000_0_8000 : S1024x26000.Slices ![0, 8000] S1024x1000
  slices_S26x1000x64_S1x1000x64_8_0_0 : S26x1000x64.Slices ![8, 0, 0] S1x1000x64
  slices_S1024x26000_S1024x1000_0_9000 : S1024x26000.Slices ![0, 9000] S1024x1000
  slices_S26x1000x64_S1x1000x64_9_0_0 : S26x1000x64.Slices ![9, 0, 0] S1x1000x64
  slices_S1024x26000_S1024x1000_0_10000 : S1024x26000.Slices ![0, 10000] S1024x1000
  slices_S26x1000x64_S1x1000x64_10_0_0 : S26x1000x64.Slices ![10, 0, 0] S1x1000x64
  slices_S1024x26000_S1024x1000_0_11000 : S1024x26000.Slices ![0, 11000] S1024x1000
  slices_S26x1000x64_S1x1000x64_11_0_0 : S26x1000x64.Slices ![11, 0, 0] S1x1000x64
  slices_S1024x26000_S1024x1000_0_12000 : S1024x26000.Slices ![0, 12000] S1024x1000
  slices_S26x1000x64_S1x1000x64_12_0_0 : S26x1000x64.Slices ![12, 0, 0] S1x1000x64
  slices_S1024x26000_S1024x1000_0_13000 : S1024x26000.Slices ![0, 13000] S1024x1000
  slices_S26x1000x64_S1x1000x64_13_0_0 : S26x1000x64.Slices ![13, 0, 0] S1x1000x64
  slices_S1024x26000_S1024x1000_0_14000 : S1024x26000.Slices ![0, 14000] S1024x1000
  slices_S26x1000x64_S1x1000x64_14_0_0 : S26x1000x64.Slices ![14, 0, 0] S1x1000x64
  slices_S1024x26000_S1024x1000_0_15000 : S1024x26000.Slices ![0, 15000] S1024x1000
  slices_S26x1000x64_S1x1000x64_15_0_0 : S26x1000x64.Slices ![15, 0, 0] S1x1000x64
  slices_S1024x26000_S1024x1000_0_16000 : S1024x26000.Slices ![0, 16000] S1024x1000
  slices_S26x1000x64_S1x1000x64_16_0_0 : S26x1000x64.Slices ![16, 0, 0] S1x1000x64
  slices_S1024x26000_S1024x1000_0_17000 : S1024x26000.Slices ![0, 17000] S1024x1000
  slices_S26x1000x64_S1x1000x64_17_0_0 : S26x1000x64.Slices ![17, 0, 0] S1x1000x64
  slices_S1024x26000_S1024x1000_0_18000 : S1024x26000.Slices ![0, 18000] S1024x1000
  slices_S26x1000x64_S1x1000x64_18_0_0 : S26x1000x64.Slices ![18, 0, 0] S1x1000x64
  slices_S1024x26000_S1024x1000_0_19000 : S1024x26000.Slices ![0, 19000] S1024x1000
  slices_S26x1000x64_S1x1000x64_19_0_0 : S26x1000x64.Slices ![19, 0, 0] S1x1000x64
  slices_S1024x26000_S1024x1000_0_20000 : S1024x26000.Slices ![0, 20000] S1024x1000
  slices_S26x1000x64_S1x1000x64_20_0_0 : S26x1000x64.Slices ![20, 0, 0] S1x1000x64
  slices_S1024x26000_S1024x1000_0_21000 : S1024x26000.Slices ![0, 21000] S1024x1000
  slices_S26x1000x64_S1x1000x64_21_0_0 : S26x1000x64.Slices ![21, 0, 0] S1x1000x64
  slices_S1024x26000_S1024x1000_0_22000 : S1024x26000.Slices ![0, 22000] S1024x1000
  slices_S26x1000x64_S1x1000x64_22_0_0 : S26x1000x64.Slices ![22, 0, 0] S1x1000x64
  slices_S1024x26000_S1024x1000_0_23000 : S1024x26000.Slices ![0, 23000] S1024x1000
  slices_S26x1000x64_S1x1000x64_23_0_0 : S26x1000x64.Slices ![23, 0, 0] S1x1000x64
  slices_S1024x26000_S1024x1000_0_24000 : S1024x26000.Slices ![0, 24000] S1024x1000
  slices_S26x1000x64_S1x1000x64_24_0_0 : S26x1000x64.Slices ![24, 0, 0] S1x1000x64
  slices_S1024x26000_S1024x1000_0_25000 : S1024x26000.Slices ![0, 25000] S1024x1000
  slices_S26x1000x64_S1x1000x64_25_0_0 : S26x1000x64.Slices ![25, 0, 0] S1x1000x64
  concatenates_S1024x64_S1024x64_S1024x64_S1024x64_S1024x64_S1024x64_S1024x64_S1024x64_S1024x64_S1024x64_S1024x64_S1024x64_S1024x64_S1024x64_S1024x64_S1024x64_S1024x1024_d1 : Shape.Concatenates [S1024x64, S1024x64, S1024x64, S1024x64, S1024x64, S1024x64, S1024x64, S1024x64, S1024x64, S1024x64, S1024x64, S1024x64, S1024x64, S1024x64, S1024x64, S1024x64] S1024x1024 1
  concatenates_S1024x64_S1024x64_S1024x64_S1024x64_S1024x64_S1024x64_S1024x64_S1024x64_S1024x64_S1024x64_S1024x640_d1 : Shape.Concatenates [S1024x64, S1024x64, S1024x64, S1024x64, S1024x64, S1024x64, S1024x64, S1024x64, S1024x64, S1024x64] S1024x640 1
  concatenates_S1024x1024_S1024x640_S1024x1664_d1 : Shape.Concatenates [S1024x1024, S1024x640] S1024x1664 1
  concatenates_S1024x13_S1024x1664_S1024x1677_d1 : Shape.Concatenates [S1024x13, S1024x1664] S1024x1677 1
  dot_S1024x1000_S1000x64_S1024x64_1_0_0_1_n_n_wf : DotDims.WF S1024x1000 S1000x64 S1024x64 [1] [0] [0] [1] [] []

variable [Facts₀]

def dot_S1024x1000_S1000x64_S1024x64_1_0_0_1_n_n : DotDims S1024x1000 S1000x64 S1024x64 where
  lhsContracting := [1]
  rhsContracting := [0]
  lhsNonContracting := [0]
  rhsNonContracting := [1]
  lhsBatch := []
  rhsBatch := []
  wf := dot_S1024x1000_S1000x64_S1024x64_1_0_0_1_n_n_wf

class Facts : Prop extends Facts₀ where

variable [Facts]
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.FieldProduct.lean ====
/-
  ONE FIELD'S PRODUCT. Each of the 26 fields' stores writes the same function of two loaded values: the [128, 1168]
  window of category integers, converted to floating point (exactly, at the ideal values), times the field's
  [1168, 64] slab of the padded table (the loaded [1, 1168, 64] slab with its unit axis dropped), accumulated into
  zero. At entry (p, e) this is Σ_{c < 1168} window(p, c) · slab(0, c, e), the category entry read as the signed
  integer it is.
-/
import proofs.«123104_g7189775253945_cont_9to1c4b_357_9_alg».proof.Proof.Gen.KernelIdeal.Skeleton
import proofs.«123104_g7189775253945_cont_9to1c4b_357_9_alg».proof.Proof.LibPlainMatmul
import Idealize.ShloMosaic.Lib.Pipeline.Value

open scoped BigOperators

noncomputable section

namespace Cert.KernelIdeal.Fields

open Idealize.ShloMosaic Idealize.ShloMosaic.ValueIdx Cert.KernelIdeal Cert.KernelIdeal.Gen

/-- The field product at an entry. -/
theorem fieldProduct_apply (v : Vec Ideal S128x1168 .i32) (w : Vec Ideal S1x1168x64 .bf16) (p : Fin 128) (e : Fin 64) :
    k0_pay1 (F := Ideal) v w (ix2 p e)
      = ∑ c : Fin 1168, (((v (ix2 p c)).toInt : ℝ) : EReal) * w (ix3 (0 : Fin 1) c e) := by
  unfold k0_pay1
  rw [PlainMatmul.matmul_zero_apply dot_S128x1168_S1168x64_S128x64_1_0_0_1_n_n
    dot_S128x1168_S1168x64_S128x64_1_0_0_1_n_n_wf rfl]
  refine Finset.sum_congr rfl fun c _ => ?_
  rw [shapeCast_dropUnit_apply ![1168, 64] w]
  refine congrArg (fun z => (((v (ix2 p c)).toInt : ℝ) : EReal) * w z) ?_
  funext a
  match a with
  | ⟨0, _⟩ => rfl
  | ⟨1, _⟩ => rfl
  | ⟨2, _⟩ => rfl

end Cert.KernelIdeal.Fields

end
-- ==== Proof.PaddedSum.lean ====
/-
  A SUM AGAINST A ZERO-PADDED FACTOR. Let w be a sequence of k terms and let w' be w shifted right by `off` places
  inside a longer window of n places (off + k ≤ n), with zero in every place outside the shifted copy. Then for any
  sequence x over the window, Σ_{c < n} x(c) · w'(c) = Σ_{c < k} x(off + c) · w(c): the places outside the copy
  contribute x(c) · 0 = 0, and the places inside are the copy's own, renumbered from off. Only x · 0 = 0 and the
  commutative monoid of the sum are used, both of which the extended reals have, infinities included.
-/
import Mathlib.Algebra.BigOperators.Fin
import Mathlib.Algebra.BigOperators.Intervals
import Mathlib.Data.EReal.Operations

open scoped BigOperators

namespace PaddedSum

local notation "M" => EReal

/-- The padded window's sum over `range n` is the unpadded sum over `range k`. -/
theorem sum_range_pad (n k off : ℕ) (h : off + k ≤ n) (x w : ℕ → M) :
    ∑ c ∈ Finset.range n, x c * (if off ≤ c ∧ c < off + k then w (c - off) else 0)
      = ∑ c ∈ Finset.range k, x (off + c) * w c := by
  have hsub : Finset.Ico off (off + k) ⊆ Finset.range n := fun c hc => by
    rw [Finset.mem_Ico] at hc; rw [Finset.mem_range]; omega
  rw [← Finset.sum_subset hsub (fun c _ hc => by
    rw [Finset.mem_Ico] at hc; rw [if_neg hc, mul_zero])]
  rw [Finset.sum_Ico_eq_sum_range, Nat.add_sub_cancel_left]
  refine Finset.sum_congr rfl fun c hc => ?_
  rw [Finset.mem_range] at hc
  rw [if_pos ⟨Nat.le_add_right _ _, Nat.add_lt_add_left hc _⟩, Nat.add_sub_cancel_left]

/-- The same with both sums over `Fin`. -/
theorem sum_fin_pad (n k off : ℕ) (h : off + k ≤ n) (x w : ℕ → M) :
    ∑ c : Fin n, x c.val * (if off ≤ c.val ∧ c.val < off + k then w (c.val - off) else 0)
      = ∑ c : Fin k, x (off + c.val) * w c.val := by
  rw [← Finset.sum_range (fun c => x c * (if off ≤ c ∧ c < off + k then w (c - off) else 0)),
    ← Finset.sum_range (fun c => x (off + c) * w c)]
  exact sum_range_pad n k off h x w

end PaddedSum
-- ==== Proof.Spec.lean ====
/-
  THE SPECIFICATION. The result is a [1024, 1677] array: in row r the first 13 columns are the 13 continuous
  features of row r, and for each of the 26 fields i the 64 columns 13 + 64 i … 13 + 64 i + 63 hold the
  multi-hot embedding sum  Σ_{c < 1000} cat(r, 1000 i + c) · W(i, c, e)  (e the column inside the field), the
  category entry read as the signed integer it is, on the extended reals.

  The kernel computes each field's sum over a longer, lane-aligned window of 1168 category columns that starts at
  `start i` ≤ 1000 i, against a table whose 1168 rows are zero except for the 1000 rows from `off i = 1000 i − start i`
  on, which hold W(i, ·, ·). `start`, `off` and the padded table are defined here, with the law that the padded
  window's sum is the field's own sum (the zero rows contribute cat · 0 = 0).

  Arrays are read through total functions of natural-number coordinates (zero off the array), so that the index
  arithmetic is arithmetic of naturals.
-/
import Idealize.ShloMosaic.Lib.ValueIdx
import Idealize.ShloMosaic.PureOps.Ideal
import proofs.«123104_g7189775253945_cont_9to1c4b_357_9_alg».proof.Proof.PaddedSum

open scoped BigOperators

noncomputable section

namespace Cert.Embed

open Idealize.ShloMosaic Idealize.ShloMosaic.ValueIdx

/-- The first category column of field `i`'s aligned window: 1000 i rounded down to a multiple of 128, but never so
    far right that the 1168-column window would leave the 26000 columns. -/
def start (i : ℕ) : ℕ := min (128 * (1000 * i / 128)) 24832

/-- Where field `i`'s own 1000 columns begin inside its window. -/
def off (i : ℕ) : ℕ := 1000 * i - start i

theorem start_add_off : ∀ i < 26, start i + off i = 1000 * i := by decide
theorem off_add_le : ∀ i < 26, off i + 1000 ≤ 1168 := by decide
theorem start_add_le : ∀ i < 26, start i + 1168 ≤ 26000 := by decide

/-- A rank-2 array of extended reals at natural coordinates. -/
def at2 {n0 n1 : ℕ} (x : (⟨2, ![n0, n1]⟩ : Shape).Idx → EReal) (r c : ℕ) : EReal :=
  if h : r < n0 ∧ c < n1 then x (ix2 ⟨r, h.1⟩ ⟨c, h.2⟩) else 0

/-- A rank-2 array of 32-bit integers at natural coordinates, each entry the signed integer it is. -/
def int2 {n0 n1 : ℕ} (x : (⟨2, ![n0, n1]⟩ : Shape).Idx → BitVec 32) (r c : ℕ) : EReal :=
  if h : r < n0 ∧ c < n1 then (((x (ix2 ⟨r, h.1⟩ ⟨c, h.2⟩)).toInt : ℝ) : EReal) else 0

/-- A rank-3 array of extended reals at natural coordinates. -/
def at3 {n0 n1 n2 : ℕ} (x : (⟨3, ![n0, n1, n2]⟩ : Shape).Idx → EReal) (i c e : ℕ) : EReal :=
  if h : i < n0 ∧ c < n1 ∧ e < n2 then x (ix3 ⟨i, h.1⟩ ⟨c, h.2.1⟩ ⟨e, h.2.2⟩) else 0

theorem at2_ix2 {n0 n1 : ℕ} (x : (⟨2, ![n0, n1]⟩ : Shape).Idx → EReal) (a : Fin n0) (b : Fin n1) :
    at2 x a.val b.val = x (ix2 a b) := by
  unfold at2; rw [dif_pos ⟨a.isLt, b.isLt⟩]

theorem int2_ix2 {n0 n1 : ℕ} (x : (⟨2, ![n0, n1]⟩ : Shape).Idx → BitVec 32) (a : Fin n0) (b : Fin n1) :
    int2 x a.val b.val = (((x (ix2 a b)).toInt : ℝ) : EReal) := by
  unfold int2; rw [dif_pos ⟨a.isLt, b.isLt⟩]

theorem at3_ix3 {n0 n1 n2 : ℕ} (x : (⟨3, ![n0, n1, n2]⟩ : Shape).Idx → EReal) (a : Fin n0) (b : Fin n1) (c : Fin n2) :
    at3 x a.val b.val c.val = x (ix3 a b c) := by
  unfold at3; rw [dif_pos ⟨a.isLt, b.isLt, c.isLt⟩]

/-- An entry named by its coordinates: the form in which a load through a rectangle, a slice or a block hands an entry over. -/
theorem at2_of_coords {n0 n1 : ℕ} (x : (⟨2, ![n0, n1]⟩ : Shape).Idx → EReal) (y : (⟨2, ![n0, n1]⟩ : Shape).Idx) (r c : ℕ)
    (h0 : (y 0).val = r) (h1 : (y 1).val = c) : x y = at2 x r c := by
  subst h0; subst h1
  unfold at2; rw [dif_pos ⟨(y 0).isLt, (y 1).isLt⟩]
  exact congrArg x (funext fun a => match a with | ⟨0, _⟩ => rfl | ⟨1, _⟩ => rfl)

theorem int2_of_coords {n0 n1 : ℕ} (x : (⟨2, ![n0, n1]⟩ : Shape).Idx → BitVec 32) (y : (⟨2, ![n0, n1]⟩ : Shape).Idx) (r c : ℕ)
    (h0 : (y 0).val = r) (h1 : (y 1).val = c) : (((x y).toInt : ℝ) : EReal) = int2 x r c := by
  subst h0; subst h1
  unfold int2; rw [dif_pos ⟨(y 0).isLt, (y 1).isLt⟩]
  exact congrArg (fun z => (((x z).toInt : ℝ) : EReal)) (funext fun a => match a with | ⟨0, _⟩ => rfl | ⟨1, _⟩ => rfl)

theorem at3_of_coords {n0 n1 n2 : ℕ} (x : (⟨3, ![n0, n1, n2]⟩ : Shape).Idx → EReal) (y : (⟨3, ![n0, n1, n2]⟩ : Shape).Idx) (i c e : ℕ)
    (h0 : (y 0).val = i) (h1 : (y 1).val = c) (h2 : (y 2).val = e) : x y = at3 x i c e := by
  subst h0; subst h1; subst h2
  unfold at3; rw [dif_pos ⟨(y 0).isLt, (y 1).isLt, (y 2).isLt⟩]
  exact congrArg x (funext fun a => match a with | ⟨0, _⟩ => rfl | ⟨1, _⟩ => rfl | ⟨2, _⟩ => rfl)

/-- Field `i`'s embedding sum in row `r`, column `e` of the field. -/
def fieldSum (cat : (⟨2, ![1024, 26000]⟩ : Shape).Idx → BitVec 32) (W : (⟨3, ![26, 1000, 64]⟩ : Shape).Idx → EReal)
    (r i e : ℕ) : EReal :=
  ∑ c : Fin 1000, int2 cat r (1000 * i + c.val) * at3 W i c.val e

/-- The result array: the continuous features, then the 26 fields' sums. -/
def result (cont : (⟨2, ![1024, 13]⟩ : Shape).Idx → EReal) (cat : (⟨2, ![1024, 26000]⟩ : Shape).Idx → BitVec 32)
    (W : (⟨3, ![26, 1000, 64]⟩ : Shape).Idx → EReal) : (⟨2, ![1024, 1677]⟩ : Shape).Idx → EReal := fun y =>
  if (y 1).val < 13 then at2 cont (y 0).val (y 1).val
  else fieldSum cat W (y 0).val (((y 1).val - 13) / 64) (((y 1).val - 13) % 64)

/-- The result at an index named by its coordinates. -/
theorem result_of_coords (cont : (⟨2, ![1024, 13]⟩ : Shape).Idx → EReal) (cat : (⟨2, ![1024, 26000]⟩ : Shape).Idx → BitVec 32)
    (W : (⟨3, ![26, 1000, 64]⟩ : Shape).Idx → EReal) (y : (⟨2, ![1024, 1677]⟩ : Shape).Idx) (r j : ℕ)
    (h0 : (y 0).val = r) (h1 : (y 1).val = j) :
    result cont cat W y = if j < 13 then at2 cont r j else fieldSum cat W r ((j - 13) / 64) ((j - 13) % 64) := by
  subst h0; subst h1; rfl

/-- The padded table: field `i`'s 1168 rows, zero outside the 1000 rows from `off i` on, W(i, ·, ·) inside. -/
def padded (W : (⟨3, ![26, 1000, 64]⟩ : Shape).Idx → EReal) : (⟨3, ![26, 1168, 64]⟩ : Shape).Idx → EReal := fun y =>
  if off (y 0).val ≤ (y 1).val ∧ (y 1).val < off (y 0).val + 1000 then at3 W (y 0).val ((y 1).val - off (y 0).val) (y 2).val else 0

/-- The padded table at an index named by its coordinates. -/
theorem padded_of_coords (W : (⟨3, ![26, 1000, 64]⟩ : Shape).Idx → EReal) (y : (⟨3, ![26, 1168, 64]⟩ : Shape).Idx) (i c e : ℕ)
    (h0 : (y 0).val = i) (h1 : (y 1).val = c) (h2 : (y 2).val = e) :
    padded W y = if off i ≤ c ∧ c < off i + 1000 then at3 W i (c - off i) e else 0 := by
  subst h0; subst h1; subst h2; rfl

/-- One grid point's [128, 1677] block of the result, from the point's [128, 13] block of the continuous features, its
    [128, 26000] block of the categories and a [26, 1168, 64] table: the features, then for each field its 1168-column
    window against the field's slab of the table. -/
def blockResult (x0 : (⟨2, ![128, 13]⟩ : Shape).Idx → EReal) (x1 : (⟨2, ![128, 26000]⟩ : Shape).Idx → BitVec 32)
    (T : (⟨3, ![26, 1168, 64]⟩ : Shape).Idx → EReal) : (⟨2, ![128, 1677]⟩ : Shape).Idx → EReal := fun y =>
  if (y 1).val < 13 then at2 x0 (y 0).val (y 1).val
  else ∑ c : Fin 1168, int2 x1 (y 0).val (start (((y 1).val - 13) / 64) + c.val)
        * at3 T (((y 1).val - 13) / 64) c.val (((y 1).val - 13) % 64)

/-- The block result at an index named by its coordinates. -/
theorem blockResult_of_coords (x0 : (⟨2, ![128, 13]⟩ : Shape).Idx → EReal) (x1 : (⟨2, ![128, 26000]⟩ : Shape).Idx → BitVec 32)
    (T : (⟨3, ![26, 1168, 64]⟩ : Shape).Idx → EReal) (y : (⟨2, ![128, 1677]⟩ : Shape).Idx) (p j : ℕ)
    (h0 : (y 0).val = p) (h1 : (y 1).val = j) :
    blockResult x0 x1 T y = if j < 13 then at2 x0 p j
      else ∑ c : Fin 1168, int2 x1 p (start ((j - 13) / 64) + c.val) * at3 T ((j - 13) / 64) c.val ((j - 13) % 64) := by
  subst h0; subst h1; rfl

/-- The padded window's sum is the field's sum. -/
theorem window_sum (cat : (⟨2, ![1024, 26000]⟩ : Shape).Idx → BitVec 32) (W : (⟨3, ![26, 1000, 64]⟩ : Shape).Idx → EReal)
    (r i e : ℕ) (hi : i < 26) (he : e < 64) :
    ∑ c : Fin 1168, int2 cat r (start i + c.val) * at3 (padded W) i c.val e = fieldSum cat W r i e := by
  have hp : ∀ c : Fin 1168, at3 (padded W) i c.val e
      = if off i ≤ c.val ∧ c.val < off i + 1000 then at3 W i (c.val - off i) e else 0 := fun c => by
    unfold at3; rw [dif_pos ⟨hi, c.isLt, he⟩]; exact padded_of_coords W _ i c.val e rfl rfl rfl
  simp only [hp]
  rw [PaddedSum.sum_fin_pad 1168 1000 (off i) (off_add_le i hi) (fun c => int2 cat r (start i + c)) (fun c => at3 W i c e)]
  unfold fieldSum
  refine Finset.sum_congr rfl fun c _ => ?_
  rw [← Nat.add_assoc, start_add_off i hi]

end Cert.Embed

end
-- ==== Proof.Stores.lean ====
/-
  THE BODY'S STORES AS BLOCKS OF TWO FUNCTIONS. Every store of the body writes a rectangle of one of two arrays:
  the output block [128, 1677] or the padded table [26, 1168, 64].
  * The first store of the output block copies the [128, 13] block of continuous features into columns 0 … 12.
  * Field i's store writes columns 13 + 64 i … 13 + 64 i + 63 with the field product of the window of category
    columns start i … start i + 1167 and slab i of the table.
  * Field i's store into the table writes rows off i … off i + 999 of slab i with W(i, ·, ·): the f32 → bf16 change of
    format is the identity at the ideal values, and the two reshapes (dropping and restoring the unit axis) cancel.
  * The table's first store fills it with zero.
  Each lemma says: the store's payload at a local index is the target function (Spec's `blockResult` or `padded`) at
  the rectangle's image of that index. The loaded values enter as variables with the entries they hold as hypotheses,
  so that one lemma serves every field.
-/
import proofs.«123104_g7189775253945_cont_9to1c4b_357_9_alg».proof.Proof.FieldProduct
import proofs.«123104_g7189775253945_cont_9to1c4b_357_9_alg».proof.Proof.Spec

open scoped BigOperators

noncomputable section

namespace Cert.KernelIdeal.Fields

open Idealize.ShloMosaic Idealize.ShloMosaic.ValueIdx Cert.KernelIdeal Cert.KernelIdeal.Gen Cert.Embed

/-- A [128, 1168] window of the category block, loaded at row 0 and column `a`, holds the block's columns from `a` on. -/
theorem window_at (offX : Fin 2 → ℕ) (a : ℕ) (hX0 : offX 0 = 0) (hX1 : offX 1 = a)
    (inbX : ∀ ax, offX ax + S128x1168.size ax ≤ S128x26000.size ax)
    (x1 : Vec Ideal S128x26000 .i32) (p : Fin 128) (c : Fin 1168) :
    ((((View.ld x1 (Rect.unit (s := S128x26000) offX S128x1168.size inbX)) (ix2 p c)).toInt : ℝ) : EReal) = int2 x1 p.val (a + c.val) :=
  int2_of_coords x1 _ p.val (a + c.val) (by show offX 0 + 1 * p.val = p.val; omega) (by show offX 1 + 1 * c.val = a + c.val; omega)

/-- A [1, 1168, 64] slab of the table, loaded at field `i`, holds the table's slab `i`. -/
theorem slab_at (offS : Fin 3 → ℕ) (i : ℕ) (hS0 : offS 0 = i) (hS1 : offS 1 = 0) (hS2 : offS 2 = 0)
    (inbS : ∀ ax, offS ax + S1x1168x64.size ax ≤ S26x1168x64.size ax)
    (T : Vec Ideal S26x1168x64 .bf16) (c : Fin 1168) (e : Fin 64) :
    (View.ld T (Rect.unit (s := S26x1168x64) offS S1x1168x64.size inbS)) (ix3 (0 : Fin 1) c e) = at3 T i c.val e.val :=
  at3_of_coords T _ i c.val e.val (by show offS 0 + 1 * 0 = i; omega) (by show offS 1 + 1 * c.val = c.val; omega)
    (by show offS 2 + 1 * e.val = e.val; omega)

/-- The copy of the continuous features is columns 0 … 12 of the block result. -/
theorem cont_store (offO offI : Fin 2 → ℕ) (hO0 : offO 0 = 0) (hO1 : offO 1 = 0) (hI0 : offI 0 = 0) (hI1 : offI 1 = 0)
    (inbO : ∀ ax, offO ax + S128x13.size ax ≤ S128x1677.size ax) (inbI : ∀ ax, offI ax + S128x13.size ax ≤ S128x13.size ax)
    (x0 : Vec Ideal S128x13 .f32) (x1 : Vec Ideal S128x26000 .i32) (T : Vec Ideal S26x1168x64 .bf16)
    (x : (Rect.unit (s := S128x1677) offO S128x13.size inbO).shape.Idx) :
    (View.ld x0 (Rect.unit (s := S128x13) offI S128x13.size inbI)) x = blockResult x0 x1 T ((Rect.unit (s := S128x1677) offO S128x13.size inbO).emb x) := by
  obtain ⟨p, j, rfl⟩ : ∃ (p : Fin 128) (j : Fin 13), x = ix2 p j := ⟨x 0, x 1, eq_ix2 x⟩
  have hj : j.val < 13 := j.isLt
  have hc0 : (((Rect.unit (s := S128x1677) offO S128x13.size inbO).emb (ix2 p j)) 0).val = p.val := by
    show offO 0 + 1 * p.val = _; omega
  have hc1 : (((Rect.unit (s := S128x1677) offO S128x13.size inbO).emb (ix2 p j)) 1).val = j.val := by
    show offO 1 + 1 * j.val = _; omega
  rw [blockResult_of_coords x0 x1 T _ p.val j.val hc0 hc1, if_pos hj]
  exact at2_of_coords x0 _ p.val j.val (by show offI 0 + 1 * p.val = p.val; omega) (by show offI 1 + 1 * j.val = j.val; omega)

/-- Field `i`'s store is columns 13 + 64 i … 13 + 64 i + 63 of the block result. -/
theorem field_store (offO : Fin 2 → ℕ) (i : ℕ) (hO0 : offO 0 = 0) (hO1 : offO 1 = 13 + 64 * i)
    (inbO : ∀ ax, offO ax + S128x64.size ax ≤ S128x1677.size ax)
    (x0 : Vec Ideal S128x13 .f32) (x1 : Vec Ideal S128x26000 .i32) (T : Vec Ideal S26x1168x64 .bf16)
    (v : Vec Ideal S128x1168 .i32) (w : Vec Ideal S1x1168x64 .bf16)
    (hv : ∀ (p : Fin 128) (c : Fin 1168), (((v (ix2 p c)).toInt : ℝ) : EReal) = int2 x1 p.val (start i + c.val))
    (hw : ∀ (c : Fin 1168) (e : Fin 64), w (ix3 (0 : Fin 1) c e) = at3 T i c.val e.val)
    (x : (Rect.unit (s := S128x1677) offO S128x64.size inbO).shape.Idx) :
    k0_pay1 (F := Ideal) v w x = blockResult x0 x1 T ((Rect.unit (s := S128x1677) offO S128x64.size inbO).emb x) := by
  obtain ⟨p, e, rfl⟩ : ∃ (p : Fin 128) (e : Fin 64), x = ix2 p e := ⟨x 0, x 1, eq_ix2 x⟩
  have he : e.val < 64 := e.isLt
  have hc0 : (((Rect.unit (s := S128x1677) offO S128x64.size inbO).emb (ix2 p e)) 0).val = p.val := by
    show offO 0 + 1 * p.val = _; omega
  have hc1 : (((Rect.unit (s := S128x1677) offO S128x64.size inbO).emb (ix2 p e)) 1).val = 13 + 64 * i + e.val := by
    show offO 1 + 1 * e.val = _; omega
  have hq : (13 + 64 * i + e.val - 13) / 64 = i := by omega
  have hr : (13 + 64 * i + e.val - 13) % 64 = e.val := by omega
  rw [fieldProduct_apply, blockResult_of_coords x0 x1 T _ p.val (13 + 64 * i + e.val) hc0 hc1, if_neg (by omega), hq, hr]
  exact Finset.sum_congr rfl fun c _ => by rw [hv, hw]

/-- The table's first store fills it with zero. -/
theorem zero_store (x : S26x1168x64.Idx) : k0_pay4 (F := Ideal) x = 0 := by
  unfold k0_pay4
  rw [shapeCast_self]
  show Ideal.ofBits .bf16 0x0000#16 = 0
  simp [Ideal.ofBits, Ideal.ieee]

/-- Dropping the unit axis of a [1, 1000, 64] value, changing its format and restoring the axis gives the value back. -/
theorem round_trip (v : Vec Ideal S1x1000x64 .f32) :
    (shapeCast S1x1000x64 (shapeCast S1000x64 v shapeCasts_S1x1000x64_S1000x64) shapeCasts_S1000x64_S1x1000x64
      : Vec Ideal S1x1000x64 .bf16) = v :=
  shapeCast_shapeCast v _ _

/-- Field `i`'s store into the table is rows off i … off i + 999 of slab i of the padded table. -/
theorem table_store (offS offW : Fin 3 → ℕ) (i : ℕ) (hi : i < 26) (hS0 : offS 0 = i) (hS1 : offS 1 = off i) (hS2 : offS 2 = 0)
    (hW0 : offW 0 = i) (hW1 : offW 1 = 0) (hW2 : offW 2 = 0)
    (inbS : ∀ ax, offS ax + S1x1000x64.size ax ≤ S26x1168x64.size ax)
    (inbW : ∀ ax, offW ax + S1x1000x64.size ax ≤ S26x1000x64.size ax)
    (x2 : Vec Ideal S26x1000x64 .f32) (w : Vec Ideal S1x1000x64 .bf16)
    (hw : w = View.ld x2 (Rect.unit (s := S26x1000x64) offW S1x1000x64.size inbW))
    (x : (Rect.unit (s := S26x1168x64) offS S1x1000x64.size inbS).shape.Idx) :
    w x = padded x2 ((Rect.unit (s := S26x1168x64) offS S1x1000x64.size inbS).emb x) := by
  subst hw
  obtain ⟨z, c, e, rfl⟩ : ∃ (z : Fin 1) (c : Fin 1000) (e : Fin 64), x = ix3 z c e := ⟨x 0, x 1, x 2, eq_ix3 x⟩
  have hz : z.val = 0 := by have := z.isLt; omega
  have hc : c.val < 1000 := c.isLt
  have hc0 : (((Rect.unit (s := S26x1168x64) offS S1x1000x64.size inbS).emb (ix3 z c e)) 0).val = i := by
    show offS 0 + 1 * z.val = _; omega
  have hc1 : (((Rect.unit (s := S26x1168x64) offS S1x1000x64.size inbS).emb (ix3 z c e)) 1).val = off i + c.val := by
    show offS 1 + 1 * c.val = _; omega
  have hc2 : (((Rect.unit (s := S26x1168x64) offS S1x1000x64.size inbS).emb (ix3 z c e)) 2).val = e.val := by
    show offS 2 + 1 * e.val = _; omega
  rw [padded_of_coords x2 _ i (off i + c.val) e.val hc0 hc1 hc2, if_pos ⟨Nat.le_add_right _ _, Nat.add_lt_add_left hc _⟩,
    Nat.add_sub_cancel_left]
  exact at3_of_coords x2 _ i c.val e.val (by show offW 0 + 1 * z.val = i; omega) (by show offW 1 + 1 * c.val = c.val; omega)
    (by show offW 2 + 1 * e.val = e.val; omega)

/-- An index of the table in slab `i` whose row is one of the 1000 rows from `o` on lies in field `i`'s store. -/
theorem mem_rows (offS : Fin 3 → ℕ) (i o : ℕ) (hS0 : offS 0 = i) (hS1 : offS 1 = o) (hS2 : offS 2 = 0)
    (inbS : ∀ ax, offS ax + S1x1000x64.size ax ≤ S26x1168x64.size ax) (y : S26x1168x64.Idx)
    (h0 : (y 0).val = i) (h1 : o ≤ (y 1).val) (h1' : (y 1).val < o + 1000) :
    y ∈ (Rect.unit (s := S26x1168x64) offS S1x1000x64.size inbS).set := by
  have h2 : (y 2).val < 64 := (y 2).isLt
  rw [Rect.mem_set_unit]
  intro a
  match a with
  | ⟨0, _⟩ => show offS 0 ≤ (y 0).val ∧ (y 0).val < offS 0 + 1; omega
  | ⟨1, _⟩ => show offS 1 ≤ (y 1).val ∧ (y 1).val < offS 1 + 1000; omega
  | ⟨2, _⟩ => show offS 2 ≤ (y 2).val ∧ (y 2).val < offS 2 + 64; omega

end Cert.KernelIdeal.Fields

end
-- ==== Proof.OutLater.lean ====
/-
  WHAT A LATER GRID POINT LEAVES IN THE OUTPUT. At every point but the first the body writes the output block from the
  point's input blocks and the table the point before left in the scratch buffer. Read back as a value, the block is
  Spec's `blockResult` of the point's blocks of the continuous features and of the categories and of that table: the 27
  stores tile the block's columns, and each is a block of `blockResult` (Stores' `cont_store` and `field_store`, the
  latter once per field with the field's offsets).
-/
import proofs.«123104_g7189775253945_cont_9to1c4b_357_9_alg».proof.Proof.FrameKernelIdeal
import proofs.«123104_g7189775253945_cont_9to1c4b_357_9_alg».proof.Proof.Stores
import Idealize.ShloMosaic.Lib.Tactic

set_option maxRecDepth 16384

noncomputable section

namespace Cert.KernelIdeal.Fields

open Idealize.ShloMosaic Idealize.ShloMosaic.TcCoe Idealize.ShloMosaic.ValueIdx Idealize.SL.Sem
open Cert.KernelIdeal Cert.KernelIdeal.Gen Cert.KernelIdeal.GenP Cert.Embed

set_option maxHeartbeats 4000000 in
/-- A later point's output block. -/
theorem out_B (c : Dev nD) (i : grid0.Coords) (arg1 : Memref sig .tc .vmem S128x13 .f32) (harg1 : arg1.IsWhole) (arg2 : Memref sig .tc .vmem S128x26000 .i32) (harg2 : arg2.IsWhole) (arg3 : Memref sig .tc .vmem S26x1000x64 .f32) (harg3 : arg3.IsWhole) (arg4 : Memref sig .tc .vmem S128x1677 .f32) (harg4 : arg4.IsWhole) (arg5 : Memref sig .tc .vmem S26x1168x64 .bf16) (harg5 : arg5.IsWhole) (hc0 : ¬cond0_0 i)
    (x0 : Vec Ideal S128x13 .f32) (x1 : Vec Ideal S128x26000 .i32) (x2 : Vec Ideal S26x1000x64 .f32) (xs0 : Vec Ideal S26x1168x64 .bf16) :
    out0_B_3 c i arg1 harg1 arg2 harg2 arg3 harg3 arg4 harg4 arg5 harg5 hc0 x0 x1 x2 xs0 = blockResult x0 x1 xs0 := by
  unfold out0_B_3
  rw [View.read_writes_eq_canon _ _ _ (cover0_B_3 c i arg1 harg1 arg2 harg2 arg3 harg3 arg4 harg4 arg5 harg5 hc0 x0 x1 x2 xs0)]
  funext y
  refine View.canon_apply_of_pieces (blockResult x0 x1 xs0) _ ?_ y (cover0_B_3 c i arg1 harg1 arg2 harg2 arg3 harg3 arg4 harg4 arg5 harg5 hc0 x0 x1 x2 xs0 y)
  unfold kernelRun0_B
  dsimp only
  simp only [View.readAt_eq_ld, harg1.read_unread, harg2.read_unread, harg5.read_unread]
  refine List.forall_mem_cons.2 ⟨fun x => field_store ![0, 1613] 25 rfl rfl inb_S128x1677_S128x64_0_1613 x0 x1 xs0
    (View.ld x1 (Rect.unit (s := S128x26000) ![0, 24832] ![128, 1168] inb_S128x26000_S128x1168_0_24832)) (View.ld xs0 (Rect.unit (s := S26x1168x64) ![25, 0, 0] ![1, 1168, 64] inb_S26x1168x64_S1x1168x64_25_0_0))
    (fun p q => window_at ![0, 24832] 24832 rfl rfl inb_S128x26000_S128x1168_0_24832 x1 p q)
    (fun q e => slab_at ![25, 0, 0] 25 rfl rfl rfl inb_S26x1168x64_S1x1168x64_25_0_0 xs0 q e) x, ?_⟩
  refine List.forall_mem_cons.2 ⟨fun x => field_store ![0, 1549] 24 rfl rfl inb_S128x1677_S128x64_0_1549 x0 x1 xs0
    (View.ld x1 (Rect.unit (s := S128x26000) ![0, 23936] ![128, 1168] inb_S128x26000_S128x1168_0_23936)) (View.ld xs0 (Rect.unit (s := S26x1168x64) ![24, 0, 0] ![1, 1168, 64] inb_S26x1168x64_S1x1168x64_24_0_0))
    (fun p q => window_at ![0, 23936] 23936 rfl rfl inb_S128x26000_S128x1168_0_23936 x1 p q)
    (fun q e => slab_at ![24, 0, 0] 24 rfl rfl rfl inb_S26x1168x64_S1x1168x64_24_0_0 xs0 q e) x, ?_⟩
  refine List.forall_mem_cons.2 ⟨fun x => field_store ![0, 1485] 23 rfl rfl inb_S128x1677_S128x64_0_1485 x0 x1 xs0
    (View.ld x1 (Rect.unit (s := S128x26000) ![0, 22912] ![128, 1168] inb_S128x26000_S128x1168_0_22912)) (View.ld xs0 (Rect.unit (s := S26x1168x64) ![23, 0, 0] ![1, 1168, 64] inb_S26x1168x64_S1x1168x64_23_0_0))
    (fun p q => window_at ![0, 22912] 22912 rfl rfl inb_S128x26000_S128x1168_0_22912 x1 p q)
    (fun q e => slab_at ![23, 0, 0] 23 rfl rfl rfl inb_S26x1168x64_S1x1168x64_23_0_0 xs0 q e) x, ?_⟩
  refine List.forall_mem_cons.2 ⟨fun x => field_store ![0, 1421] 22 rfl rfl inb_S128x1677_S128x64_0_1421 x0 x1 xs0
    (View.ld x1 (Rect.unit (s := S128x26000) ![0, 21888] ![128, 1168] inb_S128x26000_S128x1168_0_21888)) (View.ld xs0 (Rect.unit (s := S26x1168x64) ![22, 0, 0] ![1, 1168, 64] inb_S26x1168x64_S1x1168x64_22_0_0))
    (fun p q => window_at ![0, 21888] 21888 rfl rfl inb_S128x26000_S128x1168_0_21888 x1 p q)
    (fun q e => slab_at ![22, 0, 0] 22 rfl rfl rfl inb_S26x1168x64_S1x1168x64_22_0_0 xs0 q e) x, ?_⟩
  refine List.forall_mem_cons.2 ⟨fun x => field_store ![0, 1357] 21 rfl rfl inb_S128x1677_S128x64_0_1357 x0 x1 xs0
    (View.ld x1 (Rect.unit (s := S128x26000) ![0, 20992] ![128, 1168] inb_S128x26000_S128x1168_0_20992)) (View.ld xs0 (Rect.unit (s := S26x1168x64) ![21, 0, 0] ![1, 1168, 64] inb_S26x1168x64_S1x1168x64_21_0_0))
    (fun p q => window_at ![0, 20992] 20992 rfl rfl inb_S128x26000_S128x1168_0_20992 x1 p q)
    (fun q e => slab_at ![21, 0, 0] 21 rfl rfl rfl inb_S26x1168x64_S1x1168x64_21_0_0 xs0 q e) x, ?_⟩
  refine List.forall_mem_cons.2 ⟨fun x => field_store ![0, 1293] 20 rfl rfl inb_S128x1677_S128x64_0_1293 x0 x1 xs0
    (View.ld x1 (Rect.unit (s := S128x26000) ![0, 19968] ![128, 1168] inb_S128x26000_S128x1168_0_19968)) (View.ld xs0 (Rect.unit (s := S26x1168x64) ![20, 0, 0] ![1, 1168, 64] inb_S26x1168x64_S1x1168x64_20_0_0))
    (fun p q => window_at ![0, 19968] 19968 rfl rfl inb_S128x26000_S128x1168_0_19968 x1 p q)
    (fun q e => slab_at ![20, 0, 0] 20 rfl rfl rfl inb_S26x1168x64_S1x1168x64_20_0_0 xs0 q e) x, ?_⟩
  refine List.forall_mem_cons.2 ⟨fun x => field_store ![0, 1229] 19 rfl rfl inb_S128x1677_S128x64_0_1229 x0 x1 xs0
    (View.ld x1 (Rect.unit (s := S128x26000) ![0, 18944] ![128, 1168] inb_S128x26000_S128x1168_0_18944)) (View.ld xs0 (Rect.unit (s := S26x1168x64) ![19, 0, 0] ![1, 1168, 64] inb_S26x1168x64_S1x1168x64_19_0_0))
    (fun p q => window_at ![0, 18944] 18944 rfl rfl inb_S128x26000_S128x1168_0_18944 x1 p q)
    (fun q e => slab_at ![19, 0, 0] 19 rfl rfl rfl inb_S26x1168x64_S1x1168x64_19_0_0 xs0 q e) x, ?_⟩
  refine List.forall_mem_cons.2 ⟨fun x => field_store ![0, 1165] 18 rfl rfl inb_S128x1677_S128x64_0_1165 x0 x1 xs0
    (View.ld x1 (Rect.unit (s := S128x26000) ![0, 17920] ![128, 1168] inb_S128x26000_S128x1168_0_17920)) (View.ld xs0 (Rect.unit (s := S26x1168x64) ![18, 0, 0] ![1, 1168, 64] inb_S26x1168x64_S1x1168x64_18_0_0))
    (fun p q => window_at ![0, 17920] 17920 rfl rfl inb_S128x26000_S128x1168_0_17920 x1 p q)
    (fun q e => slab_at ![18, 0, 0] 18 rfl rfl rfl inb_S26x1168x64_S1x1168x64_18_0_0 xs0 q e) x, ?_⟩
  refine List.forall_mem_cons.2 ⟨fun x => field_store ![0, 1101] 17 rfl rfl inb_S128x1677_S128x64_0_1101 x0 x1 xs0
    (View.ld x1 (Rect.unit (s := S128x26000) ![0, 16896] ![128, 1168] inb_S128x26000_S128x1168_0_16896)) (View.ld xs0 (Rect.unit (s := S26x1168x64) ![17, 0, 0] ![1, 1168, 64] inb_S26x1168x64_S1x1168x64_17_0_0))
    (fun p q => window_at ![0, 16896] 16896 rfl rfl inb_S128x26000_S128x1168_0_16896 x1 p q)
    (fun q e => slab_at ![17, 0, 0] 17 rfl rfl rfl inb_S26x1168x64_S1x1168x64_17_0_0 xs0 q e) x, ?_⟩
  refine List.forall_mem_cons.2 ⟨fun x => field_store ![0, 1037] 16 rfl rfl inb_S128x1677_S128x64_0_1037 x0 x1 xs0
    (View.ld x1 (Rect.unit (s := S128x26000) ![0, 16000] ![128, 1168] inb_S128x26000_S128x1168_0_16000)) (View.ld xs0 (Rect.unit (s := S26x1168x64) ![16, 0, 0] ![1, 1168, 64] inb_S26x1168x64_S1x1168x64_16_0_0))
    (fun p q => window_at ![0, 16000] 16000 rfl rfl inb_S128x26000_S128x1168_0_16000 x1 p q)
    (fun q e => slab_at ![16, 0, 0] 16 rfl rfl rfl inb_S26x1168x64_S1x1168x64_16_0_0 xs0 q e) x, ?_⟩
  refine List.forall_mem_cons.2 ⟨fun x => field_store ![0, 973] 15 rfl rfl inb_S128x1677_S128x64_0_973 x0 x1 xs0
    (View.ld x1 (Rect.unit (s := S128x26000) ![0, 14976] ![128, 1168] inb_S128x26000_S128x1168_0_14976)) (View.ld xs0 (Rect.unit (s := S26x1168x64) ![15, 0, 0] ![1, 1168, 64] inb_S26x1168x64_S1x1168x64_15_0_0))
    (fun p q => window_at ![0, 14976] 14976 rfl rfl inb_S128x26000_S128x1168_0_14976 x1 p q)
    (fun q e => slab_at ![15, 0, 0] 15 rfl rfl rfl inb_S26x1168x64_S1x1168x64_15_0_0 xs0 q e) x, ?_⟩
  refine List.forall_mem_cons.2 ⟨fun x => field_store ![0, 909] 14 rfl rfl inb_S128x1677_S128x64_0_909 x0 x1 xs0
    (View.ld x1 (Rect.unit (s := S128x26000) ![0, 13952] ![128, 1168] inb_S128x26000_S128x1168_0_13952)) (View.ld xs0 (Rect.unit (s := S26x1168x64) ![14, 0, 0] ![1, 1168, 64] inb_S26x1168x64_S1x1168x64_14_0_0))
    (fun p q => window_at ![0, 13952] 13952 rfl rfl inb_S128x26000_S128x1168_0_13952 x1 p q)
    (fun q e => slab_at ![14, 0, 0] 14 rfl rfl rfl inb_S26x1168x64_S1x1168x64_14_0_0 xs0 q e) x, ?_⟩
  refine List.forall_mem_cons.2 ⟨fun x => field_store ![0, 845] 13 rfl rfl inb_S128x1677_S128x64_0_845 x0 x1 xs0
    (View.ld x1 (Rect.unit (s := S128x26000) ![0, 12928] ![128, 1168] inb_S128x26000_S128x1168_0_12928)) (View.ld xs0 (Rect.unit (s := S26x1168x64) ![13, 0, 0] ![1, 1168, 64] inb_S26x1168x64_S1x1168x64_13_0_0))
    (fun p q => window_at ![0, 12928] 12928 rfl rfl inb_S128x26000_S128x1168_0_12928 x1 p q)
    (fun q e => slab_at ![13, 0, 0] 13 rfl rfl rfl inb_S26x1168x64_S1x1168x64_13_0_0 xs0 q e) x, ?_⟩
  refine List.forall_mem_cons.2 ⟨fun x => field_store ![0, 781] 12 rfl rfl inb_S128x1677_S128x64_0_781 x0 x1 xs0
    (View.ld x1 (Rect.unit (s := S128x26000) ![0, 11904] ![128, 1168] inb_S128x26000_S128x1168_0_11904)) (View.ld xs0 (Rect.unit (s := S26x1168x64) ![12, 0, 0] ![1, 1168, 64] inb_S26x1168x64_S1x1168x64_12_0_0))
    (fun p q => window_at ![0, 11904] 11904 rfl rfl inb_S128x26000_S128x1168_0_11904 x1 p q)
    (fun q e => slab_at ![12, 0, 0] 12 rfl rfl rfl inb_S26x1168x64_S1x1168x64_12_0_0 xs0 q e) x, ?_⟩
  refine List.forall_mem_cons.2 ⟨fun x => field_store ![0, 717] 11 rfl rfl inb_S128x1677_S128x64_0_717 x0 x1 xs0
    (View.ld x1 (Rect.unit (s := S128x26000) ![0, 10880] ![128, 1168] inb_S128x26000_S128x1168_0_10880)) (View.ld xs0 (Rect.unit (s := S26x1168x64) ![11, 0, 0] ![1, 1168, 64] inb_S26x1168x64_S1x1168x64_11_0_0))
    (fun p q => window_at ![0, 10880] 10880 rfl rfl inb_S128x26000_S128x1168_0_10880 x1 p q)
    (fun q e => slab_at ![11, 0, 0] 11 rfl rfl rfl inb_S26x1168x64_S1x1168x64_11_0_0 xs0 q e) x, ?_⟩
  refine List.forall_mem_cons.2 ⟨fun x => field_store ![0, 653] 10 rfl rfl inb_S128x1677_S128x64_0_653 x0 x1 xs0
    (View.ld x1 (Rect.unit (s := S128x26000) ![0, 9984] ![128, 1168] inb_S128x26000_S128x1168_0_9984)) (View.ld xs0 (Rect.unit (s := S26x1168x64) ![10, 0, 0] ![1, 1168, 64] inb_S26x1168x64_S1x1168x64_10_0_0))
    (fun p q => window_at ![0, 9984] 9984 rfl rfl inb_S128x26000_S128x1168_0_9984 x1 p q)
    (fun q e => slab_at ![10, 0, 0] 10 rfl rfl rfl inb_S26x1168x64_S1x1168x64_10_0_0 xs0 q e) x, ?_⟩
  refine List.forall_mem_cons.2 ⟨fun x => field_store ![0, 589] 9 rfl rfl inb_S128x1677_S128x64_0_589 x0 x1 xs0
    (View.ld x1 (Rect.unit (s := S128x26000) ![0, 8960] ![128, 1168] inb_S128x26000_S128x1168_0_8960)) (View.ld xs0 (Rect.unit (s := S26x1168x64) ![9, 0, 0] ![1, 1168, 64] inb_S26x1168x64_S1x1168x64_9_0_0))
    (fun p q => window_at ![0, 8960] 8960 rfl rfl inb_S128x26000_S128x1168_0_8960 x1 p q)
    (fun q e => slab_at ![9, 0, 0] 9 rfl rfl rfl inb_S26x1168x64_S1x1168x64_9_0_0 xs0 q e) x, ?_⟩
  refine List.forall_mem_cons.2 ⟨fun x => field_store ![0, 525] 8 rfl rfl inb_S128x1677_S128x64_0_525 x0 x1 xs0
    (View.ld x1 (Rect.unit (s := S128x26000) ![0, 7936] ![128, 1168] inb_S128x26000_S128x1168_0_7936)) (View.ld xs0 (Rect.unit (s := S26x1168x64) ![8, 0, 0] ![1, 1168, 64] inb_S26x1168x64_S1x1168x64_8_0_0))
    (fun p q => window_at ![0, 7936] 7936 rfl rfl inb_S128x26000_S128x1168_0_7936 x1 p q)
    (fun q e => slab_at ![8, 0, 0] 8 rfl rfl rfl inb_S26x1168x64_S1x1168x64_8_0_0 xs0 q e) x, ?_⟩
  refine List.forall_mem_cons.2 ⟨fun x => field_store ![0, 461] 7 rfl rfl inb_S128x1677_S128x64_0_461 x0 x1 xs0
    (View.ld x1 (Rect.unit (s := S128x26000) ![0, 6912] ![128, 1168] inb_S128x26000_S128x1168_0_6912)) (View.ld xs0 (Rect.unit (s := S26x1168x64) ![7, 0, 0] ![1, 1168, 64] inb_S26x1168x64_S1x1168x64_7_0_0))
    (fun p q => window_at ![0, 6912] 6912 rfl rfl inb_S128x26000_S128x1168_0_6912 x1 p q)
    (fun q e => slab_at ![7, 0, 0] 7 rfl rfl rfl inb_S26x1168x64_S1x1168x64_7_0_0 xs0 q e) x, ?_⟩
  refine List.forall_mem_cons.2 ⟨fun x => field_store ![0, 397] 6 rfl rfl inb_S128x1677_S128x64_0_397 x0 x1 xs0
    (View.ld x1 (Rect.unit (s := S128x26000) ![0, 5888] ![128, 1168] inb_S128x26000_S128x1168_0_5888)) (View.ld xs0 (Rect.unit (s := S26x1168x64) ![6, 0, 0] ![1, 1168, 64] inb_S26x1168x64_S1x1168x64_6_0_0))
    (fun p q => window_at ![0, 5888] 5888 rfl rfl inb_S128x26000_S128x1168_0_5888 x1 p q)
    (fun q e => slab_at ![6, 0, 0] 6 rfl rfl rfl inb_S26x1168x64_S1x1168x64_6_0_0 xs0 q e) x, ?_⟩
  refine List.forall_mem_cons.2 ⟨fun x => field_store ![0, 333] 5 rfl rfl inb_S128x1677_S128x64_0_333 x0 x1 xs0
    (View.ld x1 (Rect.unit (s := S128x26000) ![0, 4992] ![128, 1168] inb_S128x26000_S128x1168_0_4992)) (View.ld xs0 (Rect.unit (s := S26x1168x64) ![5, 0, 0] ![1, 1168, 64] inb_S26x1168x64_S1x1168x64_5_0_0))
    (fun p q => window_at ![0, 4992] 4992 rfl rfl inb_S128x26000_S128x1168_0_4992 x1 p q)
    (fun q e => slab_at ![5, 0, 0] 5 rfl rfl rfl inb_S26x1168x64_S1x1168x64_5_0_0 xs0 q e) x, ?_⟩
  refine List.forall_mem_cons.2 ⟨fun x => field_store ![0, 269] 4 rfl rfl inb_S128x1677_S128x64_0_269 x0 x1 xs0
    (View.ld x1 (Rect.unit (s := S128x26000) ![0, 3968] ![128, 1168] inb_S128x26000_S128x1168_0_3968)) (View.ld xs0 (Rect.unit (s := S26x1168x64) ![4, 0, 0] ![1, 1168, 64] inb_S26x1168x64_S1x1168x64_4_0_0))
    (fun p q => window_at ![0, 3968] 3968 rfl rfl inb_S128x26000_S128x1168_0_3968 x1 p q)
    (fun q e => slab_at ![4, 0, 0] 4 rfl rfl rfl inb_S26x1168x64_S1x1168x64_4_0_0 xs0 q e) x, ?_⟩
  refine List.forall_mem_cons.2 ⟨fun x => field_store ![0, 205] 3 rfl rfl inb_S128x1677_S128x64_0_205 x0 x1 xs0
    (View.ld x1 (Rect.unit (s := S128x26000) ![0, 2944] ![128, 1168] inb_S128x26000_S128x1168_0_2944)) (View.ld xs0 (Rect.unit (s := S26x1168x64) ![3, 0, 0] ![1, 1168, 64] inb_S26x1168x64_S1x1168x64_3_0_0))
    (fun p q => window_at ![0, 2944] 2944 rfl rfl inb_S128x26000_S128x1168_0_2944 x1 p q)
    (fun q e => slab_at ![3, 0, 0] 3 rfl rfl rfl inb_S26x1168x64_S1x1168x64_3_0_0 xs0 q e) x, ?_⟩
  refine List.forall_mem_cons.2 ⟨fun x => field_store ![0, 141] 2 rfl rfl inb_S128x1677_S128x64_0_141 x0 x1 xs0
    (View.ld x1 (Rect.unit (s := S128x26000) ![0, 1920] ![128, 1168] inb_S128x26000_S128x1168_0_1920)) (View.ld xs0 (Rect.unit (s := S26x1168x64) ![2, 0, 0] ![1, 1168, 64] inb_S26x1168x64_S1x1168x64_2_0_0))
    (fun p q => window_at ![0, 1920] 1920 rfl rfl inb_S128x26000_S128x1168_0_1920 x1 p q)
    (fun q e => slab_at ![2, 0, 0] 2 rfl rfl rfl inb_S26x1168x64_S1x1168x64_2_0_0 xs0 q e) x, ?_⟩
  refine List.forall_mem_cons.2 ⟨fun x => field_store ![0, 77] 1 rfl rfl inb_S128x1677_S128x64_0_77 x0 x1 xs0
    (View.ld x1 (Rect.unit (s := S128x26000) ![0, 896] ![128, 1168] inb_S128x26000_S128x1168_0_896)) (View.ld xs0 (Rect.unit (s := S26x1168x64) ![1, 0, 0] ![1, 1168, 64] inb_S26x1168x64_S1x1168x64_1_0_0))
    (fun p q => window_at ![0, 896] 896 rfl rfl inb_S128x26000_S128x1168_0_896 x1 p q)
    (fun q e => slab_at ![1, 0, 0] 1 rfl rfl rfl inb_S26x1168x64_S1x1168x64_1_0_0 xs0 q e) x, ?_⟩
  refine List.forall_mem_cons.2 ⟨fun x => field_store ![0, 13] 0 rfl rfl inb_S128x1677_S128x64_0_13 x0 x1 xs0
    (View.ld x1 (Rect.unit (s := S128x26000) ![0, 0] ![128, 1168] inb_S128x26000_S128x1168_0_0)) (View.ld xs0 (Rect.unit (s := S26x1168x64) ![0, 0, 0] ![1, 1168, 64] inb_S26x1168x64_S1x1168x64_0_0_0))
    (fun p q => window_at ![0, 0] 0 rfl rfl inb_S128x26000_S128x1168_0_0 x1 p q)
    (fun q e => slab_at ![0, 0, 0] 0 rfl rfl rfl inb_S26x1168x64_S1x1168x64_0_0_0 xs0 q e) x, ?_⟩
  refine List.forall_mem_cons.2 ⟨fun x => cont_store ![0, 0] ![0, 0] rfl rfl rfl rfl inb_S128x1677_S128x13_0_0 inb_S128x13_S128x13_0_0 x0 x1 xs0 x, ?_⟩
  exact fun _ h => absurd h List.not_mem_nil

end Cert.KernelIdeal.Fields

end
-- ==== Proof.LibCanonOver.lean ====
/-
  LATER STORES OVER A FIRST ONE. A buffer is first stored by one piece `p0` (say, filled whole with a constant) and
  then by further pieces `L`, each of which is a block of one function `G` of the buffer's index. If the first
  piece agrees with `G` at every index of its own that no later piece covers, then what the stores leave is `G` at
  every index the first piece covers: a later piece that covers the index wins and is `G` there; where none does, the
  first piece's value is `G`'s by hypothesis. (The list is last store first, so the first store is its last element.)
-/
import Idealize.ShloMosaic.Lib.Pipeline.Value

noncomputable section

namespace Idealize.ShloMosaic.View

variable {Val : EltTy → Type} {S : Shape} {e : EltTy}

/-- The canon of `L ++ [p0]` is `G` on `p0`'s rectangle. -/
theorem canon_append_first_apply [∀ e, Nonempty (Val e)] (G : S.Idx → Val e) (p0 : Piece Val S e) (y : S.Idx)
    (hy : y ∈ p0.1.set) :
    ∀ (L : List (Piece Val S e)) (_ : ∀ p ∈ L, ∀ x : p.1.shape.Idx, p.2 x = G (p.1.emb x))
      (_ : (∀ p ∈ L, y ∉ p.1.set) → ∀ x : p0.1.shape.Idx, p0.1.emb x = y → p0.2 x = G y),
      canon (L ++ [p0]) y = G y
  | [], _, h0 => by
    obtain ⟨x, rfl⟩ := p0.1.exists_idx_of_mem hy
    show canon [p0] (p0.1.emb x) = _
    obtain ⟨r, w⟩ := p0
    rw [canon_cons_emb]
    exact h0 (fun _ h => absurd h List.not_mem_nil) x rfl
  | p :: L, hL, h0 => by
    show canon (p :: (L ++ [p0])) y = G y
    by_cases hm : y ∈ p.1.set
    · obtain ⟨x, rfl⟩ := p.1.exists_idx_of_mem hm
      obtain ⟨r, w⟩ := p
      show canon (⟨r, w⟩ :: (L ++ [p0])) (r.emb x) = _
      rw [canon_cons_emb]
      exact hL ⟨r, w⟩ List.mem_cons_self x
    · rw [canon_cons_of_not_mem _ _ hm]
      exact canon_append_first_apply G p0 y hy L (fun q hq => hL q (List.mem_cons_of_mem _ hq))
        (fun hnone => h0 (fun q hq => by
          rcases List.mem_cons.mp hq with rfl | hq'
          · exact hm
          · exact hnone q hq'))

/-- The same with the later pieces named by their position in the list: the form in which a literal list is used, the
    piece at a literal position being found by evaluation. -/
theorem canon_append_first_apply_get [∀ e, Nonempty (Val e)] (G : S.Idx → Val e) (p0 : Piece Val S e) (y : S.Idx)
    (hy : y ∈ p0.1.set) (L : List (Piece Val S e)) (hL : ∀ p ∈ L, ∀ x : p.1.shape.Idx, p.2 x = G (p.1.emb x))
    (h0 : (∀ (n : ℕ) (h : n < L.length), y ∉ (L.get ⟨n, h⟩).1.set) → ∀ x : p0.1.shape.Idx, p0.1.emb x = y → p0.2 x = G y) :
    canon (L ++ [p0]) y = G y :=
  canon_append_first_apply G p0 y hy L hL fun hnone => h0 fun n h => hnone _ (List.get_mem L ⟨n, h⟩)

end Idealize.ShloMosaic.View

end
-- ==== Proof.TableFirst.lean ====
/-
  THE TABLE THE FIRST GRID POINT BUILDS. At the grid's first point the body fills the scratch buffer with zero and then
  writes each field's 1000 rows of W at the field's offset. Read back as a value, the buffer is Spec's `padded` of the
  point's block of W: each field's rows are a block of `padded` (Stores' `table_store`), and the zero fill agrees with
  `padded` wherever no field's rows lie (an index inside a field's 1000 rows lies in that field's store: `mem_rows`).
-/
import proofs.«123104_g7189775253945_cont_9to1c4b_357_9_alg».proof.Proof.FrameKernelIdeal
import proofs.«123104_g7189775253945_cont_9to1c4b_357_9_alg».proof.Proof.Stores
import proofs.«123104_g7189775253945_cont_9to1c4b_357_9_alg».proof.Proof.LibCanonOver
import Idealize.ShloMosaic.Lib.Tactic

set_option maxRecDepth 16384

noncomputable section

namespace Cert.KernelIdeal.Fields

open Idealize.ShloMosaic Idealize.ShloMosaic.TcCoe Idealize.ShloMosaic.ValueIdx Idealize.SL.Sem
open Cert.KernelIdeal Cert.KernelIdeal.Gen Cert.KernelIdeal.GenP Cert.Embed

theorem hz3 : (![0, 0, 0] : Fin 3 → Nat) = fun _ => 0 := funext fun a => by fin_cases a <;> rfl

set_option maxHeartbeats 4000000 in
/-- The table the first point builds. -/
theorem table_A (c : Dev nD) (i : grid0.Coords) (arg1 : Memref sig .tc .vmem S128x13 .f32) (harg1 : arg1.IsWhole) (arg2 : Memref sig .tc .vmem S128x26000 .i32) (harg2 : arg2.IsWhole) (arg3 : Memref sig .tc .vmem S26x1000x64 .f32) (harg3 : arg3.IsWhole) (arg4 : Memref sig .tc .vmem S128x1677 .f32) (harg4 : arg4.IsWhole) (arg5 : Memref sig .tc .vmem S26x1168x64 .bf16) (harg5 : arg5.IsWhole) (hc0 : cond0_0 i)
    (x0 : Vec Ideal S128x13 .f32) (x1 : Vec Ideal S128x26000 .i32) (x2 : Vec Ideal S26x1000x64 .f32) :
    sout0_A_0 c i arg1 harg1 arg2 harg2 arg3 harg3 arg4 harg4 arg5 harg5 hc0 x0 x1 x2 = padded x2 := by
  unfold sout0_A_0
  rw [View.read_writes_eq_canon _ _ _ (scover0_A_0 c i arg1 harg1 arg2 harg2 arg3 harg3 arg4 harg4 arg5 harg5 hc0 x0 x1 x2)]
  funext y
  unfold kernelRun0_A
  dsimp only
  sl_unfold_words
  simp only [View.readAt_eq_ld, harg3.read_unread]
  show View.canon (([_, _, _, _, _, _, _, _, _, _, _, _, _, _, _, _, _, _, _, _, _, _, _, _, _, _] : List _) ++ [_]) y = _
  refine View.canon_append_first_apply_get (Val := Elt Ideal) (S := S26x1168x64) (e := .bf16) (padded x2) _ y ?_ _ ?_ ?_
  · exact View.mem_set_unit_zero hz3 inb_S26x1168x64_S26x1168x64_0_0_0 y
  · refine List.forall_mem_cons.2 ⟨fun x => table_store ![25, 168, 0] ![25, 0, 0] 25 (by decide) rfl (by decide) rfl rfl rfl rfl
      inb_S26x1168x64_S1x1000x64_25_168_0 inb_S26x1000x64_S1x1000x64_25_0_0 x2 _ (round_trip (View.ld x2 (Rect.unit (s := S26x1000x64) ![25, 0, 0] S1x1000x64.size inb_S26x1000x64_S1x1000x64_25_0_0))) x, ?_⟩
    refine List.forall_mem_cons.2 ⟨fun x => table_store ![24, 64, 0] ![24, 0, 0] 24 (by decide) rfl (by decide) rfl rfl rfl rfl
      inb_S26x1168x64_S1x1000x64_24_64_0 inb_S26x1000x64_S1x1000x64_24_0_0 x2 _ (round_trip (View.ld x2 (Rect.unit (s := S26x1000x64) ![24, 0, 0] S1x1000x64.size inb_S26x1000x64_S1x1000x64_24_0_0))) x, ?_⟩
    refine List.forall_mem_cons.2 ⟨fun x => table_store ![23, 88, 0] ![23, 0, 0] 23 (by decide) rfl (by decide) rfl rfl rfl rfl
      inb_S26x1168x64_S1x1000x64_23_88_0 inb_S26x1000x64_S1x1000x64_23_0_0 x2 _ (round_trip (View.ld x2 (Rect.unit (s := S26x1000x64) ![23, 0, 0] S1x1000x64.size inb_S26x1000x64_S1x1000x64_23_0_0))) x, ?_⟩
    refine List.forall_mem_cons.2 ⟨fun x => table_store ![22, 112, 0] ![22, 0, 0] 22 (by decide) rfl (by decide) rfl rfl rfl rfl
      inb_S26x1168x64_S1x1000x64_22_112_0 inb_S26x1000x64_S1x1000x64_22_0_0 x2 _ (round_trip (View.ld x2 (Rect.unit (s := S26x1000x64) ![22, 0, 0] S1x1000x64.size inb_S26x1000x64_S1x1000x64_22_0_0))) x, ?_⟩
    refine List.forall_mem_cons.2 ⟨fun x => table_store ![21, 8, 0] ![21, 0, 0] 21 (by decide) rfl (by decide) rfl rfl rfl rfl
      inb_S26x1168x64_S1x1000x64_21_8_0 inb_S26x1000x64_S1x1000x64_21_0_0 x2 _ (round_trip (View.ld x2 (Rect.unit (s := S26x1000x64) ![21, 0, 0] S1x1000x64.size inb_S26x1000x64_S1x1000x64_21_0_0))) x, ?_⟩
    refine List.forall_mem_cons.2 ⟨fun x => table_store ![20, 32, 0] ![20, 0, 0] 20 (by decide) rfl (by decide) rfl rfl rfl rfl
      inb_S26x1168x64_S1x1000x64_20_32_0 inb_S26x1000x64_S1x1000x64_20_0_0 x2 _ (round_trip (View.ld x2 (Rect.unit (s := S26x1000x64) ![20, 0, 0] S1x1000x64.size inb_S26x1000x64_S1x1000x64_20_0_0))) x, ?_⟩
    refine List.forall_mem_cons.2 ⟨fun x => table_store ![19, 56, 0] ![19, 0, 0] 19 (by decide) rfl (by decide) rfl rfl rfl rfl
      inb_S26x1168x64_S1x1000x64_19_56_0 inb_S26x1000x64_S1x1000x64_19_0_0 x2 _ (round_trip (View.ld x2 (Rect.unit (s := S26x1000x64) ![19, 0, 0] S1x1000x64.size inb_S26x1000x64_S1x1000x64_19_0_0))) x, ?_⟩
    refine List.forall_mem_cons.2 ⟨fun x => table_store ![18, 80, 0] ![18, 0, 0] 18 (by decide) rfl (by decide) rfl rfl rfl rfl
      inb_S26x1168x64_S1x1000x64_18_80_0 inb_S26x1000x64_S1x1000x64_18_0_0 x2 _ (round_trip (View.ld x2 (Rect.unit (s := S26x1000x64) ![18, 0, 0] S1x1000x64.size inb_S26x1000x64_S1x1000x64_18_0_0))) x, ?_⟩
    refine List.forall_mem_cons.2 ⟨fun x => table_store ![17, 104, 0] ![17, 0, 0] 17 (by decide) rfl (by decide) rfl rfl rfl rfl
      inb_S26x1168x64_S1x1000x64_17_104_0 inb_S26x1000x64_S1x1000x64_17_0_0 x2 _ (round_trip (View.ld x2 (Rect.unit (s := S26x1000x64) ![17, 0, 0] S1x1000x64.size inb_S26x1000x64_S1x1000x64_17_0_0))) x, ?_⟩
    refine List.forall_mem_cons.2 ⟨fun x => table_store ![16, 0, 0] ![16, 0, 0] 16 (by decide) rfl (by decide) rfl rfl rfl rfl
      inb_S26x1168x64_S1x1000x64_16_0_0 inb_S26x1000x64_S1x1000x64_16_0_0 x2 _ (round_trip (View.ld x2 (Rect.unit (s := S26x1000x64) ![16, 0, 0] S1x1000x64.size inb_S26x1000x64_S1x1000x64_16_0_0))) x, ?_⟩
    refine List.forall_mem_cons.2 ⟨fun x => table_store ![15, 24, 0] ![15, 0, 0] 15 (by decide) rfl (by decide) rfl rfl rfl rfl
      inb_S26x1168x64_S1x1000x64_15_24_0 inb_S26x1000x64_S1x1000x64_15_0_0 x2 _ (round_trip (View.ld x2 (Rect.unit (s := S26x1000x64) ![15, 0, 0] S1x1000x64.size inb_S26x1000x64_S1x1000x64_15_0_0))) x, ?_⟩
    refine List.forall_mem_cons.2 ⟨fun x => table_store ![14, 48, 0] ![14, 0, 0] 14 (by decide) rfl (by decide) rfl rfl rfl rfl
      inb_S26x1168x64_S1x1000x64_14_48_0 inb_S26x1000x64_S1x1000x64_14_0_0 x2 _ (round_trip (View.ld x2 (Rect.unit (s := S26x1000x64) ![14, 0, 0] S1x1000x64.size inb_S26x1000x64_S1x1000x64_14_0_0))) x, ?_⟩
    refine List.forall_mem_cons.2 ⟨fun x => table_store ![13, 72, 0] ![13, 0, 0] 13 (by decide) rfl (by decide) rfl rfl rfl rfl
      inb_S26x1168x64_S1x1000x64_13_72_0 inb_S26x1000x64_S1x1000x64_13_0_0 x2 _ (round_trip (View.ld x2 (Rect.unit (s := S26x1000x64) ![13, 0, 0] S1x1000x64.size inb_S26x1000x64_S1x1000x64_13_0_0))) x, ?_⟩
    refine List.forall_mem_cons.2 ⟨fun x => table_store ![12, 96, 0] ![12, 0, 0] 12 (by decide) rfl (by decide) rfl rfl rfl rfl
      inb_S26x1168x64_S1x1000x64_12_96_0 inb_S26x1000x64_S1x1000x64_12_0_0 x2 _ (round_trip (View.ld x2 (Rect.unit (s := S26x1000x64) ![12, 0, 0] S1x1000x64.size inb_S26x1000x64_S1x1000x64_12_0_0))) x, ?_⟩
    refine List.forall_mem_cons.2 ⟨fun x => table_store ![11, 120, 0] ![11, 0, 0] 11 (by decide) rfl (by decide) rfl rfl rfl rfl
      inb_S26x1168x64_S1x1000x64_11_120_0 inb_S26x1000x64_S1x1000x64_11_0_0 x2 _ (round_trip (View.ld x2 (Rect.unit (s := S26x1000x64) ![11, 0, 0] S1x1000x64.size inb_S26x1000x64_S1x1000x64_11_0_0))) x, ?_⟩
    refine List.forall_mem_cons.2 ⟨fun x => table_store ![10, 16, 0] ![10, 0, 0] 10 (by decide) rfl (by decide) rfl rfl rfl rfl
      inb_S26x1168x64_S1x1000x64_10_16_0 inb_S26x1000x64_S1x1000x64_10_0_0 x2 _ (round_trip (View.ld x2 (Rect.unit (s := S26x1000x64) ![10, 0, 0] S1x1000x64.size inb_S26x1000x64_S1x1000x64_10_0_0))) x, ?_⟩
    refine List.forall_mem_cons.2 ⟨fun x => table_store ![9, 40, 0] ![9, 0, 0] 9 (by decide) rfl (by decide) rfl rfl rfl rfl
      inb_S26x1168x64_S1x1000x64_9_40_0 inb_S26x1000x64_S1x1000x64_9_0_0 x2 _ (round_trip (View.ld x2 (Rect.unit (s := S26x1000x64) ![9, 0, 0] S1x1000x64.size inb_S26x1000x64_S1x1000x64_9_0_0))) x, ?_⟩
    refine List.forall_mem_cons.2 ⟨fun x => table_store ![8, 64, 0] ![8, 0, 0] 8 (by decide) rfl (by decide) rfl rfl rfl rfl
      inb_S26x1168x64_S1x1000x64_8_64_0 inb_S26x1000x64_S1x1000x64_8_0_0 x2 _ (round_trip (View.ld x2 (Rect.unit (s := S26x1000x64) ![8, 0, 0] S1x1000x64.size inb_S26x1000x64_S1x1000x64_8_0_0))) x, ?_⟩
    refine List.forall_mem_cons.2 ⟨fun x => table_store ![7, 88, 0] ![7, 0, 0] 7 (by decide) rfl (by decide) rfl rfl rfl rfl
      inb_S26x1168x64_S1x1000x64_7_88_0 inb_S26x1000x64_S1x1000x64_7_0_0 x2 _ (round_trip (View.ld x2 (Rect.unit (s := S26x1000x64) ![7, 0, 0] S1x1000x64.size inb_S26x1000x64_S1x1000x64_7_0_0))) x, ?_⟩
    refine List.forall_mem_cons.2 ⟨fun x => table_store ![6, 112, 0] ![6, 0, 0] 6 (by decide) rfl (by decide) rfl rfl rfl rfl
      inb_S26x1168x64_S1x1000x64_6_112_0 inb_S26x1000x64_S1x1000x64_6_0_0 x2 _ (round_trip (View.ld x2 (Rect.unit (s := S26x1000x64) ![6, 0, 0] S1x1000x64.size inb_S26x1000x64_S1x1000x64_6_0_0))) x, ?_⟩
    refine List.forall_mem_cons.2 ⟨fun x => table_store ![5, 8, 0] ![5, 0, 0] 5 (by decide) rfl (by decide) rfl rfl rfl rfl
      inb_S26x1168x64_S1x1000x64_5_8_0 inb_S26x1000x64_S1x1000x64_5_0_0 x2 _ (round_trip (View.ld x2 (Rect.unit (s := S26x1000x64) ![5, 0, 0] S1x1000x64.size inb_S26x1000x64_S1x1000x64_5_0_0))) x, ?_⟩
    refine List.forall_mem_cons.2 ⟨fun x => table_store ![4, 32, 0] ![4, 0, 0] 4 (by decide) rfl (by decide) rfl rfl rfl rfl
      inb_S26x1168x64_S1x1000x64_4_32_0 inb_S26x1000x64_S1x1000x64_4_0_0 x2 _ (round_trip (View.ld x2 (Rect.unit (s := S26x1000x64) ![4, 0, 0] S1x1000x64.size inb_S26x1000x64_S1x1000x64_4_0_0))) x, ?_⟩
    refine List.forall_mem_cons.2 ⟨fun x => table_store ![3, 56, 0] ![3, 0, 0] 3 (by decide) rfl (by decide) rfl rfl rfl rfl
      inb_S26x1168x64_S1x1000x64_3_56_0 inb_S26x1000x64_S1x1000x64_3_0_0 x2 _ (round_trip (View.ld x2 (Rect.unit (s := S26x1000x64) ![3, 0, 0] S1x1000x64.size inb_S26x1000x64_S1x1000x64_3_0_0))) x, ?_⟩
    refine List.forall_mem_cons.2 ⟨fun x => table_store ![2, 80, 0] ![2, 0, 0] 2 (by decide) rfl (by decide) rfl rfl rfl rfl
      inb_S26x1168x64_S1x1000x64_2_80_0 inb_S26x1000x64_S1x1000x64_2_0_0 x2 _ (round_trip (View.ld x2 (Rect.unit (s := S26x1000x64) ![2, 0, 0] S1x1000x64.size inb_S26x1000x64_S1x1000x64_2_0_0))) x, ?_⟩
    refine List.forall_mem_cons.2 ⟨fun x => table_store ![1, 104, 0] ![1, 0, 0] 1 (by decide) rfl (by decide) rfl rfl rfl rfl
      inb_S26x1168x64_S1x1000x64_1_104_0 inb_S26x1000x64_S1x1000x64_1_0_0 x2 _ (round_trip (View.ld x2 (Rect.unit (s := S26x1000x64) ![1, 0, 0] S1x1000x64.size inb_S26x1000x64_S1x1000x64_1_0_0))) x, ?_⟩
    refine List.forall_mem_cons.2 ⟨fun x => table_store ![0, 0, 0] ![0, 0, 0] 0 (by decide) rfl (by decide) rfl rfl rfl rfl
      inb_S26x1168x64_S1x1000x64_0_0_0 inb_S26x1000x64_S1x1000x64_0_0_0 x2 _ (round_trip (View.ld x2 (Rect.unit (s := S26x1000x64) ![0, 0, 0] S1x1000x64.size inb_S26x1000x64_S1x1000x64_0_0_0))) x, ?_⟩
    exact fun _ h => absurd h List.not_mem_nil
  · intro hnone x _
    show k0_pay4 (F := Ideal) x = _
    rw [zero_store]
    obtain ⟨k, hk, hk26⟩ : ∃ k, (y 0).val = k ∧ k < 26 := ⟨_, rfl, (y 0).isLt⟩
    rw [padded_of_coords x2 y k (y 1).val (y 2).val hk rfl rfl]
    symm
    refine if_neg fun hin => ?_
    have hmiss := hnone (25 - k) (by show 25 - k < 26; omega)
    interval_cases k <;> exact hmiss (mem_rows _ _ _ rfl (by decide) rfl (by decide) y hk hin.1 hin.2)

end Cert.KernelIdeal.Fields

end
-- ==== Proof.OutFirst.lean ====
/-
  WHAT THE FIRST GRID POINT LEAVES IN THE OUTPUT. At the grid's first point the body, having built the table in its
  scratch buffer, writes the output block from the point's input blocks and that table: every slab it multiplies by is
  a load of the buffer after all its stores, which reads the stores' canonical contents. Read back as a value, the block
  is Spec's `blockResult` of the point's blocks and of what the scratch buffer holds after the point.
-/
import proofs.«123104_g7189775253945_cont_9to1c4b_357_9_alg».proof.Proof.FrameKernelIdeal
import proofs.«123104_g7189775253945_cont_9to1c4b_357_9_alg».proof.Proof.Stores
import Idealize.ShloMosaic.Lib.Tactic

set_option maxRecDepth 16384

noncomputable section

namespace Cert.KernelIdeal.Fields

open Idealize.ShloMosaic Idealize.ShloMosaic.TcCoe Idealize.ShloMosaic.ValueIdx Idealize.SL.Sem
open Cert.KernelIdeal Cert.KernelIdeal.Gen Cert.KernelIdeal.GenP Cert.Embed

set_option maxHeartbeats 4000000 in
/-- The first point's output block, over the table it has just built. -/
theorem out_A (c : Dev nD) (i : grid0.Coords) (arg1 : Memref sig .tc .vmem S128x13 .f32) (harg1 : arg1.IsWhole) (arg2 : Memref sig .tc .vmem S128x26000 .i32) (harg2 : arg2.IsWhole) (arg3 : Memref sig .tc .vmem S26x1000x64 .f32) (harg3 : arg3.IsWhole) (arg4 : Memref sig .tc .vmem S128x1677 .f32) (harg4 : arg4.IsWhole) (arg5 : Memref sig .tc .vmem S26x1168x64 .bf16) (harg5 : arg5.IsWhole) (hc0 : cond0_0 i)
    (x0 : Vec Ideal S128x13 .f32) (x1 : Vec Ideal S128x26000 .i32) (x2 : Vec Ideal S26x1000x64 .f32) :
    out0_A_3 c i arg1 harg1 arg2 harg2 arg3 harg3 arg4 harg4 arg5 harg5 hc0 x0 x1 x2 = blockResult x0 x1 (sout0_A_0 c i arg1 harg1 arg2 harg2 arg3 harg3 arg4 harg4 arg5 harg5 hc0 x0 x1 x2) := by
  have hrd := fun (r : Rect S26x1168x64) =>
    View.readCov_eq_canon_ld arg5.view _ r (scover0_A_0 c i arg1 harg1 arg2 harg2 arg3 harg3 arg4 harg4 arg5 harg5 hc0 x0 x1 x2)
  have hS : sout0_A_0 c i arg1 harg1 arg2 harg2 arg3 harg3 arg4 harg4 arg5 harg5 hc0 x0 x1 x2
      = View.canon (kernelRun0_A c i arg1 harg1 arg2 harg2 arg3 harg3 arg4 harg4 arg5 harg5 hc0 x0 x1 x2).2.1 := by
    unfold sout0_A_0
    exact View.read_writes_eq_canon _ _ _ (scover0_A_0 c i arg1 harg1 arg2 harg2 arg3 harg3 arg4 harg4 arg5 harg5 hc0 x0 x1 x2)
  rw [hS]
  unfold out0_A_3
  rw [View.read_writes_eq_canon _ _ _ (cover0_A_3 c i arg1 harg1 arg2 harg2 arg3 harg3 arg4 harg4 arg5 harg5 hc0 x0 x1 x2)]
  funext y
  refine View.canon_apply_of_pieces (blockResult x0 x1 (View.canon (kernelRun0_A c i arg1 harg1 arg2 harg2 arg3 harg3 arg4 harg4 arg5 harg5 hc0 x0 x1 x2).2.1)) _ ?_ y
    (cover0_A_3 c i arg1 harg1 arg2 harg2 arg3 harg3 arg4 harg4 arg5 harg5 hc0 x0 x1 x2 y)
  generalize View.canon (kernelRun0_A c i arg1 harg1 arg2 harg2 arg3 harg3 arg4 harg4 arg5 harg5 hc0 x0 x1 x2).2.1 = T at hrd ⊢
  unfold kernelRun0_A at hrd ⊢
  dsimp only at hrd ⊢
  simp only [View.readAt_eq_ld, harg1.read_unread, harg2.read_unread]
  refine List.forall_mem_cons.2 ⟨fun x => field_store ![0, 1613] 25 rfl rfl inb_S128x1677_S128x64_0_1613 x0 x1 T
    (View.ld x1 (Rect.unit (s := S128x26000) ![0, 24832] ![128, 1168] inb_S128x26000_S128x1168_0_24832)) _
    (fun p q => window_at ![0, 24832] 24832 rfl rfl inb_S128x26000_S128x1168_0_24832 x1 p q)
    (fun q e => (congrFun (hrd (Rect.unit (s := S26x1168x64) ![25, 0, 0] ![1, 1168, 64] inb_S26x1168x64_S1x1168x64_25_0_0)) (ix3 (0 : Fin 1) q e)).trans (slab_at ![25, 0, 0] 25 rfl rfl rfl inb_S26x1168x64_S1x1168x64_25_0_0 T q e)) x, ?_⟩
  refine List.forall_mem_cons.2 ⟨fun x => field_store ![0, 1549] 24 rfl rfl inb_S128x1677_S128x64_0_1549 x0 x1 T
    (View.ld x1 (Rect.unit (s := S128x26000) ![0, 23936] ![128, 1168] inb_S128x26000_S128x1168_0_23936)) _
    (fun p q => window_at ![0, 23936] 23936 rfl rfl inb_S128x26000_S128x1168_0_23936 x1 p q)
    (fun q e => (congrFun (hrd (Rect.unit (s := S26x1168x64) ![24, 0, 0] ![1, 1168, 64] inb_S26x1168x64_S1x1168x64_24_0_0)) (ix3 (0 : Fin 1) q e)).trans (slab_at ![24, 0, 0] 24 rfl rfl rfl inb_S26x1168x64_S1x1168x64_24_0_0 T q e)) x, ?_⟩
  refine List.forall_mem_cons.2 ⟨fun x => field_store ![0, 1485] 23 rfl rfl inb_S128x1677_S128x64_0_1485 x0 x1 T
    (View.ld x1 (Rect.unit (s := S128x26000) ![0, 22912] ![128, 1168] inb_S128x26000_S128x1168_0_22912)) _
    (fun p q => window_at ![0, 22912] 22912 rfl rfl inb_S128x26000_S128x1168_0_22912 x1 p q)
    (fun q e => (congrFun (hrd (Rect.unit (s := S26x1168x64) ![23, 0, 0] ![1, 1168, 64] inb_S26x1168x64_S1x1168x64_23_0_0)) (ix3 (0 : Fin 1) q e)).trans (slab_at ![23, 0, 0] 23 rfl rfl rfl inb_S26x1168x64_S1x1168x64_23_0_0 T q e)) x, ?_⟩
  refine List.forall_mem_cons.2 ⟨fun x => field_store ![0, 1421] 22 rfl rfl inb_S128x1677_S128x64_0_1421 x0 x1 T
    (View.ld x1 (Rect.unit (s := S128x26000) ![0, 21888] ![128, 1168] inb_S128x26000_S128x1168_0_21888)) _
    (fun p q => window_at ![0, 21888] 21888 rfl rfl inb_S128x26000_S128x1168_0_21888 x1 p q)
    (fun q e => (congrFun (hrd (Rect.unit (s := S26x1168x64) ![22, 0, 0] ![1, 1168, 64] inb_S26x1168x64_S1x1168x64_22_0_0)) (ix3 (0 : Fin 1) q e)).trans (slab_at ![22, 0, 0] 22 rfl rfl rfl inb_S26x1168x64_S1x1168x64_22_0_0 T q e)) x, ?_⟩
  refine List.forall_mem_cons.2 ⟨fun x => field_store ![0, 1357] 21 rfl rfl inb_S128x1677_S128x64_0_1357 x0 x1 T
    (View.ld x1 (Rect.unit (s := S128x26000) ![0, 20992] ![128, 1168] inb_S128x26000_S128x1168_0_20992)) _
    (fun p q => window_at ![0, 20992] 20992 rfl rfl inb_S128x26000_S128x1168_0_20992 x1 p q)
    (fun q e => (congrFun (hrd (Rect.unit (s := S26x1168x64) ![21, 0, 0] ![1, 1168, 64] inb_S26x1168x64_S1x1168x64_21_0_0)) (ix3 (0 : Fin 1) q e)).trans (slab_at ![21, 0, 0] 21 rfl rfl rfl inb_S26x1168x64_S1x1168x64_21_0_0 T q e)) x, ?_⟩
  refine List.forall_mem_cons.2 ⟨fun x => field_store ![0, 1293] 20 rfl rfl inb_S128x1677_S128x64_0_1293 x0 x1 T
    (View.ld x1 (Rect.unit (s := S128x26000) ![0, 19968] ![128, 1168] inb_S128x26000_S128x1168_0_19968)) _
    (fun p q => window_at ![0, 19968] 19968 rfl rfl inb_S128x26000_S128x1168_0_19968 x1 p q)
    (fun q e => (congrFun (hrd (Rect.unit (s := S26x1168x64) ![20, 0, 0] ![1, 1168, 64] inb_S26x1168x64_S1x1168x64_20_0_0)) (ix3 (0 : Fin 1) q e)).trans (slab_at ![20, 0, 0] 20 rfl rfl rfl inb_S26x1168x64_S1x1168x64_20_0_0 T q e)) x, ?_⟩
  refine List.forall_mem_cons.2 ⟨fun x => field_store ![0, 1229] 19 rfl rfl inb_S128x1677_S128x64_0_1229 x0 x1 T
    (View.ld x1 (Rect.unit (s := S128x26000) ![0, 18944] ![128, 1168] inb_S128x26000_S128x1168_0_18944)) _
    (fun p q => window_at ![0, 18944] 18944 rfl rfl inb_S128x26000_S128x1168_0_18944 x1 p q)
    (fun q e => (congrFun (hrd (Rect.unit (s := S26x1168x64) ![19, 0, 0] ![1, 1168, 64] inb_S26x1168x64_S1x1168x64_19_0_0)) (ix3 (0 : Fin 1) q e)).trans (slab_at ![19, 0, 0] 19 rfl rfl rfl inb_S26x1168x64_S1x1168x64_19_0_0 T q e)) x, ?_⟩
  refine List.forall_mem_cons.2 ⟨fun x => field_store ![0, 1165] 18 rfl rfl inb_S128x1677_S128x64_0_1165 x0 x1 T
    (View.ld x1 (Rect.unit (s := S128x26000) ![0, 17920] ![128, 1168] inb_S128x26000_S128x1168_0_17920)) _
    (fun p q => window_at ![0, 17920] 17920 rfl rfl inb_S128x26000_S128x1168_0_17920 x1 p q)
    (fun q e => (congrFun (hrd (Rect.unit (s := S26x1168x64) ![18, 0, 0] ![1, 1168, 64] inb_S26x1168x64_S1x1168x64_18_0_0)) (ix3 (0 : Fin 1) q e)).trans (slab_at ![18, 0, 0] 18 rfl rfl rfl inb_S26x1168x64_S1x1168x64_18_0_0 T q e)) x, ?_⟩
  refine List.forall_mem_cons.2 ⟨fun x => field_store ![0, 1101] 17 rfl rfl inb_S128x1677_S128x64_0_1101 x0 x1 T
    (View.ld x1 (Rect.unit (s := S128x26000) ![0, 16896] ![128, 1168] inb_S128x26000_S128x1168_0_16896)) _
    (fun p q => window_at ![0, 16896] 16896 rfl rfl inb_S128x26000_S128x1168_0_16896 x1 p q)
    (fun q e => (congrFun (hrd (Rect.unit (s := S26x1168x64) ![17, 0, 0] ![1, 1168, 64] inb_S26x1168x64_S1x1168x64_17_0_0)) (ix3 (0 : Fin 1) q e)).trans (slab_at ![17, 0, 0] 17 rfl rfl rfl inb_S26x1168x64_S1x1168x64_17_0_0 T q e)) x, ?_⟩
  refine List.forall_mem_cons.2 ⟨fun x => field_store ![0, 1037] 16 rfl rfl inb_S128x1677_S128x64_0_1037 x0 x1 T
    (View.ld x1 (Rect.unit (s := S128x26000) ![0, 16000] ![128, 1168] inb_S128x26000_S128x1168_0_16000)) _
    (fun p q => window_at ![0, 16000] 16000 rfl rfl inb_S128x26000_S128x1168_0_16000 x1 p q)
    (fun q e => (congrFun (hrd (Rect.unit (s := S26x1168x64) ![16, 0, 0] ![1, 1168, 64] inb_S26x1168x64_S1x1168x64_16_0_0)) (ix3 (0 : Fin 1) q e)).trans (slab_at ![16, 0, 0] 16 rfl rfl rfl inb_S26x1168x64_S1x1168x64_16_0_0 T q e)) x, ?_⟩
  refine List.forall_mem_cons.2 ⟨fun x => field_store ![0, 973] 15 rfl rfl inb_S128x1677_S128x64_0_973 x0 x1 T
    (View.ld x1 (Rect.unit (s := S128x26000) ![0, 14976] ![128, 1168] inb_S128x26000_S128x1168_0_14976)) _
    (fun p q => window_at ![0, 14976] 14976 rfl rfl inb_S128x26000_S128x1168_0_14976 x1 p q)
    (fun q e => (congrFun (hrd (Rect.unit (s := S26x1168x64) ![15, 0, 0] ![1, 1168, 64] inb_S26x1168x64_S1x1168x64_15_0_0)) (ix3 (0 : Fin 1) q e)).trans (slab_at ![15, 0, 0] 15 rfl rfl rfl inb_S26x1168x64_S1x1168x64_15_0_0 T q e)) x, ?_⟩
  refine List.forall_mem_cons.2 ⟨fun x => field_store ![0, 909] 14 rfl rfl inb_S128x1677_S128x64_0_909 x0 x1 T
    (View.ld x1 (Rect.unit (s := S128x26000) ![0, 13952] ![128, 1168] inb_S128x26000_S128x1168_0_13952)) _
    (fun p q => window_at ![0, 13952] 13952 rfl rfl inb_S128x26000_S128x1168_0_13952 x1 p q)
    (fun q e => (congrFun (hrd (Rect.unit (s := S26x1168x64) ![14, 0, 0] ![1, 1168, 64] inb_S26x1168x64_S1x1168x64_14_0_0)) (ix3 (0 : Fin 1) q e)).trans (slab_at ![14, 0, 0] 14 rfl rfl rfl inb_S26x1168x64_S1x1168x64_14_0_0 T q e)) x, ?_⟩
  refine List.forall_mem_cons.2 ⟨fun x => field_store ![0, 845] 13 rfl rfl inb_S128x1677_S128x64_0_845 x0 x1 T
    (View.ld x1 (Rect.unit (s := S128x26000) ![0, 12928] ![128, 1168] inb_S128x26000_S128x1168_0_12928)) _
    (fun p q => window_at ![0, 12928] 12928 rfl rfl inb_S128x26000_S128x1168_0_12928 x1 p q)
    (fun q e => (congrFun (hrd (Rect.unit (s := S26x1168x64) ![13, 0, 0] ![1, 1168, 64] inb_S26x1168x64_S1x1168x64_13_0_0)) (ix3 (0 : Fin 1) q e)).trans (slab_at ![13, 0, 0] 13 rfl rfl rfl inb_S26x1168x64_S1x1168x64_13_0_0 T q e)) x, ?_⟩
  refine List.forall_mem_cons.2 ⟨fun x => field_store ![0, 781] 12 rfl rfl inb_S128x1677_S128x64_0_781 x0 x1 T
    (View.ld x1 (Rect.unit (s := S128x26000) ![0, 11904] ![128, 1168] inb_S128x26000_S128x1168_0_11904)) _
    (fun p q => window_at ![0, 11904] 11904 rfl rfl inb_S128x26000_S128x1168_0_11904 x1 p q)
    (fun q e => (congrFun (hrd (Rect.unit (s := S26x1168x64) ![12, 0, 0] ![1, 1168, 64] inb_S26x1168x64_S1x1168x64_12_0_0)) (ix3 (0 : Fin 1) q e)).trans (slab_at ![12, 0, 0] 12 rfl rfl rfl inb_S26x1168x64_S1x1168x64_12_0_0 T q e)) x, ?_⟩
  refine List.forall_mem_cons.2 ⟨fun x => field_store ![0, 717] 11 rfl rfl inb_S128x1677_S128x64_0_717 x0 x1 T
    (View.ld x1 (Rect.unit (s := S128x26000) ![0, 10880] ![128, 1168] inb_S128x26000_S128x1168_0_10880)) _
    (fun p q => window_at ![0, 10880] 10880 rfl rfl inb_S128x26000_S128x1168_0_10880 x1 p q)
    (fun q e => (congrFun (hrd (Rect.unit (s := S26x1168x64) ![11, 0, 0] ![1, 1168, 64] inb_S26x1168x64_S1x1168x64_11_0_0)) (ix3 (0 : Fin 1) q e)).trans (slab_at ![11, 0, 0] 11 rfl rfl rfl inb_S26x1168x64_S1x1168x64_11_0_0 T q e)) x, ?_⟩
  refine List.forall_mem_cons.2 ⟨fun x => field_store ![0, 653] 10 rfl rfl inb_S128x1677_S128x64_0_653 x0 x1 T
    (View.ld x1 (Rect.unit (s := S128x26000) ![0, 9984] ![128, 1168] inb_S128x26000_S128x1168_0_9984)) _
    (fun p q => window_at ![0, 9984] 9984 rfl rfl inb_S128x26000_S128x1168_0_9984 x1 p q)
    (fun q e => (congrFun (hrd (Rect.unit (s := S26x1168x64) ![10, 0, 0] ![1, 1168, 64] inb_S26x1168x64_S1x1168x64_10_0_0)) (ix3 (0 : Fin 1) q e)).trans (slab_at ![10, 0, 0] 10 rfl rfl rfl inb_S26x1168x64_S1x1168x64_10_0_0 T q e)) x, ?_⟩
  refine List.forall_mem_cons.2 ⟨fun x => field_store ![0, 589] 9 rfl rfl inb_S128x1677_S128x64_0_589 x0 x1 T
    (View.ld x1 (Rect.unit (s := S128x26000) ![0, 8960] ![128, 1168] inb_S128x26000_S128x1168_0_8960)) _
    (fun p q => window_at ![0, 8960] 8960 rfl rfl inb_S128x26000_S128x1168_0_8960 x1 p q)
    (fun q e => (congrFun (hrd (Rect.unit (s := S26x1168x64) ![9, 0, 0] ![1, 1168, 64] inb_S26x1168x64_S1x1168x64_9_0_0)) (ix3 (0 : Fin 1) q e)).trans (slab_at ![9, 0, 0] 9 rfl rfl rfl inb_S26x1168x64_S1x1168x64_9_0_0 T q e)) x, ?_⟩
  refine List.forall_mem_cons.2 ⟨fun x => field_store ![0, 525] 8 rfl rfl inb_S128x1677_S128x64_0_525 x0 x1 T
    (View.ld x1 (Rect.unit (s := S128x26000) ![0, 7936] ![128, 1168] inb_S128x26000_S128x1168_0_7936)) _
    (fun p q => window_at ![0, 7936] 7936 rfl rfl inb_S128x26000_S128x1168_0_7936 x1 p q)
    (fun q e => (congrFun (hrd (Rect.unit (s := S26x1168x64) ![8, 0, 0] ![1, 1168, 64] inb_S26x1168x64_S1x1168x64_8_0_0)) (ix3 (0 : Fin 1) q e)).trans (slab_at ![8, 0, 0] 8 rfl rfl rfl inb_S26x1168x64_S1x1168x64_8_0_0 T q e)) x, ?_⟩
  refine List.forall_mem_cons.2 ⟨fun x => field_store ![0, 461] 7 rfl rfl inb_S128x1677_S128x64_0_461 x0 x1 T
    (View.ld x1 (Rect.unit (s := S128x26000) ![0, 6912] ![128, 1168] inb_S128x26000_S128x1168_0_6912)) _
    (fun p q => window_at ![0, 6912] 6912 rfl rfl inb_S128x26000_S128x1168_0_6912 x1 p q)
    (fun q e => (congrFun (hrd (Rect.unit (s := S26x1168x64) ![7, 0, 0] ![1, 1168, 64] inb_S26x1168x64_S1x1168x64_7_0_0)) (ix3 (0 : Fin 1) q e)).trans (slab_at ![7, 0, 0] 7 rfl rfl rfl inb_S26x1168x64_S1x1168x64_7_0_0 T q e)) x, ?_⟩
  refine List.forall_mem_cons.2 ⟨fun x => field_store ![0, 397] 6 rfl rfl inb_S128x1677_S128x64_0_397 x0 x1 T
    (View.ld x1 (Rect.unit (s := S128x26000) ![0, 5888] ![128, 1168] inb_S128x26000_S128x1168_0_5888)) _
    (fun p q => window_at ![0, 5888] 5888 rfl rfl inb_S128x26000_S128x1168_0_5888 x1 p q)
    (fun q e => (congrFun (hrd (Rect.unit (s := S26x1168x64) ![6, 0, 0] ![1, 1168, 64] inb_S26x1168x64_S1x1168x64_6_0_0)) (ix3 (0 : Fin 1) q e)).trans (slab_at ![6, 0, 0] 6 rfl rfl rfl inb_S26x1168x64_S1x1168x64_6_0_0 T q e)) x, ?_⟩
  refine List.forall_mem_cons.2 ⟨fun x => field_store ![0, 333] 5 rfl rfl inb_S128x1677_S128x64_0_333 x0 x1 T
    (View.ld x1 (Rect.unit (s := S128x26000) ![0, 4992] ![128, 1168] inb_S128x26000_S128x1168_0_4992)) _
    (fun p q => window_at ![0, 4992] 4992 rfl rfl inb_S128x26000_S128x1168_0_4992 x1 p q)
    (fun q e => (congrFun (hrd (Rect.unit (s := S26x1168x64) ![5, 0, 0] ![1, 1168, 64] inb_S26x1168x64_S1x1168x64_5_0_0)) (ix3 (0 : Fin 1) q e)).trans (slab_at ![5, 0, 0] 5 rfl rfl rfl inb_S26x1168x64_S1x1168x64_5_0_0 T q e)) x, ?_⟩
  refine List.forall_mem_cons.2 ⟨fun x => field_store ![0, 269] 4 rfl rfl inb_S128x1677_S128x64_0_269 x0 x1 T
    (View.ld x1 (Rect.unit (s := S128x26000) ![0, 3968] ![128, 1168] inb_S128x26000_S128x1168_0_3968)) _
    (fun p q => window_at ![0, 3968] 3968 rfl rfl inb_S128x26000_S128x1168_0_3968 x1 p q)
    (fun q e => (congrFun (hrd (Rect.unit (s := S26x1168x64) ![4, 0, 0] ![1, 1168, 64] inb_S26x1168x64_S1x1168x64_4_0_0)) (ix3 (0 : Fin 1) q e)).trans (slab_at ![4, 0, 0] 4 rfl rfl rfl inb_S26x1168x64_S1x1168x64_4_0_0 T q e)) x, ?_⟩
  refine List.forall_mem_cons.2 ⟨fun x => field_store ![0, 205] 3 rfl rfl inb_S128x1677_S128x64_0_205 x0 x1 T
    (View.ld x1 (Rect.unit (s := S128x26000) ![0, 2944] ![128, 1168] inb_S128x26000_S128x1168_0_2944)) _
    (fun p q => window_at ![0, 2944] 2944 rfl rfl inb_S128x26000_S128x1168_0_2944 x1 p q)
    (fun q e => (congrFun (hrd (Rect.unit (s := S26x1168x64) ![3, 0, 0] ![1, 1168, 64] inb_S26x1168x64_S1x1168x64_3_0_0)) (ix3 (0 : Fin 1) q e)).trans (slab_at ![3, 0, 0] 3 rfl rfl rfl inb_S26x1168x64_S1x1168x64_3_0_0 T q e)) x, ?_⟩
  refine List.forall_mem_cons.2 ⟨fun x => field_store ![0, 141] 2 rfl rfl inb_S128x1677_S128x64_0_141 x0 x1 T
    (View.ld x1 (Rect.unit (s := S128x26000) ![0, 1920] ![128, 1168] inb_S128x26000_S128x1168_0_1920)) _
    (fun p q => window_at ![0, 1920] 1920 rfl rfl inb_S128x26000_S128x1168_0_1920 x1 p q)
    (fun q e => (congrFun (hrd (Rect.unit (s := S26x1168x64) ![2, 0, 0] ![1, 1168, 64] inb_S26x1168x64_S1x1168x64_2_0_0)) (ix3 (0 : Fin 1) q e)).trans (slab_at ![2, 0, 0] 2 rfl rfl rfl inb_S26x1168x64_S1x1168x64_2_0_0 T q e)) x, ?_⟩
  refine List.forall_mem_cons.2 ⟨fun x => field_store ![0, 77] 1 rfl rfl inb_S128x1677_S128x64_0_77 x0 x1 T
    (View.ld x1 (Rect.unit (s := S128x26000) ![0, 896] ![128, 1168] inb_S128x26000_S128x1168_0_896)) _
    (fun p q => window_at ![0, 896] 896 rfl rfl inb_S128x26000_S128x1168_0_896 x1 p q)
    (fun q e => (congrFun (hrd (Rect.unit (s := S26x1168x64) ![1, 0, 0] ![1, 1168, 64] inb_S26x1168x64_S1x1168x64_1_0_0)) (ix3 (0 : Fin 1) q e)).trans (slab_at ![1, 0, 0] 1 rfl rfl rfl inb_S26x1168x64_S1x1168x64_1_0_0 T q e)) x, ?_⟩
  refine List.forall_mem_cons.2 ⟨fun x => field_store ![0, 13] 0 rfl rfl inb_S128x1677_S128x64_0_13 x0 x1 T
    (View.ld x1 (Rect.unit (s := S128x26000) ![0, 0] ![128, 1168] inb_S128x26000_S128x1168_0_0)) _
    (fun p q => window_at ![0, 0] 0 rfl rfl inb_S128x26000_S128x1168_0_0 x1 p q)
    (fun q e => (congrFun (hrd (Rect.unit (s := S26x1168x64) ![0, 0, 0] ![1, 1168, 64] inb_S26x1168x64_S1x1168x64_0_0_0)) (ix3 (0 : Fin 1) q e)).trans (slab_at ![0, 0, 0] 0 rfl rfl rfl inb_S26x1168x64_S1x1168x64_0_0_0 T q e)) x, ?_⟩
  refine List.forall_mem_cons.2 ⟨fun x => cont_store ![0, 0] ![0, 0] rfl rfl rfl rfl inb_S128x1677_S128x13_0_0 inb_S128x13_S128x13_0_0 x0 x1 T x, ?_⟩
  exact fun _ h => absurd h List.not_mem_nil

end Cert.KernelIdeal.Fields

end
-- ==== Proof.PointValue.lean ====
/-
  THE GRID, POINT BY POINT. Point t stages rows 128 t … 128 t + 127 of the continuous features and of the categories,
  the whole of W (its block index never moves), and writes back rows 128 t … 128 t + 127 of the result.
  * What the point's input blocks hold, entry by entry, in terms of the arrays (`wBlk_eq`, `at2_contBlk`, `int2_catBlk`).
  * After every point the scratch buffer holds the padded table of W and the output's staging buffer holds the block
    result of the point's blocks against that table (`outs_eq`): at the first point the body builds the table and uses
    it; every later point finds the table the point before left, uses it and leaves it.
  * The block result of point t is rows 128 t … 128 t + 127 of the specification's result (`block_eq`): the continuous
    columns are the block's own, and each field's padded window sum is the field's sum (Spec's `window_sum`).
-/
import proofs.«123104_g7189775253945_cont_9to1c4b_357_9_alg».proof.Proof.ValueKernelIdeal
import proofs.«123104_g7189775253945_cont_9to1c4b_357_9_alg».proof.Proof.OutLater
import proofs.«123104_g7189775253945_cont_9to1c4b_357_9_alg».proof.Proof.TableFirst
import proofs.«123104_g7189775253945_cont_9to1c4b_357_9_alg».proof.Proof.OutFirst

open scoped BigOperators

noncomputable section

namespace Cert.KernelIdeal.Fields

open Idealize.ShloMosaic Idealize.ShloMosaic.TcCoe Idealize.ShloMosaic.ValueIdx Idealize.SL.Sem
open Cert.KernelIdeal Cert.KernelIdeal.Gen Cert.KernelIdeal.GenP Cert.Embed

variable (m : (ℓ : Loc nD τ sig) → Buf (Elt Ideal) ℓ)

/-- The point's blocks and the arrays, at their literal types. -/
abbrev contBlk (c : Dev nD) (t : Fin cfg0.N) : Vec Ideal S128x13 .f32 := iblk m c 0 t
abbrev catBlk (c : Dev nD) (t : Fin cfg0.N) : Vec Ideal S128x26000 .i32 := iblk m c 1 t
abbrev wBlk (c : Dev nD) (t : Fin cfg0.N) : Vec Ideal S26x1000x64 .f32 := iblk m c 2 t
abbrev contArr (c : Dev nD) : Vec Ideal S1024x13 .f32 := V m c main_arg0
abbrev catArr (c : Dev nD) : Vec Ideal S1024x26000 .i32 := V m c main_arg1
abbrev wArr (c : Dev nD) : Vec Ideal S26x1000x64 .f32 := V m c main_arg2

/-- The printed index maps over the grid: the three row-blocked windows are at block (t, 0), W's at block (0, 0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- W's block is W at every point. -/
theorem wBlk_eq (c : Dev nD) (t : Fin cfg0.N) : wBlk m c t = wArr m c := by
  obtain ⟨-, -, -, -, e0, e1, e2, -, -⟩ := idx_facts t
  funext y
  show wArr m c (((cfg0.win 2).blk t).view.emb y) = wArr m c y
  refine congrArg (wArr m c) (funext fun a => Fin.ext ?_)
  match a with
  | ⟨0, _⟩ => show win0_2.index t (0 : Fin 3) * 26 + 1 * (y 0).val = (y 0).val; omega
  | ⟨1, _⟩ => show win0_2.index t (1 : Fin 3) * 1000 + 1 * (y 1).val = (y 1).val; omega
  | ⟨2, _⟩ => show win0_2.index t (2 : Fin 3) * 64 + 1 * (y 2).val = (y 2).val; omega

/-- The block of continuous features at point t holds rows 128 t … of the array. -/
theorem at2_contBlk (c : Dev nD) (t : Fin cfg0.N) (p j : ℕ) (hp : p < 128) :
    at2 (contBlk m c t) p j = at2 (contArr m c) (128 * t.val + p) j := by
  obtain ⟨e0, e1, -, -, -, -, -, -, -⟩ := idx_facts t
  have ht : t.val < 8 := lt_of_lt_of_eq t.isLt (show cfg0.N = 8 from N_0)
  unfold at2
  have hr : 128 * t.val + p < 1024 := by omega
  by_cases hj : j < 13
  · rw [dif_pos ⟨hp, hj⟩, dif_pos ⟨hr, hj⟩]
    show contArr m c (((cfg0.win 0).blk t).view.emb (ix2 ⟨p, hp⟩ ⟨j, hj⟩)) = contArr m c _
    refine congrArg (contArr m c) (funext fun a => Fin.ext ?_)
    match a with
    | ⟨0, _⟩ => show win0_0.index t (0 : Fin 2) * 128 + 1 * p = 128 * t.val + p; omega
    | ⟨1, _⟩ => show win0_0.index t (1 : Fin 2) * 13 + 1 * j = j; omega
  · rw [dif_neg (fun h => hj h.2), dif_neg (fun h => hj h.2)]

/-- The block of categories at point t holds rows 128 t … of the array. -/
theorem int2_catBlk (c : Dev nD) (t : Fin cfg0.N) (p q : ℕ) (hp : p < 128) :
    int2 (catBlk m c t) p q = int2 (catArr m c) (128 * t.val + p) q := by
  obtain ⟨-, -, e0, e1, -, -, -, -, -⟩ := idx_facts t
  have ht : t.val < 8 := lt_of_lt_of_eq t.isLt (show cfg0.N = 8 from N_0)
  unfold int2
  have hr : 128 * t.val + p < 1024 := by omega
  by_cases hq : q < 26000
  · rw [dif_pos ⟨hp, hq⟩, dif_pos ⟨hr, hq⟩]
    show (((catArr m c (((cfg0.win 1).blk t).view.emb (ix2 ⟨p, hp⟩ ⟨q, hq⟩))).toInt : ℝ) : EReal) = _
    refine congrArg (fun z => (((catArr m c z).toInt : ℝ) : EReal)) (funext fun a => Fin.ext ?_)
    match a with
    | ⟨0, _⟩ => show win0_1.index t (0 : Fin 2) * 128 + 1 * p = 128 * t.val + p; omega
    | ⟨1, _⟩ => show win0_1.index t (1 : Fin 2) * 26000 + 1 * q = q; omega
  · rw [dif_neg (fun h => hq h.2), dif_neg (fun h => hq h.2)]

/-- The first point: the body builds the padded table and writes the block result over it. -/
theorem outs_first (c : Dev nD) (t : Fin cfg0.N) (h0 : t.val % 8 = 0) : outsAt0 m c t.val t.isLt
      = (blockResult (contBlk m c t) (catBlk m c t) (padded (wArr m c)), padded (wArr m c)) := by
  have hT := table_A c (grid0.coords t) (ms0_0 t) (hs0_0 t) (ms0_1 t) (hs0_1 t) (ms0_2 t) (hs0_2 t) (ms0_3 t) (hs0_3 t) scM0_0 (Memref.isWhole_whole _) ((hcond0_0 t).mpr h0) (contBlk m c t) (catBlk m c t) (wBlk m c t)
  have hA := out_A c (grid0.coords t) (ms0_0 t) (hs0_0 t) (ms0_1 t) (hs0_1 t) (ms0_2 t) (hs0_2 t) (ms0_3 t) (hs0_3 t) scM0_0 (Memref.isWhole_whole _) ((hcond0_0 t).mpr h0) (contBlk m c t) (catBlk m c t) (wBlk m c t)
  have hT' : sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (contBlk m c t) (catBlk m c t) (wBlk m c t)
      = padded (wArr m c) := hT.trans (by rw [wBlk_eq])
  have hA' : out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (contBlk m c t) (catBlk m c t) (wBlk m c t)
      = blockResult (contBlk m c t) (catBlk m c t) (padded (wArr m c)) := hA.trans (by rw [hT'])
  exact (outsAt0_A m c t h0).trans (congrArg₂ Prod.mk hA' hT')

/-- A later point that finds the padded table writes the block result over it and leaves the table. -/
theorem outs_later (c : Dev nD) (t : Fin cfg0.N) (hB : ¬t.val % 8 = 0)
    (ih : (outsAt0 m c (t.val - 1) (Nat.lt_of_le_of_lt (Nat.sub_le _ _) t.isLt)).2 = padded (wArr m c)) :
    outsAt0 m c t.val t.isLt
      = (blockResult (contBlk m c t) (catBlk m c t) (padded (wArr m c)), padded (wArr m c)) := by
  refine (outsAt0_B m c t hB).trans ?_
  rw [ih]
  exact congrArg₂ Prod.mk (out_B c (grid0.coords t) (ms0_0 t) (hs0_0 t) (ms0_1 t) (hs0_1 t) (ms0_2 t) (hs0_2 t) (ms0_3 t) (hs0_3 t) scM0_0 (Memref.isWhole_whole _) (fun h => hB ((hcond0_0 t).mp h)) (contBlk m c t) (catBlk m c t) (wBlk m c t)
    (padded (wArr m c))) rfl

/-- After point n: the staging buffer of the result holds the block result of the point's blocks against the padded
    table, and the scratch buffer holds the padded table. By induction on the point. -/
theorem outs_eq (c : Dev nD) : ∀ (n : ℕ) (hn : n < cfg0.N), outsAt0 m c n hn
      = (blockResult (contBlk m c ⟨n, hn⟩) (catBlk m c ⟨n, hn⟩) (padded (wArr m c)), padded (wArr m c))
  | 0, hn => outs_first m c ⟨0, hn⟩ rfl
  | n + 1, hn => by
    have hn' : n + 1 < 8 := lt_of_lt_of_eq hn (show cfg0.N = 8 from N_0)
    refine outs_later m c ⟨n + 1, hn⟩ (by show ¬(n + 1) % 8 = 0; omega) ?_
    show (outsAt0 m c n _).2 = _
    rw [outs_eq c n]

/-- Point t's block result is rows 128 t … 128 t + 127 of the specification's result. -/
theorem block_eq (c : Dev nD) (t : Fin cfg0.N) (y : S128x1677.Idx) :
    blockResult (contBlk m c t) (catBlk m c t) (padded (wArr m c)) y
      = result (contArr m c) (catArr m c) (wArr m c) (((cfg0.win 3).blk t).view.emb y) := by
  obtain ⟨-, -, -, -, -, -, -, e0, e1⟩ := idx_facts t
  have hy0 : (y 0).val < 128 := (y 0).isLt
  have hy1 : (y 1).val < 1677 := (y 1).isLt
  have hc0 : ((((cfg0.win 3).blk t).view.emb y : S1024x1677.Idx) 0).val = 128 * t.val + (y 0).val := by
    show win0_3.index t (0 : Fin 2) * 128 + 1 * (y 0).val = _; omega
  have hc1 : ((((cfg0.win 3).blk t).view.emb y : S1024x1677.Idx) 1).val = (y 1).val := by
    show win0_3.index t (1 : Fin 2) * 1677 + 1 * (y 1).val = _; omega
  rw [blockResult_of_coords _ _ _ y (y 0).val (y 1).val rfl rfl,
    result_of_coords _ _ _ _ (128 * t.val + (y 0).val) (y 1).val hc0 hc1]
  by_cases hj : (y 1).val < 13
  · rw [if_pos hj, if_pos hj]
    exact at2_contBlk m c t _ _ hy0
  · rw [if_neg hj, if_neg hj]
    rw [← window_sum (catArr m c) (wArr m c) (128 * t.val + (y 0).val) (((y 1).val - 13) / 64) (((y 1).val - 13) % 64)
      (by omega) (Nat.mod_lt _ (by decide))]
    exact Finset.sum_congr rfl fun q _ => by rw [int2_catBlk m c t _ _ hy0]

end Cert.KernelIdeal.Fields

end
-- ==== Proof.KernelValue.lean ====
/-
  THE KERNEL'S RESULT ARRAY. Every point writes its block back, the eight blocks of 128 rows tile the 1024 rows, and
  point t's block is rows 128 t … 128 t + 127 of the specification's result: so after the run the result array IS the
  specification's result of the three argument arrays, which end as they were launched.
-/
import proofs.«123104_g7189775253945_cont_9to1c4b_357_9_alg».proof.Proof.PointValue

noncomputable section

namespace Cert.KernelIdeal.Fields

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.Embed

variable (m : (ℓ : Loc nD τ sig) → Buf (Elt Ideal) ℓ) (ρ : Dev nD → PrngReg)

/-- The specification's result of the argument arrays as launched, as contents of the result array. -/
abbrev resArr (c : Dev nD) : Buf (Elt Ideal) ((c : Thread nD τ).loc main_v0) :=
  result (contArr m c) (catArr m c) (wArr m c)

/-- What point t writes back is block t of the specification's result. -/
theorem flushed_eq (c : Dev nD) (t : Fin cfg0.N) :
    (dats m 0 c).flushed 3 t = ((cfg0.win 3).blk t).view.read (Elt Ideal) (resArr m c) := by
  rw [Cert.KernelIdeal.ValueP.flushed3, outs_eq m c t.val t.isLt]
  funext y
  exact block_eq m c t y

/-- An index of the result array is in point t's block iff each coordinate is in the block's range on its axis. -/
theorem mem_blk (t : Fin cfg0.N) (i : S1024x1677.Idx) :
    i ∈ ((cfg0.win 3).blk t).view.set ↔ ∀ a : Fin 2, win0_3.index t a * S128x1677.size a ≤ (i a).val
      ∧ (i a).val < win0_3.index t a * S128x1677.size a + S128x1677.size a := by
  show i ∈ ((View.whole main_v0).slice (win0_3.rect t)).set ↔ _
  rw [View.set_slice_whole, Rect.mem_set_unit]
  exact Iff.rfl

/-- The result array after the run. -/
theorem final (c : Dev nD) : (dats m 0 c).arrAt 3 cfg0.N = resArr m c :=
  (dats m 0 c).arrAt_eq_of_cover 3 (resArr m c) (fun t _ => flushed_eq m c t) fun i => by
    have hi0 : (i 0).val < 1024 := (i 0).isLt
    have hi1 : (i 1).val < 1677 := (i 1).isLt
    have hN : cfg0.N = 8 := N_0
    have ht : (i 0).val / 128 < cfg0.N := by rw [hN]; omega
    obtain ⟨-, -, -, -, -, -, -, e0, e1⟩ := idx_facts ⟨(i 0).val / 128, ht⟩
    have e0' : win0_3.index ⟨(i 0).val / 128, ht⟩ (0 : Fin 2) = (i 0).val / 128 := e0
    refine ⟨⟨(i 0).val / 128, ht⟩, flush0_3 _, ?_⟩
    rw [mem_blk]
    intro a
    match a with
    | ⟨0, _⟩ =>
      show win0_3.index ⟨(i 0).val / 128, ht⟩ (0 : Fin 2) * 128 ≤ (i 0).val
        ∧ (i 0).val < win0_3.index ⟨(i 0).val / 128, ht⟩ (0 : Fin 2) * 128 + 128
      omega
    | ⟨1, _⟩ =>
      show win0_3.index ⟨(i 0).val / 128, ht⟩ (1 : Fin 2) * 1677 ≤ (i 1).val
        ∧ (i 1).val < win0_3.index ⟨(i 0).val / 128, ht⟩ (1 : Fin 2) * 1677 + 1677
      omega

/-- The kernel's run: the result array ends at the specification's result of the arguments, the arguments unchanged. -/
theorem run : θ_run defs (onTc (τ := τ) (main (F := Ideal))) ⟨m, fun _ => 0, ρ⟩ fun r => ∀ c : Dev nD,
      r.2.mem ((c : Thread nD τ).loc main_v0) = resArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Cert.KernelIdeal.ValueP.run_blocks m ρ)

end Cert.KernelIdeal.Fields

end
-- ==== Proof.LibPlainDot.lean ====
/-
  A HOST DOT PRODUCT READ AT AN ENTRY. jnp's `dot_general` of an m × k matrix by a k × n matrix (the left operand
  contracted on its columns, the right one on its rows, no batch axis) is, at the ideal values and at entry (a, b), the
  sum over the contracted coordinate c of A(a, c) · B(c, b), whatever the precision and the schedule: the same sum a
  kernel's matrix product into the zero splat gives.
-/
import proofs.«123104_g7189775253945_cont_9to1c4b_357_9_alg».proof.Proof.LibPlainMatmul

open scoped BigOperators

noncomputable section

namespace Idealize.ShloMosaic.PlainMatmul

open Idealize.ShloMosaic Idealize.ShloMosaic.ValueIdx

variable {m k n : Nat} {φ₁ φ₂ : FTy}

/-- The host's plain product at entry (a, b): the sum of the products along row a of A and column b of B. -/
theorem dotGeneral_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (sched : HostSchedule) (A : FVec Ideal ⟨2, ![m, k]⟩ φ₁) (B : FVec Ideal ⟨2, ![k, n]⟩ φ₂)
    (a : Fin m) (b : Fin n) :
    FloatOps.dotGeneral d prec sched A B (ix2 a b) = ∑ c : Fin k, A (ix2 a c) * B (ix2 c b) := by
  subst hd
  rw [Ideal.dotGeneral_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.RefValue.lean ====
/-
  THE REFERENCE IS THE SPECIFICATION. The reference converts the categories to floating point (exactly, at the ideal
  values), and for each field i multiplies the [1024, 1000] slice of columns 1000 i … 1000 i + 999 by W(i, ·, ·)
  (`fieldVal`): at entry (r, e) that host product is Σ_{c < 1000} cat(r, 1000 i + c) · W(i, c, e), the specification's
  field sum (`hostField_apply`, one statement for every field; `field_0` … `field_25` instantiate it at the reference's
  26 pairs of offsets). It then joins the 26 products along the columns — sixteen of them, ten of them, the two joins,
  and the continuous features in front (`refTerm`: the reference's result as one term of its arguments) —, so that
  column 13 + 64 i + e of row r is field i's sum at (r, e) and columns 0 … 12 are the features: the specification's
  result (`reference_eq`).
-/
import proofs.«123104_g7189775253945_cont_9to1c4b_357_9_alg».proof.Proof.Gen.ReferenceIdeal
import proofs.«123104_g7189775253945_cont_9to1c4b_357_9_alg».proof.Proof.LibPlainDot
import proofs.«123104_g7189775253945_cont_9to1c4b_357_9_alg».proof.Proof.Spec
import Idealize.ShloMosaic.Lib.Pipeline.Value

set_option maxRecDepth 8192

open scoped BigOperators

noncomputable section

namespace Cert.ReferenceIdeal.Fields

open Idealize.ShloMosaic Idealize.ShloMosaic.ValueIdx Cert.ReferenceIdeal Cert.ReferenceIdeal.Gen Cert.Embed

section Term
variable {F : FTy → Type} [FloatOps F]

/-- One field of the reference: the slice of the converted categories at the column offsets `offC` times the slab of W
    at the offsets `offW`, its unit axis dropped. -/
def fieldVal (offC : Fin 2 → ℕ) (offW : Fin 3 → ℕ) (hC : S1024x26000.Slices offC S1024x1000) (hW : S26x1000x64.Slices offW S1x1000x64)
    (c0 : (⟨S1024x26000, .f32⟩ : BufTy).Contents (Elt F)) (x2 : (⟨S26x1000x64, .f32⟩ : BufTy).Contents (Elt F)) : (⟨S1024x64, .f32⟩ : BufTy).Contents (Elt F) :=
  Host.dotGeneral dot_S1024x1000_S1000x64_S1024x64_1_0_0_1_n_n none (extractStridedSlice S1024x1000 offC c0 hC)
    (shapeCast S1000x64 (extractStridedSlice S1x1000x64 offW x2 hW) shapeCasts_S1x1000x64_S1000x64)

/-- The first sixteen fields side by side. -/
def join16 (c0 : (⟨S1024x26000, .f32⟩ : BufTy).Contents (Elt F)) (x2 : (⟨S26x1000x64, .f32⟩ : BufTy).Contents (Elt F)) : (⟨S1024x1024, .f32⟩ : BufTy).Contents (Elt F) :=
  concatenate S1024x1024 1 [
    ⟨S1024x64, fieldVal ![0, 0] ![0, 0, 0] slices_S1024x26000_S1024x1000_0_0 slices_S26x1000x64_S1x1000x64_0_0_0 c0 x2⟩,
    ⟨S1024x64, fieldVal ![0, 1000] ![1, 0, 0] slices_S1024x26000_S1024x1000_0_1000 slices_S26x1000x64_S1x1000x64_1_0_0 c0 x2⟩,
    ⟨S1024x64, fieldVal ![0, 2000] ![2, 0, 0] slices_S1024x26000_S1024x1000_0_2000 slices_S26x1000x64_S1x1000x64_2_0_0 c0 x2⟩,
    ⟨S1024x64, fieldVal ![0, 3000] ![3, 0, 0] slices_S1024x26000_S1024x1000_0_3000 slices_S26x1000x64_S1x1000x64_3_0_0 c0 x2⟩,
    ⟨S1024x64, fieldVal ![0, 4000] ![4, 0, 0] slices_S1024x26000_S1024x1000_0_4000 slices_S26x1000x64_S1x1000x64_4_0_0 c0 x2⟩,
    ⟨S1024x64, fieldVal ![0, 5000] ![5, 0, 0] slices_S1024x26000_S1024x1000_0_5000 slices_S26x1000x64_S1x1000x64_5_0_0 c0 x2⟩,
    ⟨S1024x64, fieldVal ![0, 6000] ![6, 0, 0] slices_S1024x26000_S1024x1000_0_6000 slices_S26x1000x64_S1x1000x64_6_0_0 c0 x2⟩,
    ⟨S1024x64, fieldVal ![0, 7000] ![7, 0, 0] slices_S1024x26000_S1024x1000_0_7000 slices_S26x1000x64_S1x1000x64_7_0_0 c0 x2⟩,
    ⟨S1024x64, fieldVal ![0, 8000] ![8, 0, 0] slices_S1024x26000_S1024x1000_0_8000 slices_S26x1000x64_S1x1000x64_8_0_0 c0 x2⟩,
    ⟨S1024x64, fieldVal ![0, 9000] ![9, 0, 0] slices_S1024x26000_S1024x1000_0_9000 slices_S26x1000x64_S1x1000x64_9_0_0 c0 x2⟩,
    ⟨S1024x64, fieldVal ![0, 10000] ![10, 0, 0] slices_S1024x26000_S1024x1000_0_10000 slices_S26x1000x64_S1x1000x64_10_0_0 c0 x2⟩,
    ⟨S1024x64, fieldVal ![0, 11000] ![11, 0, 0] slices_S1024x26000_S1024x1000_0_11000 slices_S26x1000x64_S1x1000x64_11_0_0 c0 x2⟩,
    ⟨S1024x64, fieldVal ![0, 12000] ![12, 0, 0] slices_S1024x26000_S1024x1000_0_12000 slices_S26x1000x64_S1x1000x64_12_0_0 c0 x2⟩,
    ⟨S1024x64, fieldVal ![0, 13000] ![13, 0, 0] slices_S1024x26000_S1024x1000_0_13000 slices_S26x1000x64_S1x1000x64_13_0_0 c0 x2⟩,
    ⟨S1024x64, fieldVal ![0, 14000] ![14, 0, 0] slices_S1024x26000_S1024x1000_0_14000 slices_S26x1000x64_S1x1000x64_14_0_0 c0 x2⟩,
    ⟨S1024x64, fieldVal ![0, 15000] ![15, 0, 0] slices_S1024x26000_S1024x1000_0_15000 slices_S26x1000x64_S1x1000x64_15_0_0 c0 x2⟩]
    concatenates_S1024x64_S1024x64_S1024x64_S1024x64_S1024x64_S1024x64_S1024x64_S1024x64_S1024x64_S1024x64_S1024x64_S1024x64_S1024x64_S1024x64_S1024x64_S1024x64_S1024x1024_d1

/-- The last ten fields side by side. -/
def join10 (c0 : (⟨S1024x26000, .f32⟩ : BufTy).Contents (Elt F)) (x2 : (⟨S26x1000x64, .f32⟩ : BufTy).Contents (Elt F)) : (⟨S1024x640, .f32⟩ : BufTy).Contents (Elt F) :=
  concatenate S1024x640 1 [
    ⟨S1024x64, fieldVal ![0, 16000] ![16, 0, 0] slices_S1024x26000_S1024x1000_0_16000 slices_S26x1000x64_S1x1000x64_16_0_0 c0 x2⟩,
    ⟨S1024x64, fieldVal ![0, 17000] ![17, 0, 0] slices_S1024x26000_S1024x1000_0_17000 slices_S26x1000x64_S1x1000x64_17_0_0 c0 x2⟩,
    ⟨S1024x64, fieldVal ![0, 18000] ![18, 0, 0] slices_S1024x26000_S1024x1000_0_18000 slices_S26x1000x64_S1x1000x64_18_0_0 c0 x2⟩,
    ⟨S1024x64, fieldVal ![0, 19000] ![19, 0, 0] slices_S1024x26000_S1024x1000_0_19000 slices_S26x1000x64_S1x1000x64_19_0_0 c0 x2⟩,
    ⟨S1024x64, fieldVal ![0, 20000] ![20, 0, 0] slices_S1024x26000_S1024x1000_0_20000 slices_S26x1000x64_S1x1000x64_20_0_0 c0 x2⟩,
    ⟨S1024x64, fieldVal ![0, 21000] ![21, 0, 0] slices_S1024x26000_S1024x1000_0_21000 slices_S26x1000x64_S1x1000x64_21_0_0 c0 x2⟩,
    ⟨S1024x64, fieldVal ![0, 22000] ![22, 0, 0] slices_S1024x26000_S1024x1000_0_22000 slices_S26x1000x64_S1x1000x64_22_0_0 c0 x2⟩,
    ⟨S1024x64, fieldVal ![0, 23000] ![23, 0, 0] slices_S1024x26000_S1024x1000_0_23000 slices_S26x1000x64_S1x1000x64_23_0_0 c0 x2⟩,
    ⟨S1024x64, fieldVal ![0, 24000] ![24, 0, 0] slices_S1024x26000_S1024x1000_0_24000 slices_S26x1000x64_S1x1000x64_24_0_0 c0 x2⟩,
    ⟨S1024x64, fieldVal ![0, 25000] ![25, 0, 0] slices_S1024x26000_S1024x1000_0_25000 slices_S26x1000x64_S1x1000x64_25_0_0 c0 x2⟩]
    concatenates_S1024x64_S1024x64_S1024x64_S1024x64_S1024x64_S1024x64_S1024x64_S1024x64_S1024x64_S1024x64_S1024x640_d1

/-- The reference's result as one term of its arguments. -/
def refTerm (x0 : (⟨S1024x13, .f32⟩ : BufTy).Contents (Elt F)) (x1 : (⟨S1024x26000, .i32⟩ : BufTy).Contents (Elt F)) (x2 : (⟨S26x1000x64, .f32⟩ : BufTy).Contents (Elt F)) : (⟨S1024x1677, .f32⟩ : BufTy).Contents (Elt F) :=
  concatenate S1024x1677 1 [⟨S1024x13, x0⟩, ⟨S1024x1664, concatenate S1024x1664 1
    [⟨S1024x1024, join16 (sitofp .f32 x1) x2⟩, ⟨S1024x640, join10 (sitofp .f32 x1) x2⟩] concatenates_S1024x1024_S1024x640_S1024x1664_d1⟩]
    concatenates_S1024x13_S1024x1664_S1024x1677_d1

end Term

/-- One field of the reference at an entry. -/
theorem hostField_apply (offC : Fin 2 → ℕ) (offW : Fin 3 → ℕ) (i : ℕ)
    (hC0 : offC 0 = 0) (hC1 : offC 1 = 1000 * i) (hW0 : offW 0 = i) (hW1 : offW 1 = 0) (hW2 : offW 2 = 0)
    (hC : S1024x26000.Slices offC S1024x1000) (hW : S26x1000x64.Slices offW S1x1000x64)
    (x1 : (⟨S1024x26000, .i32⟩ : BufTy).Contents (Elt Ideal)) (x2 : (⟨S26x1000x64, .f32⟩ : BufTy).Contents (Elt Ideal)) (r : Fin 1024) (e : Fin 64) :
    fieldVal offC offW hC hW (sitofp (F := Ideal) .f32 x1) x2 (ix2 r e) = fieldSum x1 x2 r.val i e.val := by
  unfold fieldVal
  simp only [Host.dotGeneral]
  rw [PlainMatmul.dotGeneral_apply dot_S1024x1000_S1000x64_S1024x64_1_0_0_1_n_n dot_S1024x1000_S1000x64_S1024x64_1_0_0_1_n_n_wf rfl]
  unfold fieldSum
  refine Finset.sum_congr rfl fun k _ => ?_
  rw [shapeCast_dropUnit_apply ![1000, 64]]
  refine congrArg₂ (· * ·) ?_ ?_
  · exact int2_of_coords x1 _ r.val (1000 * i + k.val) (by show offC 0 + r.val = r.val; omega)
      (by show offC 1 + k.val = 1000 * i + k.val; omega)
  · exact at3_of_coords x2 _ i k.val e.val (by show offW 0 + 0 = i; omega) (by show offW 1 + k.val = k.val; omega)
      (by show offW 2 + e.val = e.val; omega)

theorem field_0 (x1 : (⟨S1024x26000, .i32⟩ : BufTy).Contents (Elt Ideal)) (x2 : (⟨S26x1000x64, .f32⟩ : BufTy).Contents (Elt Ideal)) (r : Fin 1024) (e : Fin 64) :
    fieldVal ![0, 0] ![0, 0, 0] slices_S1024x26000_S1024x1000_0_0 slices_S26x1000x64_S1x1000x64_0_0_0 (sitofp (F := Ideal) .f32 x1) x2 (ix2 r e) = fieldSum x1 x2 r.val 0 e.val :=
  hostField_apply _ _ 0 rfl rfl rfl rfl rfl _ _ x1 x2 r e
theorem field_1 (x1 : (⟨S1024x26000, .i32⟩ : BufTy).Contents (Elt Ideal)) (x2 : (⟨S26x1000x64, .f32⟩ : BufTy).Contents (Elt Ideal)) (r : Fin 1024) (e : Fin 64) :
    fieldVal ![0, 1000] ![1, 0, 0] slices_S1024x26000_S1024x1000_0_1000 slices_S26x1000x64_S1x1000x64_1_0_0 (sitofp (F := Ideal) .f32 x1) x2 (ix2 r e) = fieldSum x1 x2 r.val 1 e.val :=
  hostField_apply _ _ 1 rfl rfl rfl rfl rfl _ _ x1 x2 r e
theorem field_2 (x1 : (⟨S1024x26000, .i32⟩ : BufTy).Contents (Elt Ideal)) (x2 : (⟨S26x1000x64, .f32⟩ : BufTy).Contents (Elt Ideal)) (r : Fin 1024) (e : Fin 64) :
    fieldVal ![0, 2000] ![2, 0, 0] slices_S1024x26000_S1024x1000_0_2000 slices_S26x1000x64_S1x1000x64_2_0_0 (sitofp (F := Ideal) .f32 x1) x2 (ix2 r e) = fieldSum x1 x2 r.val 2 e.val :=
  hostField_apply _ _ 2 rfl rfl rfl rfl rfl _ _ x1 x2 r e
theorem field_3 (x1 : (⟨S1024x26000, .i32⟩ : BufTy).Contents (Elt Ideal)) (x2 : (⟨S26x1000x64, .f32⟩ : BufTy).Contents (Elt Ideal)) (r : Fin 1024) (e : Fin 64) :
    fieldVal ![0, 3000] ![3, 0, 0] slices_S1024x26000_S1024x1000_0_3000 slices_S26x1000x64_S1x1000x64_3_0_0 (sitofp (F := Ideal) .f32 x1) x2 (ix2 r e) = fieldSum x1 x2 r.val 3 e.val :=
  hostField_apply _ _ 3 rfl rfl rfl rfl rfl _ _ x1 x2 r e
theorem field_4 (x1 : (⟨S1024x26000, .i32⟩ : BufTy).Contents (Elt Ideal)) (x2 : (⟨S26x1000x64, .f32⟩ : BufTy).Contents (Elt Ideal)) (r : Fin 1024) (e : Fin 64) :
    fieldVal ![0, 4000] ![4, 0, 0] slices_S1024x26000_S1024x1000_0_4000 slices_S26x1000x64_S1x1000x64_4_0_0 (sitofp (F := Ideal) .f32 x1) x2 (ix2 r e) = fieldSum x1 x2 r.val 4 e.val :=
  hostField_apply _ _ 4 rfl rfl rfl rfl rfl _ _ x1 x2 r e
theorem field_5 (x1 : (⟨S1024x26000, .i32⟩ : BufTy).Contents (Elt Ideal)) (x2 : (⟨S26x1000x64, .f32⟩ : BufTy).Contents (Elt Ideal)) (r : Fin 1024) (e : Fin 64) :
    fieldVal ![0, 5000] ![5, 0, 0] slices_S1024x26000_S1024x1000_0_5000 slices_S26x1000x64_S1x1000x64_5_0_0 (sitofp (F := Ideal) .f32 x1) x2 (ix2 r e) = fieldSum x1 x2 r.val 5 e.val :=
  hostField_apply _ _ 5 rfl rfl rfl rfl rfl _ _ x1 x2 r e
theorem field_6 (x1 : (⟨S1024x26000, .i32⟩ : BufTy).Contents (Elt Ideal)) (x2 : (⟨S26x1000x64, .f32⟩ : BufTy).Contents (Elt Ideal)) (r : Fin 1024) (e : Fin 64) :
    fieldVal ![0, 6000] ![6, 0, 0] slices_S1024x26000_S1024x1000_0_6000 slices_S26x1000x64_S1x1000x64_6_0_0 (sitofp (F := Ideal) .f32 x1) x2 (ix2 r e) = fieldSum x1 x2 r.val 6 e.val :=
  hostField_apply _ _ 6 rfl rfl rfl rfl rfl _ _ x1 x2 r e
theorem field_7 (x1 : (⟨S1024x26000, .i32⟩ : BufTy).Contents (Elt Ideal)) (x2 : (⟨S26x1000x64, .f32⟩ : BufTy).Contents (Elt Ideal)) (r : Fin 1024) (e : Fin 64) :
    fieldVal ![0, 7000] ![7, 0, 0] slices_S1024x26000_S1024x1000_0_7000 slices_S26x1000x64_S1x1000x64_7_0_0 (sitofp (F := Ideal) .f32 x1) x2 (ix2 r e) = fieldSum x1 x2 r.val 7 e.val :=
  hostField_apply _ _ 7 rfl rfl rfl rfl rfl _ _ x1 x2 r e
theorem field_8 (x1 : (⟨S1024x26000, .i32⟩ : BufTy).Contents (Elt Ideal)) (x2 : (⟨S26x1000x64, .f32⟩ : BufTy).Contents (Elt Ideal)) (r : Fin 1024) (e : Fin 64) :
    fieldVal ![0, 8000] ![8, 0, 0] slices_S1024x26000_S1024x1000_0_8000 slices_S26x1000x64_S1x1000x64_8_0_0 (sitofp (F := Ideal) .f32 x1) x2 (ix2 r e) = fieldSum x1 x2 r.val 8 e.val :=
  hostField_apply _ _ 8 rfl rfl rfl rfl rfl _ _ x1 x2 r e
theorem field_9 (x1 : (⟨S1024x26000, .i32⟩ : BufTy).Contents (Elt Ideal)) (x2 : (⟨S26x1000x64, .f32⟩ : BufTy).Contents (Elt Ideal)) (r : Fin 1024) (e : Fin 64) :
    fieldVal ![0, 9000] ![9, 0, 0] slices_S1024x26000_S1024x1000_0_9000 slices_S26x1000x64_S1x1000x64_9_0_0 (sitofp (F := Ideal) .f32 x1) x2 (ix2 r e) = fieldSum x1 x2 r.val 9 e.val :=
  hostField_apply _ _ 9 rfl rfl rfl rfl rfl _ _ x1 x2 r e
theorem field_10 (x1 : (⟨S1024x26000, .i32⟩ : BufTy).Contents (Elt Ideal)) (x2 : (⟨S26x1000x64, .f32⟩ : BufTy).Contents (Elt Ideal)) (r : Fin 1024) (e : Fin 64) :
    fieldVal ![0, 10000] ![10, 0, 0] slices_S1024x26000_S1024x1000_0_10000 slices_S26x1000x64_S1x1000x64_10_0_0 (sitofp (F := Ideal) .f32 x1) x2 (ix2 r e) = fieldSum x1 x2 r.val 10 e.val :=
  hostField_apply _ _ 10 rfl rfl rfl rfl rfl _ _ x1 x2 r e
theorem field_11 (x1 : (⟨S1024x26000, .i32⟩ : BufTy).Contents (Elt Ideal)) (x2 : (⟨S26x1000x64, .f32⟩ : BufTy).Contents (Elt Ideal)) (r : Fin 1024) (e : Fin 64) :
    fieldVal ![0, 11000] ![11, 0, 0] slices_S1024x26000_S1024x1000_0_11000 slices_S26x1000x64_S1x1000x64_11_0_0 (sitofp (F := Ideal) .f32 x1) x2 (ix2 r e) = fieldSum x1 x2 r.val 11 e.val :=
  hostField_apply _ _ 11 rfl rfl rfl rfl rfl _ _ x1 x2 r e
theorem field_12 (x1 : (⟨S1024x26000, .i32⟩ : BufTy).Contents (Elt Ideal)) (x2 : (⟨S26x1000x64, .f32⟩ : BufTy).Contents (Elt Ideal)) (r : Fin 1024) (e : Fin 64) :
    fieldVal ![0, 12000] ![12, 0, 0] slices_S1024x26000_S1024x1000_0_12000 slices_S26x1000x64_S1x1000x64_12_0_0 (sitofp (F := Ideal) .f32 x1) x2 (ix2 r e) = fieldSum x1 x2 r.val 12 e.val :=
  hostField_apply _ _ 12 rfl rfl rfl rfl rfl _ _ x1 x2 r e
theorem field_13 (x1 : (⟨S1024x26000, .i32⟩ : BufTy).Contents (Elt Ideal)) (x2 : (⟨S26x1000x64, .f32⟩ : BufTy).Contents (Elt Ideal)) (r : Fin 1024) (e : Fin 64) :
    fieldVal ![0, 13000] ![13, 0, 0] slices_S1024x26000_S1024x1000_0_13000 slices_S26x1000x64_S1x1000x64_13_0_0 (sitofp (F := Ideal) .f32 x1) x2 (ix2 r e) = fieldSum x1 x2 r.val 13 e.val :=
  hostField_apply _ _ 13 rfl rfl rfl rfl rfl _ _ x1 x2 r e
theorem field_14 (x1 : (⟨S1024x26000, .i32⟩ : BufTy).Contents (Elt Ideal)) (x2 : (⟨S26x1000x64, .f32⟩ : BufTy).Contents (Elt Ideal)) (r : Fin 1024) (e : Fin 64) :
    fieldVal ![0, 14000] ![14, 0, 0] slices_S1024x26000_S1024x1000_0_14000 slices_S26x1000x64_S1x1000x64_14_0_0 (sitofp (F := Ideal) .f32 x1) x2 (ix2 r e) = fieldSum x1 x2 r.val 14 e.val :=
  hostField_apply _ _ 14 rfl rfl rfl rfl rfl _ _ x1 x2 r e
theorem field_15 (x1 : (⟨S1024x26000, .i32⟩ : BufTy).Contents (Elt Ideal)) (x2 : (⟨S26x1000x64, .f32⟩ : BufTy).Contents (Elt Ideal)) (r : Fin 1024) (e : Fin 64) :
    fieldVal ![0, 15000] ![15, 0, 0] slices_S1024x26000_S1024x1000_0_15000 slices_S26x1000x64_S1x1000x64_15_0_0 (sitofp (F := Ideal) .f32 x1) x2 (ix2 r e) = fieldSum x1 x2 r.val 15 e.val :=
  hostField_apply _ _ 15 rfl rfl rfl rfl rfl _ _ x1 x2 r e
theorem field_16 (x1 : (⟨S1024x26000, .i32⟩ : BufTy).Contents (Elt Ideal)) (x2 : (⟨S26x1000x64, .f32⟩ : BufTy).Contents (Elt Ideal)) (r : Fin 1024) (e : Fin 64) :
    fieldVal ![0, 16000] ![16, 0, 0] slices_S1024x26000_S1024x1000_0_16000 slices_S26x1000x64_S1x1000x64_16_0_0 (sitofp (F := Ideal) .f32 x1) x2 (ix2 r e) = fieldSum x1 x2 r.val 16 e.val :=
  hostField_apply _ _ 16 rfl rfl rfl rfl rfl _ _ x1 x2 r e
theorem field_17 (x1 : (⟨S1024x26000, .i32⟩ : BufTy).Contents (Elt Ideal)) (x2 : (⟨S26x1000x64, .f32⟩ : BufTy).Contents (Elt Ideal)) (r : Fin 1024) (e : Fin 64) :
    fieldVal ![0, 17000] ![17, 0, 0] slices_S1024x26000_S1024x1000_0_17000 slices_S26x1000x64_S1x1000x64_17_0_0 (sitofp (F := Ideal) .f32 x1) x2 (ix2 r e) = fieldSum x1 x2 r.val 17 e.val :=
  hostField_apply _ _ 17 rfl rfl rfl rfl rfl _ _ x1 x2 r e
theorem field_18 (x1 : (⟨S1024x26000, .i32⟩ : BufTy).Contents (Elt Ideal)) (x2 : (⟨S26x1000x64, .f32⟩ : BufTy).Contents (Elt Ideal)) (r : Fin 1024) (e : Fin 64) :
    fieldVal ![0, 18000] ![18, 0, 0] slices_S1024x26000_S1024x1000_0_18000 slices_S26x1000x64_S1x1000x64_18_0_0 (sitofp (F := Ideal) .f32 x1) x2 (ix2 r e) = fieldSum x1 x2 r.val 18 e.val :=
  hostField_apply _ _ 18 rfl rfl rfl rfl rfl _ _ x1 x2 r e
theorem field_19 (x1 : (⟨S1024x26000, .i32⟩ : BufTy).Contents (Elt Ideal)) (x2 : (⟨S26x1000x64, .f32⟩ : BufTy).Contents (Elt Ideal)) (r : Fin 1024) (e : Fin 64) :
    fieldVal ![0, 19000] ![19, 0, 0] slices_S1024x26000_S1024x1000_0_19000 slices_S26x1000x64_S1x1000x64_19_0_0 (sitofp (F := Ideal) .f32 x1) x2 (ix2 r e) = fieldSum x1 x2 r.val 19 e.val :=
  hostField_apply _ _ 19 rfl rfl rfl rfl rfl _ _ x1 x2 r e
theorem field_20 (x1 : (⟨S1024x26000, .i32⟩ : BufTy).Contents (Elt Ideal)) (x2 : (⟨S26x1000x64, .f32⟩ : BufTy).Contents (Elt Ideal)) (r : Fin 1024) (e : Fin 64) :
    fieldVal ![0, 20000] ![20, 0, 0] slices_S1024x26000_S1024x1000_0_20000 slices_S26x1000x64_S1x1000x64_20_0_0 (sitofp (F := Ideal) .f32 x1) x2 (ix2 r e) = fieldSum x1 x2 r.val 20 e.val :=
  hostField_apply _ _ 20 rfl rfl rfl rfl rfl _ _ x1 x2 r e
theorem field_21 (x1 : (⟨S1024x26000, .i32⟩ : BufTy).Contents (Elt Ideal)) (x2 : (⟨S26x1000x64, .f32⟩ : BufTy).Contents (Elt Ideal)) (r : Fin 1024) (e : Fin 64) :
    fieldVal ![0, 21000] ![21, 0, 0] slices_S1024x26000_S1024x1000_0_21000 slices_S26x1000x64_S1x1000x64_21_0_0 (sitofp (F := Ideal) .f32 x1) x2 (ix2 r e) = fieldSum x1 x2 r.val 21 e.val :=
  hostField_apply _ _ 21 rfl rfl rfl rfl rfl _ _ x1 x2 r e
theorem field_22 (x1 : (⟨S1024x26000, .i32⟩ : BufTy).Contents (Elt Ideal)) (x2 : (⟨S26x1000x64, .f32⟩ : BufTy).Contents (Elt Ideal)) (r : Fin 1024) (e : Fin 64) :
    fieldVal ![0, 22000] ![22, 0, 0] slices_S1024x26000_S1024x1000_0_22000 slices_S26x1000x64_S1x1000x64_22_0_0 (sitofp (F := Ideal) .f32 x1) x2 (ix2 r e) = fieldSum x1 x2 r.val 22 e.val :=
  hostField_apply _ _ 22 rfl rfl rfl rfl rfl _ _ x1 x2 r e
theorem field_23 (x1 : (⟨S1024x26000, .i32⟩ : BufTy).Contents (Elt Ideal)) (x2 : (⟨S26x1000x64, .f32⟩ : BufTy).Contents (Elt Ideal)) (r : Fin 1024) (e : Fin 64) :
    fieldVal ![0, 23000] ![23, 0, 0] slices_S1024x26000_S1024x1000_0_23000 slices_S26x1000x64_S1x1000x64_23_0_0 (sitofp (F := Ideal) .f32 x1) x2 (ix2 r e) = fieldSum x1 x2 r.val 23 e.val :=
  hostField_apply _ _ 23 rfl rfl rfl rfl rfl _ _ x1 x2 r e
theorem field_24 (x1 : (⟨S1024x26000, .i32⟩ : BufTy).Contents (Elt Ideal)) (x2 : (⟨S26x1000x64, .f32⟩ : BufTy).Contents (Elt Ideal)) (r : Fin 1024) (e : Fin 64) :
    fieldVal ![0, 24000] ![24, 0, 0] slices_S1024x26000_S1024x1000_0_24000 slices_S26x1000x64_S1x1000x64_24_0_0 (sitofp (F := Ideal) .f32 x1) x2 (ix2 r e) = fieldSum x1 x2 r.val 24 e.val :=
  hostField_apply _ _ 24 rfl rfl rfl rfl rfl _ _ x1 x2 r e
theorem field_25 (x1 : (⟨S1024x26000, .i32⟩ : BufTy).Contents (Elt Ideal)) (x2 : (⟨S26x1000x64, .f32⟩ : BufTy).Contents (Elt Ideal)) (r : Fin 1024) (e : Fin 64) :
    fieldVal ![0, 25000] ![25, 0, 0] slices_S1024x26000_S1024x1000_0_25000 slices_S26x1000x64_S1x1000x64_25_0_0 (sitofp (F := Ideal) .f32 x1) x2 (ix2 r e) = fieldSum x1 x2 r.val 25 e.val :=
  hostField_apply _ _ 25 rfl rfl rfl rfl rfl _ _ x1 x2 r e

/-- The sixteen products of the first join, and the ten of the second, as families. -/
def firstSixteen (c0 : (⟨S1024x26000, .f32⟩ : BufTy).Contents (Elt Ideal)) (x2 : (⟨S26x1000x64, .f32⟩ : BufTy).Contents (Elt Ideal)) : Fin 16 → (S1024x64.Idx → EReal)
  | ⟨0, _⟩ => fieldVal ![0, 0] ![0, 0, 0] slices_S1024x26000_S1024x1000_0_0 slices_S26x1000x64_S1x1000x64_0_0_0 c0 x2
  | ⟨1, _⟩ => fieldVal ![0, 1000] ![1, 0, 0] slices_S1024x26000_S1024x1000_0_1000 slices_S26x1000x64_S1x1000x64_1_0_0 c0 x2
  | ⟨2, _⟩ => fieldVal ![0, 2000] ![2, 0, 0] slices_S1024x26000_S1024x1000_0_2000 slices_S26x1000x64_S1x1000x64_2_0_0 c0 x2
  | ⟨3, _⟩ => fieldVal ![0, 3000] ![3, 0, 0] slices_S1024x26000_S1024x1000_0_3000 slices_S26x1000x64_S1x1000x64_3_0_0 c0 x2
  | ⟨4, _⟩ => fieldVal ![0, 4000] ![4, 0, 0] slices_S1024x26000_S1024x1000_0_4000 slices_S26x1000x64_S1x1000x64_4_0_0 c0 x2
  | ⟨5, _⟩ => fieldVal ![0, 5000] ![5, 0, 0] slices_S1024x26000_S1024x1000_0_5000 slices_S26x1000x64_S1x1000x64_5_0_0 c0 x2
  | ⟨6, _⟩ => fieldVal ![0, 6000] ![6, 0, 0] slices_S1024x26000_S1024x1000_0_6000 slices_S26x1000x64_S1x1000x64_6_0_0 c0 x2
  | ⟨7, _⟩ => fieldVal ![0, 7000] ![7, 0, 0] slices_S1024x26000_S1024x1000_0_7000 slices_S26x1000x64_S1x1000x64_7_0_0 c0 x2
  | ⟨8, _⟩ => fieldVal ![0, 8000] ![8, 0, 0] slices_S1024x26000_S1024x1000_0_8000 slices_S26x1000x64_S1x1000x64_8_0_0 c0 x2
  | ⟨9, _⟩ => fieldVal ![0, 9000] ![9, 0, 0] slices_S1024x26000_S1024x1000_0_9000 slices_S26x1000x64_S1x1000x64_9_0_0 c0 x2
  | ⟨10, _⟩ => fieldVal ![0, 10000] ![10, 0, 0] slices_S1024x26000_S1024x1000_0_10000 slices_S26x1000x64_S1x1000x64_10_0_0 c0 x2
  | ⟨11, _⟩ => fieldVal ![0, 11000] ![11, 0, 0] slices_S1024x26000_S1024x1000_0_11000 slices_S26x1000x64_S1x1000x64_11_0_0 c0 x2
  | ⟨12, _⟩ => fieldVal ![0, 12000] ![12, 0, 0] slices_S1024x26000_S1024x1000_0_12000 slices_S26x1000x64_S1x1000x64_12_0_0 c0 x2
  | ⟨13, _⟩ => fieldVal ![0, 13000] ![13, 0, 0] slices_S1024x26000_S1024x1000_0_13000 slices_S26x1000x64_S1x1000x64_13_0_0 c0 x2
  | ⟨14, _⟩ => fieldVal ![0, 14000] ![14, 0, 0] slices_S1024x26000_S1024x1000_0_14000 slices_S26x1000x64_S1x1000x64_14_0_0 c0 x2
  | ⟨15, _⟩ => fieldVal ![0, 15000] ![15, 0, 0] slices_S1024x26000_S1024x1000_0_15000 slices_S26x1000x64_S1x1000x64_15_0_0 c0 x2
  | ⟨_ + 16, h⟩ => absurd h (Nat.not_lt.2 (Nat.le_add_left _ _))

def lastTen (c0 : (⟨S1024x26000, .f32⟩ : BufTy).Contents (Elt Ideal)) (x2 : (⟨S26x1000x64, .f32⟩ : BufTy).Contents (Elt Ideal)) : Fin 10 → (S1024x64.Idx → EReal)
  | ⟨0, _⟩ => fieldVal ![0, 16000] ![16, 0, 0] slices_S1024x26000_S1024x1000_0_16000 slices_S26x1000x64_S1x1000x64_16_0_0 c0 x2
  | ⟨1, _⟩ => fieldVal ![0, 17000] ![17, 0, 0] slices_S1024x26000_S1024x1000_0_17000 slices_S26x1000x64_S1x1000x64_17_0_0 c0 x2
  | ⟨2, _⟩ => fieldVal ![0, 18000] ![18, 0, 0] slices_S1024x26000_S1024x1000_0_18000 slices_S26x1000x64_S1x1000x64_18_0_0 c0 x2
  | ⟨3, _⟩ => fieldVal ![0, 19000] ![19, 0, 0] slices_S1024x26000_S1024x1000_0_19000 slices_S26x1000x64_S1x1000x64_19_0_0 c0 x2
  | ⟨4, _⟩ => fieldVal ![0, 20000] ![20, 0, 0] slices_S1024x26000_S1024x1000_0_20000 slices_S26x1000x64_S1x1000x64_20_0_0 c0 x2
  | ⟨5, _⟩ => fieldVal ![0, 21000] ![21, 0, 0] slices_S1024x26000_S1024x1000_0_21000 slices_S26x1000x64_S1x1000x64_21_0_0 c0 x2
  | ⟨6, _⟩ => fieldVal ![0, 22000] ![22, 0, 0] slices_S1024x26000_S1024x1000_0_22000 slices_S26x1000x64_S1x1000x64_22_0_0 c0 x2
  | ⟨7, _⟩ => fieldVal ![0, 23000] ![23, 0, 0] slices_S1024x26000_S1024x1000_0_23000 slices_S26x1000x64_S1x1000x64_23_0_0 c0 x2
  | ⟨8, _⟩ => fieldVal ![0, 24000] ![24, 0, 0] slices_S1024x26000_S1024x1000_0_24000 slices_S26x1000x64_S1x1000x64_24_0_0 c0 x2
  | ⟨9, _⟩ => fieldVal ![0, 25000] ![25, 0, 0] slices_S1024x26000_S1024x1000_0_25000 slices_S26x1000x64_S1x1000x64_25_0_0 c0 x2
  | ⟨_ + 10, h⟩ => absurd h (Nat.not_lt.2 (Nat.le_add_left _ _))

theorem firstSixteen_apply (x1 : (⟨S1024x26000, .i32⟩ : BufTy).Contents (Elt Ideal)) (x2 : (⟨S26x1000x64, .f32⟩ : BufTy).Contents (Elt Ideal)) (n : Fin 16) (r : Fin 1024) (e : Fin 64) :
    firstSixteen (sitofp (F := Ideal) .f32 x1) x2 n (ix2 r e) = fieldSum x1 x2 r.val n.val e.val :=
  match n with
  | ⟨0, _⟩ => field_0 x1 x2 r e
  | ⟨1, _⟩ => field_1 x1 x2 r e
  | ⟨2, _⟩ => field_2 x1 x2 r e
  | ⟨3, _⟩ => field_3 x1 x2 r e
  | ⟨4, _⟩ => field_4 x1 x2 r e
  | ⟨5, _⟩ => field_5 x1 x2 r e
  | ⟨6, _⟩ => field_6 x1 x2 r e
  | ⟨7, _⟩ => field_7 x1 x2 r e
  | ⟨8, _⟩ => field_8 x1 x2 r e
  | ⟨9, _⟩ => field_9 x1 x2 r e
  | ⟨10, _⟩ => field_10 x1 x2 r e
  | ⟨11, _⟩ => field_11 x1 x2 r e
  | ⟨12, _⟩ => field_12 x1 x2 r e
  | ⟨13, _⟩ => field_13 x1 x2 r e
  | ⟨14, _⟩ => field_14 x1 x2 r e
  | ⟨15, _⟩ => field_15 x1 x2 r e
  | ⟨_ + 16, h⟩ => absurd h (Nat.not_lt.2 (Nat.le_add_left _ _))

theorem lastTen_apply (x1 : (⟨S1024x26000, .i32⟩ : BufTy).Contents (Elt Ideal)) (x2 : (⟨S26x1000x64, .f32⟩ : BufTy).Contents (Elt Ideal)) (n : Fin 10) (r : Fin 1024) (e : Fin 64) :
    lastTen (sitofp (F := Ideal) .f32 x1) x2 n (ix2 r e) = fieldSum x1 x2 r.val (16 + n.val) e.val :=
  match n with
  | ⟨0, _⟩ => field_16 x1 x2 r e
  | ⟨1, _⟩ => field_17 x1 x2 r e
  | ⟨2, _⟩ => field_18 x1 x2 r e
  | ⟨3, _⟩ => field_19 x1 x2 r e
  | ⟨4, _⟩ => field_20 x1 x2 r e
  | ⟨5, _⟩ => field_21 x1 x2 r e
  | ⟨6, _⟩ => field_22 x1 x2 r e
  | ⟨7, _⟩ => field_23 x1 x2 r e
  | ⟨8, _⟩ => field_24 x1 x2 r e
  | ⟨9, _⟩ => field_25 x1 x2 r e
  | ⟨_ + 10, h⟩ => absurd h (Nat.not_lt.2 (Nat.le_add_left _ _))

/-- The first join at (r, j): field j / 64 at column j % 64. -/
theorem join16_apply (x1 : (⟨S1024x26000, .i32⟩ : BufTy).Contents (Elt Ideal)) (x2 : (⟨S26x1000x64, .f32⟩ : BufTy).Contents (Elt Ideal)) (r : Fin 1024) (j : Fin 1024) :
    join16 (sitofp (F := Ideal) .f32 x1) x2 (ix2 r j) = fieldSum x1 x2 r.val (j.val / 64) (j.val % 64) := by
  have hj : j.val < 1024 := j.isLt
  have e1 := concatenate_ofFn_apply (t := S1024x1024) (s₁ := S1024x64) 1 (firstSixteen (sitofp (F := Ideal) .f32 x1) x2)
    concatenates_S1024x64_S1024x64_S1024x64_S1024x64_S1024x64_S1024x64_S1024x64_S1024x64_S1024x64_S1024x64_S1024x64_S1024x64_S1024x64_S1024x64_S1024x64_S1024x64_S1024x1024_d1
    rfl 64 rfl (ix2 r j) ⟨j.val / 64, by omega⟩ rfl (ix2 r ⟨j.val % 64, Nat.mod_lt _ (by decide)⟩) rfl
    (fun b hb => match b with
      | ⟨0, _⟩ => rfl
      | ⟨1, _⟩ => absurd rfl hb)
  exact e1.trans (firstSixteen_apply x1 x2 _ r _)

/-- The second join at (r, j): field 16 + j / 64 at column j % 64. -/
theorem join10_apply (x1 : (⟨S1024x26000, .i32⟩ : BufTy).Contents (Elt Ideal)) (x2 : (⟨S26x1000x64, .f32⟩ : BufTy).Contents (Elt Ideal)) (r : Fin 1024) (j : Fin 640) :
    join10 (sitofp (F := Ideal) .f32 x1) x2 (ix2 r j) = fieldSum x1 x2 r.val (16 + j.val / 64) (j.val % 64) := by
  have hj : j.val < 640 := j.isLt
  have e1 := concatenate_ofFn_apply (t := S1024x640) (s₁ := S1024x64) 1 (lastTen (sitofp (F := Ideal) .f32 x1) x2)
    concatenates_S1024x64_S1024x64_S1024x64_S1024x64_S1024x64_S1024x64_S1024x64_S1024x64_S1024x64_S1024x64_S1024x640_d1
    rfl 64 rfl (ix2 r j) ⟨j.val / 64, by omega⟩ rfl (ix2 r ⟨j.val % 64, Nat.mod_lt _ (by decide)⟩) rfl
    (fun b hb => match b with
      | ⟨0, _⟩ => rfl
      | ⟨1, _⟩ => absurd rfl hb)
  exact e1.trans (lastTen_apply x1 x2 _ r _)

/-- Two arrays joined along the columns, read at a column of the first: the first array there. -/
theorem concat_cols_left {R n1 n2 n : ℕ} {α : Type} (x₁ : (⟨2, ![R, n1]⟩ : Shape).Idx → α) (x₂ : (⟨2, ![R, n2]⟩ : Shape).Idx → α)
    (h : Shape.Concatenates [(⟨2, ![R, n1]⟩ : Shape), ⟨2, ![R, n2]⟩] ⟨2, ![R, n]⟩ 1) (r : Fin R) (j : Fin n) (hj : j.val < n1) :
    concatenate ⟨2, ![R, n]⟩ 1 [⟨⟨2, ![R, n1]⟩, x₁⟩, ⟨⟨2, ![R, n2]⟩, x₂⟩] h (ix2 r j) = x₁ (ix2 r ⟨j.val, hj⟩) :=
  concatenate_pair_apply_left 1 x₁ x₂ h (ix2 r j) rfl (ix2 r ⟨j.val, hj⟩) (fun b => match b with
    | ⟨0, _⟩ => rfl
    | ⟨1, _⟩ => rfl)

/-- … and at a column of the second: the second array, the first's width less. -/
theorem concat_cols_right {R n1 n2 n : ℕ} {α : Type} (x₁ : (⟨2, ![R, n1]⟩ : Shape).Idx → α) (x₂ : (⟨2, ![R, n2]⟩ : Shape).Idx → α)
    (h : Shape.Concatenates [(⟨2, ![R, n1]⟩ : Shape), ⟨2, ![R, n2]⟩] ⟨2, ![R, n]⟩ 1) (r : Fin R) (j : Fin n) (hj : n1 ≤ j.val)
    (hj2 : j.val - n1 < n2) :
    concatenate ⟨2, ![R, n]⟩ 1 [⟨⟨2, ![R, n1]⟩, x₁⟩, ⟨⟨2, ![R, n2]⟩, x₂⟩] h (ix2 r j) = x₂ (ix2 r ⟨j.val - n1, hj2⟩) :=
  concatenate_pair_apply_right 1 x₁ x₂ h (ix2 r j) rfl rfl (ix2 r ⟨j.val - n1, hj2⟩) (fun b hb => match b with
    | ⟨0, _⟩ => rfl
    | ⟨1, _⟩ => absurd rfl hb) (by show j.val - n1 + n1 = j.val; omega)

/-- The reference's result is the specification's. -/
theorem reference_eq (x0 : (⟨S1024x13, .f32⟩ : BufTy).Contents (Elt Ideal)) (x1 : (⟨S1024x26000, .i32⟩ : BufTy).Contents (Elt Ideal)) (x2 : (⟨S26x1000x64, .f32⟩ : BufTy).Contents (Elt Ideal)) :
    refTerm (F := Ideal) x0 x1 x2 = result x0 x1 x2 := by
  funext y
  obtain ⟨r, j, rfl⟩ : ∃ (r : Fin 1024) (j : Fin 1677), y = ix2 r j := ⟨y 0, y 1, eq_ix2 y⟩
  have hj : j.val < 1677 := j.isLt
  rw [result_of_coords x0 x1 x2 (ix2 r j) r.val j.val rfl rfl]
  unfold refTerm
  by_cases h : j.val < 13
  · rw [if_pos h, concat_cols_left x0 _ concatenates_S1024x13_S1024x1664_S1024x1677_d1 r j h]
    exact at2_of_coords x0 _ r.val j.val rfl rfl
  · rw [if_neg h, concat_cols_right x0 _ concatenates_S1024x13_S1024x1664_S1024x1677_d1 r j (by omega) (by omega)]
    by_cases h2 : j.val - 13 < 1024
    · rw [concat_cols_left _ _ concatenates_S1024x1024_S1024x640_S1024x1664_d1 r ⟨j.val - 13, by omega⟩ h2]
      exact join16_apply x1 x2 r ⟨j.val - 13, h2⟩
    · rw [concat_cols_right _ _ concatenates_S1024x1024_S1024x640_S1024x1664_d1 r ⟨j.val - 13, by omega⟩ (by show 1024 ≤ j.val - 13; omega)
        (by show j.val - 13 - 1024 < 640; omega)]
      rw [join10_apply x1 x2 r ⟨j.val - 13 - 1024, by omega⟩]
      have hq : 16 + (j.val - 13 - 1024) / 64 = (j.val - 13) / 64 := by omega
      have hr : (j.val - 13 - 1024) % 64 = (j.val - 13) % 64 := by omega
      show fieldSum x1 x2 r.val (16 + (j.val - 13 - 1024) / 64) ((j.val - 13 - 1024) % 64) = _
      rw [hq, hr]

end Cert.ReferenceIdeal.Fields

end
-- ==== Proof.LibAfter.lean ====
/-
  Two small general facts about the contents after a list of host operations. The contents after two lists in a row are
  the second list's contents from the first's. And each operation leaves, at its own result buffer, its function of its
  operands' contents, and at every other buffer what was there — which holds equally for a buffer read inside the operand
  list of a concatenation.
-/
import Idealize.ShloMosaic.Lib.StableHlo.Run

namespace Cert.LibAfter

open Idealize.ShloMosaic Idealize.ShloMosaic.StableHlo

/-- The contents after two lists of operations run one after the other. -/
theorem after_append {τ : Topo} {sig : RefSig} {Val : EltTy → Type}
    (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfter

/-- Each operation's result at its own buffer is its function of the operands' contents; at any other buffer the contents
    are unchanged. Applied operation by operation until no fold is left. -/
macro "after_results_rw" : tactic =>
  `(tactic| (repeat (first
      | rw [Idealize.ShloMosaic.StableHlo.nullary_result] | rw [Idealize.ShloMosaic.StableHlo.unary_result]
      | rw [Idealize.ShloMosaic.StableHlo.binary_result] | rw [Idealize.ShloMosaic.StableHlo.ternary_result]
      | rw [Idealize.ShloMosaic.StableHlo.quaternary_result] | rw [Idealize.ShloMosaic.StableHlo.reshape_result]
      | rw [Idealize.ShloMosaic.StableHlo.nary_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)
      | (rw [Idealize.ShloMosaic.StableHlo.nary_result_ne]; rotate_left; decide))))
-- ==== Proof.RefRun.lean ====
/-
  THE REFERENCE'S RUN. @main of the reference is a straight line of 109 host operations: the conversion of the
  categories, then for each field a slice of the converted categories, a slice of W, a reshape and a product, then four
  joins. It is read here in five stretches — the conversion and fields 0 … 6; fields 7 … 13 and the first three
  operations of field 14; the rest of field 14 and fields 15 … 20; fields 21 … 25; the four joins — each stretch with the
  buffers it writes (so that every other buffer keeps its contents through it) and what it leaves in the buffers read
  later as a function of the contents it starts from. Put end to end: every weakly fair execution terminates with the
  result buffer at `refTerm` of the three arguments as launched, and the arguments unchanged.
-/
import proofs.«123104_g7189775253945_cont_9to1c4b_357_9_alg».proof.Proof.RefValue
import proofs.«123104_g7189775253945_cont_9to1c4b_357_9_alg».proof.Proof.LibAfter
import Idealize.ShloMosaic.Lib.StableHlo.Run

noncomputable section

namespace Cert.ReferenceIdeal.RefRun

open Cert.ReferenceIdeal Cert.ReferenceIdeal.Gen Cert.ReferenceIdeal.Fields Idealize.ShloMosaic Idealize.ShloMosaic.TcCoe Idealize.SL.Sem
  Idealize.ShloMosaic.StableHlo

variable {F : FTy → Type} [FloatOps F]

/-- Operations 1 … 29 of @main. -/
abbrev opsA : List (HloOp τ sig (Elt F)) :=
  [ unary main_arg1 main_v0 (sitofp .f32 : (⟨S1024x26000, .i32⟩ : BufTy).Contents (Elt F) → (⟨S1024x26000, .f32⟩ : BufTy).Contents (Elt F)),
    unary main_v0 main_v1 ((extractStridedSlice S1024x1000 ![0, 0] · slices_S1024x26000_S1024x1000_0_0) : (⟨S1024x26000, .f32⟩ : BufTy).Contents (Elt F) → (⟨S1024x1000, .f32⟩ : BufTy).Contents (Elt F)),
    unary main_arg2 main_v2 ((extractStridedSlice S1x1000x64 ![0, 0, 0] · slices_S26x1000x64_S1x1000x64_0_0_0) : (⟨S26x1000x64, .f32⟩ : BufTy).Contents (Elt F) → (⟨S1x1000x64, .f32⟩ : BufTy).Contents (Elt F)),
    reshape main_v2 main_v3 rfl shapeCasts_S1x1000x64_S1000x64,
    binary main_v1 main_v3 main_v4 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)),
    unary main_v0 main_v5 ((extractStridedSlice S1024x1000 ![0, 1000] · slices_S1024x26000_S1024x1000_0_1000) : (⟨S1024x26000, .f32⟩ : BufTy).Contents (Elt F) → (⟨S1024x1000, .f32⟩ : BufTy).Contents (Elt F)),
    unary main_arg2 main_v6 ((extractStridedSlice S1x1000x64 ![1, 0, 0] · slices_S26x1000x64_S1x1000x64_1_0_0) : (⟨S26x1000x64, .f32⟩ : BufTy).Contents (Elt F) → (⟨S1x1000x64, .f32⟩ : BufTy).Contents (Elt F)),
    reshape main_v6 main_v7 rfl shapeCasts_S1x1000x64_S1000x64,
    binary main_v5 main_v7 main_v8 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)),
    unary main_v0 main_v9 ((extractStridedSlice S1024x1000 ![0, 2000] · slices_S1024x26000_S1024x1000_0_2000) : (⟨S1024x26000, .f32⟩ : BufTy).Contents (Elt F) → (⟨S1024x1000, .f32⟩ : BufTy).Contents (Elt F)),
    unary main_arg2 main_v10 ((extractStridedSlice S1x1000x64 ![2, 0, 0] · slices_S26x1000x64_S1x1000x64_2_0_0) : (⟨S26x1000x64, .f32⟩ : BufTy).Contents (Elt F) → (⟨S1x1000x64, .f32⟩ : BufTy).Contents (Elt F)),
    reshape main_v10 main_v11 rfl shapeCasts_S1x1000x64_S1000x64,
    binary main_v9 main_v11 main_v12 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)),
    unary main_v0 main_v13 ((extractStridedSlice S1024x1000 ![0, 3000] · slices_S1024x26000_S1024x1000_0_3000) : (⟨S1024x26000, .f32⟩ : BufTy).Contents (Elt F) → (⟨S1024x1000, .f32⟩ : BufTy).Contents (Elt F)),
    unary main_arg2 main_v14 ((extractStridedSlice S1x1000x64 ![3, 0, 0] · slices_S26x1000x64_S1x1000x64_3_0_0) : (⟨S26x1000x64, .f32⟩ : BufTy).Contents (Elt F) → (⟨S1x1000x64, .f32⟩ : BufTy).Contents (Elt F)),
    reshape main_v14 main_v15 rfl shapeCasts_S1x1000x64_S1000x64,
    binary main_v13 main_v15 main_v16 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)),
    unary main_v0 main_v17 ((extractStridedSlice S1024x1000 ![0, 4000] · slices_S1024x26000_S1024x1000_0_4000) : (⟨S1024x26000, .f32⟩ : BufTy).Contents (Elt F) → (⟨S1024x1000, .f32⟩ : BufTy).Contents (Elt F)),
    unary main_arg2 main_v18 ((extractStridedSlice S1x1000x64 ![4, 0, 0] · slices_S26x1000x64_S1x1000x64_4_0_0) : (⟨S26x1000x64, .f32⟩ : BufTy).Contents (Elt F) → (⟨S1x1000x64, .f32⟩ : BufTy).Contents (Elt F)),
    reshape main_v18 main_v19 rfl shapeCasts_S1x1000x64_S1000x64,
    binary main_v17 main_v19 main_v20 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)),
    unary main_v0 main_v21 ((extractStridedSlice S1024x1000 ![0, 5000] · slices_S1024x26000_S1024x1000_0_5000) : (⟨S1024x26000, .f32⟩ : BufTy).Contents (Elt F) → (⟨S1024x1000, .f32⟩ : BufTy).Contents (Elt F)),
    unary main_arg2 main_v22 ((extractStridedSlice S1x1000x64 ![5, 0, 0] · slices_S26x1000x64_S1x1000x64_5_0_0) : (⟨S26x1000x64, .f32⟩ : BufTy).Contents (Elt F) → (⟨S1x1000x64, .f32⟩ : BufTy).Contents (Elt F)),
    reshape main_v22 main_v23 rfl shapeCasts_S1x1000x64_S1000x64,
    binary main_v21 main_v23 main_v24 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)),
    unary main_v0 main_v25 ((extractStridedSlice S1024x1000 ![0, 6000] · slices_S1024x26000_S1024x1000_0_6000) : (⟨S1024x26000, .f32⟩ : BufTy).Contents (Elt F) → (⟨S1024x1000, .f32⟩ : BufTy).Contents (Elt F)),
    unary main_arg2 main_v26 ((extractStridedSlice S1x1000x64 ![6, 0, 0] · slices_S26x1000x64_S1x1000x64_6_0_0) : (⟨S26x1000x64, .f32⟩ : BufTy).Contents (Elt F) → (⟨S1x1000x64, .f32⟩ : BufTy).Contents (Elt F)),
    reshape main_v26 main_v27 rfl shapeCasts_S1x1000x64_S1000x64,
    binary main_v25 main_v27 main_v28 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)) ]

set_option maxRecDepth 8192 in
theorem opsA_sub : (opsA : List (HloOp τ sig (Elt F))).Forall fun op => op.bufs ⊆ tcRefs τ sig :=
  ⟨unary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub ..⟩

theorem opsA_fresh : ∀ op ∈ (opsA : List (HloOp τ sig (Elt F))), op.fresh = ∅ := by
  intro _ h; (repeat (cases h with | head => rfl | tail _ h => ?_)); exact nomatch h

/-- The buffers these operations write. -/
abbrev opsA_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28]

set_option maxRecDepth 8192 in
theorem opsA_writes : (opsA : List (HloOp τ sig (Elt F))).Forall fun op =>
    op.writes ⊆ (opsA_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem keepA (V : Valuation τ sig (Elt F)) (r : Ref sig .tc) (h : r ∉ opsA_W) :
    after opsA V (Proc.devRef .tc r) = V (Proc.devRef .tc r) :=
  after_of_writes_sub opsA V opsA_writes h

/-- Operations 30 … 60 of @main. -/
abbrev opsB : List (HloOp τ sig (Elt F)) :=
  [ unary main_v0 main_v29 ((extractStridedSlice S1024x1000 ![0, 7000] · slices_S1024x26000_S1024x1000_0_7000) : (⟨S1024x26000, .f32⟩ : BufTy).Contents (Elt F) → (⟨S1024x1000, .f32⟩ : BufTy).Contents (Elt F)),
    unary main_arg2 main_v30 ((extractStridedSlice S1x1000x64 ![7, 0, 0] · slices_S26x1000x64_S1x1000x64_7_0_0) : (⟨S26x1000x64, .f32⟩ : BufTy).Contents (Elt F) → (⟨S1x1000x64, .f32⟩ : BufTy).Contents (Elt F)),
    reshape main_v30 main_v31 rfl shapeCasts_S1x1000x64_S1000x64,
    binary main_v29 main_v31 main_v32 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)),
    unary main_v0 main_v33 ((extractStridedSlice S1024x1000 ![0, 8000] · slices_S1024x26000_S1024x1000_0_8000) : (⟨S1024x26000, .f32⟩ : BufTy).Contents (Elt F) → (⟨S1024x1000, .f32⟩ : BufTy).Contents (Elt F)),
    unary main_arg2 main_v34 ((extractStridedSlice S1x1000x64 ![8, 0, 0] · slices_S26x1000x64_S1x1000x64_8_0_0) : (⟨S26x1000x64, .f32⟩ : BufTy).Contents (Elt F) → (⟨S1x1000x64, .f32⟩ : BufTy).Contents (Elt F)),
    reshape main_v34 main_v35 rfl shapeCasts_S1x1000x64_S1000x64,
    binary main_v33 main_v35 main_v36 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)),
    unary main_v0 main_v37 ((extractStridedSlice S1024x1000 ![0, 9000] · slices_S1024x26000_S1024x1000_0_9000) : (⟨S1024x26000, .f32⟩ : BufTy).Contents (Elt F) → (⟨S1024x1000, .f32⟩ : BufTy).Contents (Elt F)),
    unary main_arg2 main_v38 ((extractStridedSlice S1x1000x64 ![9, 0, 0] · slices_S26x1000x64_S1x1000x64_9_0_0) : (⟨S26x1000x64, .f32⟩ : BufTy).Contents (Elt F) → (⟨S1x1000x64, .f32⟩ : BufTy).Contents (Elt F)),
    reshape main_v38 main_v39 rfl shapeCasts_S1x1000x64_S1000x64,
    binary main_v37 main_v39 main_v40 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)),
    unary main_v0 main_v41 ((extractStridedSlice S1024x1000 ![0, 10000] · slices_S1024x26000_S1024x1000_0_10000) : (⟨S1024x26000, .f32⟩ : BufTy).Contents (Elt F) → (⟨S1024x1000, .f32⟩ : BufTy).Contents (Elt F)),
    unary main_arg2 main_v42 ((extractStridedSlice S1x1000x64 ![10, 0, 0] · slices_S26x1000x64_S1x1000x64_10_0_0) : (⟨S26x1000x64, .f32⟩ : BufTy).Contents (Elt F) → (⟨S1x1000x64, .f32⟩ : BufTy).Contents (Elt F)),
    reshape main_v42 main_v43 rfl shapeCasts_S1x1000x64_S1000x64,
    binary main_v41 main_v43 main_v44 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)),
    unary main_v0 main_v45 ((extractStridedSlice S1024x1000 ![0, 11000] · slices_S1024x26000_S1024x1000_0_11000) : (⟨S1024x26000, .f32⟩ : BufTy).Contents (Elt F) → (⟨S1024x1000, .f32⟩ : BufTy).Contents (Elt F)),
    unary main_arg2 main_v46 ((extractStridedSlice S1x1000x64 ![11, 0, 0] · slices_S26x1000x64_S1x1000x64_11_0_0) : (⟨S26x1000x64, .f32⟩ : BufTy).Contents (Elt F) → (⟨S1x1000x64, .f32⟩ : BufTy).Contents (Elt F)),
    reshape main_v46 main_v47 rfl shapeCasts_S1x1000x64_S1000x64,
    binary main_v45 main_v47 main_v48 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)),
    unary main_v0 main_v49 ((extractStridedSlice S1024x1000 ![0, 12000] · slices_S1024x26000_S1024x1000_0_12000) : (⟨S1024x26000, .f32⟩ : BufTy).Contents (Elt F) → (⟨S1024x1000, .f32⟩ : BufTy).Contents (Elt F)),
    unary main_arg2 main_v50 ((extractStridedSlice S1x1000x64 ![12, 0, 0] · slices_S26x1000x64_S1x1000x64_12_0_0) : (⟨S26x1000x64, .f32⟩ : BufTy).Contents (Elt F) → (⟨S1x1000x64, .f32⟩ : BufTy).Contents (Elt F)),
    reshape main_v50 main_v51 rfl shapeCasts_S1x1000x64_S1000x64,
    binary main_v49 main_v51 main_v52 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)),
    unary main_v0 main_v53 ((extractStridedSlice S1024x1000 ![0, 13000] · slices_S1024x26000_S1024x1000_0_13000) : (⟨S1024x26000, .f32⟩ : BufTy).Contents (Elt F) → (⟨S1024x1000, .f32⟩ : BufTy).Contents (Elt F)),
    unary main_arg2 main_v54 ((extractStridedSlice S1x1000x64 ![13, 0, 0] · slices_S26x1000x64_S1x1000x64_13_0_0) : (⟨S26x1000x64, .f32⟩ : BufTy).Contents (Elt F) → (⟨S1x1000x64, .f32⟩ : BufTy).Contents (Elt F)),
    reshape main_v54 main_v55 rfl shapeCasts_S1x1000x64_S1000x64,
    binary main_v53 main_v55 main_v56 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)),
    unary main_v0 main_v57 ((extractStridedSlice S1024x1000 ![0, 14000] · slices_S1024x26000_S1024x1000_0_14000) : (⟨S1024x26000, .f32⟩ : BufTy).Contents (Elt F) → (⟨S1024x1000, .f32⟩ : BufTy).Contents (Elt F)),
    unary main_arg2 main_v58 ((extractStridedSlice S1x1000x64 ![14, 0, 0] · slices_S26x1000x64_S1x1000x64_14_0_0) : (⟨S26x1000x64, .f32⟩ : BufTy).Contents (Elt F) → (⟨S1x1000x64, .f32⟩ : BufTy).Contents (Elt F)),
    reshape main_v58 main_v59 rfl shapeCasts_S1x1000x64_S1000x64 ]

set_option maxRecDepth 8192 in
theorem opsB_sub : (opsB : List (HloOp τ sig (Elt F))).Forall fun op => op.bufs ⊆ tcRefs τ sig :=
  ⟨unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub ..⟩

theorem opsB_fresh : ∀ op ∈ (opsB : List (HloOp τ sig (Elt F))), op.fresh = ∅ := by
  intro _ h; (repeat (cases h with | head => rfl | tail _ h => ?_)); exact nomatch h

/-- The buffers these operations write. -/
abbrev opsB_W : List (Ref sig .tc) := [main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59]

set_option maxRecDepth 8192 in
theorem opsB_writes : (opsB : List (HloOp τ sig (Elt F))).Forall fun op =>
    op.writes ⊆ (opsB_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem keepB (V : Valuation τ sig (Elt F)) (r : Ref sig .tc) (h : r ∉ opsB_W) :
    after opsB V (Proc.devRef .tc r) = V (Proc.devRef .tc r) :=
  after_of_writes_sub opsB V opsB_writes h

/-- Operations 61 … 85 of @main. -/
abbrev opsC : List (HloOp τ sig (Elt F)) :=
  [ binary main_v57 main_v59 main_v60 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)),
    unary main_v0 main_v61 ((extractStridedSlice S1024x1000 ![0, 15000] · slices_S1024x26000_S1024x1000_0_15000) : (⟨S1024x26000, .f32⟩ : BufTy).Contents (Elt F) → (⟨S1024x1000, .f32⟩ : BufTy).Contents (Elt F)),
    unary main_arg2 main_v62 ((extractStridedSlice S1x1000x64 ![15, 0, 0] · slices_S26x1000x64_S1x1000x64_15_0_0) : (⟨S26x1000x64, .f32⟩ : BufTy).Contents (Elt F) → (⟨S1x1000x64, .f32⟩ : BufTy).Contents (Elt F)),
    reshape main_v62 main_v63 rfl shapeCasts_S1x1000x64_S1000x64,
    binary main_v61 main_v63 main_v64 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)),
    unary main_v0 main_v65 ((extractStridedSlice S1024x1000 ![0, 16000] · slices_S1024x26000_S1024x1000_0_16000) : (⟨S1024x26000, .f32⟩ : BufTy).Contents (Elt F) → (⟨S1024x1000, .f32⟩ : BufTy).Contents (Elt F)),
    unary main_arg2 main_v66 ((extractStridedSlice S1x1000x64 ![16, 0, 0] · slices_S26x1000x64_S1x1000x64_16_0_0) : (⟨S26x1000x64, .f32⟩ : BufTy).Contents (Elt F) → (⟨S1x1000x64, .f32⟩ : BufTy).Contents (Elt F)),
    reshape main_v66 main_v67 rfl shapeCasts_S1x1000x64_S1000x64,
    binary main_v65 main_v67 main_v68 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)),
    unary main_v0 main_v69 ((extractStridedSlice S1024x1000 ![0, 17000] · slices_S1024x26000_S1024x1000_0_17000) : (⟨S1024x26000, .f32⟩ : BufTy).Contents (Elt F) → (⟨S1024x1000, .f32⟩ : BufTy).Contents (Elt F)),
    unary main_arg2 main_v70 ((extractStridedSlice S1x1000x64 ![17, 0, 0] · slices_S26x1000x64_S1x1000x64_17_0_0) : (⟨S26x1000x64, .f32⟩ : BufTy).Contents (Elt F) → (⟨S1x1000x64, .f32⟩ : BufTy).Contents (Elt F)),
    reshape main_v70 main_v71 rfl shapeCasts_S1x1000x64_S1000x64,
    binary main_v69 main_v71 main_v72 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)),
    unary main_v0 main_v73 ((extractStridedSlice S1024x1000 ![0, 18000] · slices_S1024x26000_S1024x1000_0_18000) : (⟨S1024x26000, .f32⟩ : BufTy).Contents (Elt F) → (⟨S1024x1000, .f32⟩ : BufTy).Contents (Elt F)),
    unary main_arg2 main_v74 ((extractStridedSlice S1x1000x64 ![18, 0, 0] · slices_S26x1000x64_S1x1000x64_18_0_0) : (⟨S26x1000x64, .f32⟩ : BufTy).Contents (Elt F) → (⟨S1x1000x64, .f32⟩ : BufTy).Contents (Elt F)),
    reshape main_v74 main_v75 rfl shapeCasts_S1x1000x64_S1000x64,
    binary main_v73 main_v75 main_v76 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)),
    unary main_v0 main_v77 ((extractStridedSlice S1024x1000 ![0, 19000] · slices_S1024x26000_S1024x1000_0_19000) : (⟨S1024x26000, .f32⟩ : BufTy).Contents (Elt F) → (⟨S1024x1000, .f32⟩ : BufTy).Contents (Elt F)),
    unary main_arg2 main_v78 ((extractStridedSlice S1x1000x64 ![19, 0, 0] · slices_S26x1000x64_S1x1000x64_19_0_0) : (⟨S26x1000x64, .f32⟩ : BufTy).Contents (Elt F) → (⟨S1x1000x64, .f32⟩ : BufTy).Contents (Elt F)),
    reshape main_v78 main_v79 rfl shapeCasts_S1x1000x64_S1000x64,
    binary main_v77 main_v79 main_v80 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)),
    unary main_v0 main_v81 ((extractStridedSlice S1024x1000 ![0, 20000] · slices_S1024x26000_S1024x1000_0_20000) : (⟨S1024x26000, .f32⟩ : BufTy).Contents (Elt F) → (⟨S1024x1000, .f32⟩ : BufTy).Contents (Elt F)),
    unary main_arg2 main_v82 ((extractStridedSlice S1x1000x64 ![20, 0, 0] · slices_S26x1000x64_S1x1000x64_20_0_0) : (⟨S26x1000x64, .f32⟩ : BufTy).Contents (Elt F) → (⟨S1x1000x64, .f32⟩ : BufTy).Contents (Elt F)),
    reshape main_v82 main_v83 rfl shapeCasts_S1x1000x64_S1000x64,
    binary main_v81 main_v83 main_v84 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)) ]

set_option maxRecDepth 8192 in
theorem opsC_sub : (opsC : List (HloOp τ sig (Elt F))).Forall fun op => op.bufs ⊆ tcRefs τ sig :=
  ⟨binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub ..⟩

theorem opsC_fresh : ∀ op ∈ (opsC : List (HloOp τ sig (Elt F))), op.fresh = ∅ := by
  intro _ h; (repeat (cases h with | head => rfl | tail _ h => ?_)); exact nomatch h

/-- The buffers these operations write. -/
abbrev opsC_W : List (Ref sig .tc) := [main_v60, main_v61, main_v62, main_v63, main_v64, main_v65, main_v66, main_v67, main_v68, main_v69, main_v70, main_v71, main_v72, main_v73, main_v74, main_v75, main_v76, main_v77, main_v78, main_v79, main_v80, main_v81, main_v82, main_v83, main_v84]

set_option maxRecDepth 8192 in
theorem opsC_writes : (opsC : List (HloOp τ sig (Elt F))).Forall fun op =>
    op.writes ⊆ (opsC_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem keepC (V : Valuation τ sig (Elt F)) (r : Ref sig .tc) (h : r ∉ opsC_W) :
    after opsC V (Proc.devRef .tc r) = V (Proc.devRef .tc r) :=
  after_of_writes_sub opsC V opsC_writes h

/-- Operations 86 … 105 of @main. -/
abbrev opsD : List (HloOp τ sig (Elt F)) :=
  [ unary main_v0 main_v85 ((extractStridedSlice S1024x1000 ![0, 21000] · slices_S1024x26000_S1024x1000_0_21000) : (⟨S1024x26000, .f32⟩ : BufTy).Contents (Elt F) → (⟨S1024x1000, .f32⟩ : BufTy).Contents (Elt F)),
    unary main_arg2 main_v86 ((extractStridedSlice S1x1000x64 ![21, 0, 0] · slices_S26x1000x64_S1x1000x64_21_0_0) : (⟨S26x1000x64, .f32⟩ : BufTy).Contents (Elt F) → (⟨S1x1000x64, .f32⟩ : BufTy).Contents (Elt F)),
    reshape main_v86 main_v87 rfl shapeCasts_S1x1000x64_S1000x64,
    binary main_v85 main_v87 main_v88 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)),
    unary main_v0 main_v89 ((extractStridedSlice S1024x1000 ![0, 22000] · slices_S1024x26000_S1024x1000_0_22000) : (⟨S1024x26000, .f32⟩ : BufTy).Contents (Elt F) → (⟨S1024x1000, .f32⟩ : BufTy).Contents (Elt F)),
    unary main_arg2 main_v90 ((extractStridedSlice S1x1000x64 ![22, 0, 0] · slices_S26x1000x64_S1x1000x64_22_0_0) : (⟨S26x1000x64, .f32⟩ : BufTy).Contents (Elt F) → (⟨S1x1000x64, .f32⟩ : BufTy).Contents (Elt F)),
    reshape main_v90 main_v91 rfl shapeCasts_S1x1000x64_S1000x64,
    binary main_v89 main_v91 main_v92 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)),
    unary main_v0 main_v93 ((extractStridedSlice S1024x1000 ![0, 23000] · slices_S1024x26000_S1024x1000_0_23000) : (⟨S1024x26000, .f32⟩ : BufTy).Contents (Elt F) → (⟨S1024x1000, .f32⟩ : BufTy).Contents (Elt F)),
    unary main_arg2 main_v94 ((extractStridedSlice S1x1000x64 ![23, 0, 0] · slices_S26x1000x64_S1x1000x64_23_0_0) : (⟨S26x1000x64, .f32⟩ : BufTy).Contents (Elt F) → (⟨S1x1000x64, .f32⟩ : BufTy).Contents (Elt F)),
    reshape main_v94 main_v95 rfl shapeCasts_S1x1000x64_S1000x64,
    binary main_v93 main_v95 main_v96 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)),
    unary main_v0 main_v97 ((extractStridedSlice S1024x1000 ![0, 24000] · slices_S1024x26000_S1024x1000_0_24000) : (⟨S1024x26000, .f32⟩ : BufTy).Contents (Elt F) → (⟨S1024x1000, .f32⟩ : BufTy).Contents (Elt F)),
    unary main_arg2 main_v98 ((extractStridedSlice S1x1000x64 ![24, 0, 0] · slices_S26x1000x64_S1x1000x64_24_0_0) : (⟨S26x1000x64, .f32⟩ : BufTy).Contents (Elt F) → (⟨S1x1000x64, .f32⟩ : BufTy).Contents (Elt F)),
    reshape main_v98 main_v99 rfl shapeCasts_S1x1000x64_S1000x64,
    binary main_v97 main_v99 main_v100 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)),
    unary main_v0 main_v101 ((extractStridedSlice S1024x1000 ![0, 25000] · slices_S1024x26000_S1024x1000_0_25000) : (⟨S1024x26000, .f32⟩ : BufTy).Contents (Elt F) → (⟨S1024x1000, .f32⟩ : BufTy).Contents (Elt F)),
    unary main_arg2 main_v102 ((extractStridedSlice S1x1000x64 ![25, 0, 0] · slices_S26x1000x64_S1x1000x64_25_0_0) : (⟨S26x1000x64, .f32⟩ : BufTy).Contents (Elt F) → (⟨S1x1000x64, .f32⟩ : BufTy).Contents (Elt F)),
    reshape main_v102 main_v103 rfl shapeCasts_S1x1000x64_S1000x64,
    binary main_v101 main_v103 main_v104 ((fun l r => Host.dotGeneral dot_S1024x1000_S1000x64_S1024x64_1_0_0_1_n_n none l r) : (⟨S1024x1000, .f32⟩ : BufTy).Contents (Elt F) → (⟨S1000x64, .f32⟩ : BufTy).Contents (Elt F) → (⟨S1024x64, .f32⟩ : BufTy).Contents (Elt F)) ]

set_option maxRecDepth 8192 in
theorem opsD_sub : (opsD : List (HloOp τ sig (Elt F))).Forall fun op => op.bufs ⊆ tcRefs τ sig :=
  ⟨unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub ..⟩

theorem opsD_fresh : ∀ op ∈ (opsD : List (HloOp τ sig (Elt F))), op.fresh = ∅ := by
  intro _ h; (repeat (cases h with | head => rfl | tail _ h => ?_)); exact nomatch h

/-- The buffers these operations write. -/
abbrev opsD_W : List (Ref sig .tc) := [main_v85, main_v86, main_v87, main_v88, main_v89, main_v90, main_v91, main_v92, main_v93, main_v94, main_v95, main_v96, main_v97, main_v98, main_v99, main_v100, main_v101, main_v102, main_v103, main_v104]

set_option maxRecDepth 8192 in
theorem opsD_writes : (opsD : List (HloOp τ sig (Elt F))).Forall fun op =>
    op.writes ⊆ (opsD_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem keepD (V : Valuation τ sig (Elt F)) (r : Ref sig .tc) (h : r ∉ opsD_W) :
    after opsD V (Proc.devRef .tc r) = V (Proc.devRef .tc r) :=
  after_of_writes_sub opsD V opsD_writes h

/-- Operations 106 … 109 of @main. -/
abbrev opsE : List (HloOp τ sig (Elt F)) :=
  [ nary ![main_v4, main_v8, main_v12, main_v16, main_v20, main_v24, main_v28, main_v32, main_v36, main_v40, main_v44, main_v48, main_v52, main_v56, main_v60, main_v64] main_v105 (fun u => concatenate S1024x1024 1 [⟨S1024x64, u 0⟩, ⟨S1024x64, u 1⟩, ⟨S1024x64, u 2⟩, ⟨S1024x64, u 3⟩, ⟨S1024x64, u 4⟩, ⟨S1024x64, u 5⟩, ⟨S1024x64, u 6⟩, ⟨S1024x64, u 7⟩, ⟨S1024x64, u 8⟩, ⟨S1024x64, u 9⟩, ⟨S1024x64, u 10⟩, ⟨S1024x64, u 11⟩, ⟨S1024x64, u 12⟩, ⟨S1024x64, u 13⟩, ⟨S1024x64, u 14⟩, ⟨S1024x64, u 15⟩] concatenates_S1024x64_S1024x64_S1024x64_S1024x64_S1024x64_S1024x64_S1024x64_S1024x64_S1024x64_S1024x64_S1024x64_S1024x64_S1024x64_S1024x64_S1024x64_S1024x64_S1024x1024_d1),
    nary ![main_v68, main_v72, main_v76, main_v80, main_v84, main_v88, main_v92, main_v96, main_v100, main_v104] main_v106 (fun u => concatenate S1024x640 1 [⟨S1024x64, u 0⟩, ⟨S1024x64, u 1⟩, ⟨S1024x64, u 2⟩, ⟨S1024x64, u 3⟩, ⟨S1024x64, u 4⟩, ⟨S1024x64, u 5⟩, ⟨S1024x64, u 6⟩, ⟨S1024x64, u 7⟩, ⟨S1024x64, u 8⟩, ⟨S1024x64, u 9⟩] concatenates_S1024x64_S1024x64_S1024x64_S1024x64_S1024x64_S1024x64_S1024x64_S1024x64_S1024x64_S1024x64_S1024x640_d1),
    binary main_v105 main_v106 main_v107 ((fun a b => concatenate S1024x1664 1 [⟨S1024x1024, a⟩, ⟨S1024x640, b⟩] concatenates_S1024x1024_S1024x640_S1024x1664_d1) : (⟨S1024x1024, .f32⟩ : BufTy).Contents (Elt F) → (⟨S1024x640, .f32⟩ : BufTy).Contents (Elt F) → (⟨S1024x1664, .f32⟩ : BufTy).Contents (Elt F)),
    binary main_arg0 main_v107 main_v108 ((fun a b => concatenate S1024x1677 1 [⟨S1024x13, a⟩, ⟨S1024x1664, b⟩] concatenates_S1024x13_S1024x1664_S1024x1677_d1) : (⟨S1024x13, .f32⟩ : BufTy).Contents (Elt F) → (⟨S1024x1664, .f32⟩ : BufTy).Contents (Elt F) → (⟨S1024x1677, .f32⟩ : BufTy).Contents (Elt F)) ]

set_option maxRecDepth 8192 in
theorem opsE_sub : (opsE : List (HloOp τ sig (Elt F))).Forall fun op => op.bufs ⊆ tcRefs τ sig :=
  ⟨nary_bufs_sub .., nary_bufs_sub .., binary_bufs_sub .., binary_bufs_sub ..⟩

theorem opsE_fresh : ∀ op ∈ (opsE : List (HloOp τ sig (Elt F))), op.fresh = ∅ := by
  intro _ h; (repeat (cases h with | head => rfl | tail _ h => ?_)); exact nomatch h

/-- The buffers these operations write. -/
abbrev opsE_W : List (Ref sig .tc) := [main_v105, main_v106, main_v107, main_v108]

set_option maxRecDepth 8192 in
theorem opsE_writes : (opsE : List (HloOp τ sig (Elt F))).Forall fun op =>
    op.writes ⊆ (opsE_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem keepE (V : Valuation τ sig (Elt F)) (r : Ref sig .tc) (h : r ∉ opsE_W) :
    after opsE V (Proc.devRef .tc r) = V (Proc.devRef .tc r) :=
  after_of_writes_sub opsE V opsE_writes h

/-! ## What each stretch leaves in the buffers read later -/

set_option maxRecDepth 8192 in
set_option maxHeartbeats 2000000 in
theorem compA_main_v0 (V : Valuation τ sig (Elt F)) :
    after opsA V (Proc.devRef .tc main_v0) = (sitofp .f32 (V (Proc.devRef .tc main_arg1)) : (⟨S1024x26000, .f32⟩ : BufTy).Contents (Elt F)) := by
  simp only [opsA]
  after_results_simp
  all_goals rfl

set_option maxRecDepth 8192 in
set_option maxHeartbeats 2000000 in
theorem compA_main_v4 (V : Valuation τ sig (Elt F)) :
    after opsA V (Proc.devRef .tc main_v4) = fieldVal ![0, 0] ![0, 0, 0] slices_S1024x26000_S1024x1000_0_0 slices_S26x1000x64_S1x1000x64_0_0_0 (sitofp .f32 (V (Proc.devRef .tc main_arg1))) (V (Proc.devRef .tc main_arg2)) := by
  simp only [opsA]
  after_results_simp
  all_goals rfl

set_option maxRecDepth 8192 in
set_option maxHeartbeats 2000000 in
theorem compA_main_v8 (V : Valuation τ sig (Elt F)) :
    after opsA V (Proc.devRef .tc main_v8) = fieldVal ![0, 1000] ![1, 0, 0] slices_S1024x26000_S1024x1000_0_1000 slices_S26x1000x64_S1x1000x64_1_0_0 (sitofp .f32 (V (Proc.devRef .tc main_arg1))) (V (Proc.devRef .tc main_arg2)) := by
  simp only [opsA]
  after_results_simp
  all_goals rfl

set_option maxRecDepth 8192 in
set_option maxHeartbeats 2000000 in
theorem compA_main_v12 (V : Valuation τ sig (Elt F)) :
    after opsA V (Proc.devRef .tc main_v12) = fieldVal ![0, 2000] ![2, 0, 0] slices_S1024x26000_S1024x1000_0_2000 slices_S26x1000x64_S1x1000x64_2_0_0 (sitofp .f32 (V (Proc.devRef .tc main_arg1))) (V (Proc.devRef .tc main_arg2)) := by
  simp only [opsA]
  after_results_simp
  all_goals rfl

set_option maxRecDepth 8192 in
set_option maxHeartbeats 2000000 in
theorem compA_main_v16 (V : Valuation τ sig (Elt F)) :
    after opsA V (Proc.devRef .tc main_v16) = fieldVal ![0, 3000] ![3, 0, 0] slices_S1024x26000_S1024x1000_0_3000 slices_S26x1000x64_S1x1000x64_3_0_0 (sitofp .f32 (V (Proc.devRef .tc main_arg1))) (V (Proc.devRef .tc main_arg2)) := by
  simp only [opsA]
  after_results_simp
  all_goals rfl

set_option maxRecDepth 8192 in
set_option maxHeartbeats 2000000 in
theorem compA_main_v20 (V : Valuation τ sig (Elt F)) :
    after opsA V (Proc.devRef .tc main_v20) = fieldVal ![0, 4000] ![4, 0, 0] slices_S1024x26000_S1024x1000_0_4000 slices_S26x1000x64_S1x1000x64_4_0_0 (sitofp .f32 (V (Proc.devRef .tc main_arg1))) (V (Proc.devRef .tc main_arg2)) := by
  simp only [opsA]
  after_results_simp
  all_goals rfl

set_option maxRecDepth 8192 in
set_option maxHeartbeats 2000000 in
theorem compA_main_v24 (V : Valuation τ sig (Elt F)) :
    after opsA V (Proc.devRef .tc main_v24) = fieldVal ![0, 5000] ![5, 0, 0] slices_S1024x26000_S1024x1000_0_5000 slices_S26x1000x64_S1x1000x64_5_0_0 (sitofp .f32 (V (Proc.devRef .tc main_arg1))) (V (Proc.devRef .tc main_arg2)) := by
  simp only [opsA]
  after_results_simp
  all_goals rfl

set_option maxRecDepth 8192 in
set_option maxHeartbeats 2000000 in
theorem compA_main_v28 (V : Valuation τ sig (Elt F)) :
    after opsA V (Proc.devRef .tc main_v28) = fieldVal ![0, 6000] ![6, 0, 0] slices_S1024x26000_S1024x1000_0_6000 slices_S26x1000x64_S1x1000x64_6_0_0 (sitofp .f32 (V (Proc.devRef .tc main_arg1))) (V (Proc.devRef .tc main_arg2)) := by
  simp only [opsA]
  after_results_simp
  all_goals rfl

set_option maxRecDepth 8192 in
set_option maxHeartbeats 2000000 in
theorem compB_main_v32 (V : Valuation τ sig (Elt F)) :
    after opsB V (Proc.devRef .tc main_v32) = fieldVal ![0, 7000] ![7, 0, 0] slices_S1024x26000_S1024x1000_0_7000 slices_S26x1000x64_S1x1000x64_7_0_0 (V (Proc.devRef .tc main_v0)) (V (Proc.devRef .tc main_arg2)) := by
  simp only [opsB]
  after_results_simp
  all_goals rfl

set_option maxRecDepth 8192 in
set_option maxHeartbeats 2000000 in
theorem compB_main_v36 (V : Valuation τ sig (Elt F)) :
    after opsB V (Proc.devRef .tc main_v36) = fieldVal ![0, 8000] ![8, 0, 0] slices_S1024x26000_S1024x1000_0_8000 slices_S26x1000x64_S1x1000x64_8_0_0 (V (Proc.devRef .tc main_v0)) (V (Proc.devRef .tc main_arg2)) := by
  simp only [opsB]
  after_results_simp
  all_goals rfl

set_option maxRecDepth 8192 in
set_option maxHeartbeats 2000000 in
theorem compB_main_v40 (V : Valuation τ sig (Elt F)) :
    after opsB V (Proc.devRef .tc main_v40) = fieldVal ![0, 9000] ![9, 0, 0] slices_S1024x26000_S1024x1000_0_9000 slices_S26x1000x64_S1x1000x64_9_0_0 (V (Proc.devRef .tc main_v0)) (V (Proc.devRef .tc main_arg2)) := by
  simp only [opsB]
  after_results_simp
  all_goals rfl

set_option maxRecDepth 8192 in
set_option maxHeartbeats 2000000 in
theorem compB_main_v44 (V : Valuation τ sig (Elt F)) :
    after opsB V (Proc.devRef .tc main_v44) = fieldVal ![0, 10000] ![10, 0, 0] slices_S1024x26000_S1024x1000_0_10000 slices_S26x1000x64_S1x1000x64_10_0_0 (V (Proc.devRef .tc main_v0)) (V (Proc.devRef .tc main_arg2)) := by
  simp only [opsB]
  after_results_simp
  all_goals rfl

set_option maxRecDepth 8192 in
set_option maxHeartbeats 2000000 in
theorem compB_main_v48 (V : Valuation τ sig (Elt F)) :
    after opsB V (Proc.devRef .tc main_v48) = fieldVal ![0, 11000] ![11, 0, 0] slices_S1024x26000_S1024x1000_0_11000 slices_S26x1000x64_S1x1000x64_11_0_0 (V (Proc.devRef .tc main_v0)) (V (Proc.devRef .tc main_arg2)) := by
  simp only [opsB]
  after_results_simp
  all_goals rfl

set_option maxRecDepth 8192 in
set_option maxHeartbeats 2000000 in
theorem compB_main_v52 (V : Valuation τ sig (Elt F)) :
    after opsB V (Proc.devRef .tc main_v52) = fieldVal ![0, 12000] ![12, 0, 0] slices_S1024x26000_S1024x1000_0_12000 slices_S26x1000x64_S1x1000x64_12_0_0 (V (Proc.devRef .tc main_v0)) (V (Proc.devRef .tc main_arg2)) := by
  simp only [opsB]
  after_results_simp
  all_goals rfl

set_option maxRecDepth 8192 in
set_option maxHeartbeats 2000000 in
theorem compB_main_v56 (V : Valuation τ sig (Elt F)) :
    after opsB V (Proc.devRef .tc main_v56) = fieldVal ![0, 13000] ![13, 0, 0] slices_S1024x26000_S1024x1000_0_13000 slices_S26x1000x64_S1x1000x64_13_0_0 (V (Proc.devRef .tc main_v0)) (V (Proc.devRef .tc main_arg2)) := by
  simp only [opsB]
  after_results_simp
  all_goals rfl

set_option maxRecDepth 8192 in
set_option maxHeartbeats 2000000 in
theorem compB_main_v57 (V : Valuation τ sig (Elt F)) :
    after opsB V (Proc.devRef .tc main_v57) = (extractStridedSlice S1024x1000 ![0, 14000] (V (Proc.devRef .tc main_v0)) slices_S1024x26000_S1024x1000_0_14000 : (⟨S1024x1000, .f32⟩ : BufTy).Contents (Elt F)) := by
  simp only [opsB]
  after_results_simp
  all_goals rfl

set_option maxRecDepth 8192 in
set_option maxHeartbeats 2000000 in
theorem compB_main_v59 (V : Valuation τ sig (Elt F)) :
    after opsB V (Proc.devRef .tc main_v59) = (shapeCast S1000x64 (extractStridedSlice S1x1000x64 ![14, 0, 0] (V (Proc.devRef .tc main_arg2)) slices_S26x1000x64_S1x1000x64_14_0_0) shapeCasts_S1x1000x64_S1000x64 : (⟨S1000x64, .f32⟩ : BufTy).Contents (Elt F)) := by
  simp only [opsB]
  after_results_simp
  all_goals rfl

set_option maxRecDepth 8192 in
set_option maxHeartbeats 2000000 in
theorem compC_main_v60 (V : Valuation τ sig (Elt F)) :
    after opsC V (Proc.devRef .tc main_v60) = (Host.dotGeneral dot_S1024x1000_S1000x64_S1024x64_1_0_0_1_n_n none (V (Proc.devRef .tc main_v57)) (V (Proc.devRef .tc main_v59)) : (⟨S1024x64, .f32⟩ : BufTy).Contents (Elt F)) := by
  simp only [opsC]
  after_results_simp
  all_goals rfl

set_option maxRecDepth 8192 in
set_option maxHeartbeats 2000000 in
theorem compC_main_v64 (V : Valuation τ sig (Elt F)) :
    after opsC V (Proc.devRef .tc main_v64) = fieldVal ![0, 15000] ![15, 0, 0] slices_S1024x26000_S1024x1000_0_15000 slices_S26x1000x64_S1x1000x64_15_0_0 (V (Proc.devRef .tc main_v0)) (V (Proc.devRef .tc main_arg2)) := by
  simp only [opsC]
  after_results_simp
  all_goals rfl

set_option maxRecDepth 8192 in
set_option maxHeartbeats 2000000 in
theorem compC_main_v68 (V : Valuation τ sig (Elt F)) :
    after opsC V (Proc.devRef .tc main_v68) = fieldVal ![0, 16000] ![16, 0, 0] slices_S1024x26000_S1024x1000_0_16000 slices_S26x1000x64_S1x1000x64_16_0_0 (V (Proc.devRef .tc main_v0)) (V (Proc.devRef .tc main_arg2)) := by
  simp only [opsC]
  after_results_simp
  all_goals rfl

set_option maxRecDepth 8192 in
set_option maxHeartbeats 2000000 in
theorem compC_main_v72 (V : Valuation τ sig (Elt F)) :
    after opsC V (Proc.devRef .tc main_v72) = fieldVal ![0, 17000] ![17, 0, 0] slices_S1024x26000_S1024x1000_0_17000 slices_S26x1000x64_S1x1000x64_17_0_0 (V (Proc.devRef .tc main_v0)) (V (Proc.devRef .tc main_arg2)) := by
  simp only [opsC]
  after_results_simp
  all_goals rfl

set_option maxRecDepth 8192 in
set_option maxHeartbeats 2000000 in
theorem compC_main_v76 (V : Valuation τ sig (Elt F)) :
    after opsC V (Proc.devRef .tc main_v76) = fieldVal ![0, 18000] ![18, 0, 0] slices_S1024x26000_S1024x1000_0_18000 slices_S26x1000x64_S1x1000x64_18_0_0 (V (Proc.devRef .tc main_v0)) (V (Proc.devRef .tc main_arg2)) := by
  simp only [opsC]
  after_results_simp
  all_goals rfl

set_option maxRecDepth 8192 in
set_option maxHeartbeats 2000000 in
theorem compC_main_v80 (V : Valuation τ sig (Elt F)) :
    after opsC V (Proc.devRef .tc main_v80) = fieldVal ![0, 19000] ![19, 0, 0] slices_S1024x26000_S1024x1000_0_19000 slices_S26x1000x64_S1x1000x64_19_0_0 (V (Proc.devRef .tc main_v0)) (V (Proc.devRef .tc main_arg2)) := by
  simp only [opsC]
  after_results_simp
  all_goals rfl

set_option maxRecDepth 8192 in
set_option maxHeartbeats 2000000 in
theorem compC_main_v84 (V : Valuation τ sig (Elt F)) :
    after opsC V (Proc.devRef .tc main_v84) = fieldVal ![0, 20000] ![20, 0, 0] slices_S1024x26000_S1024x1000_0_20000 slices_S26x1000x64_S1x1000x64_20_0_0 (V (Proc.devRef .tc main_v0)) (V (Proc.devRef .tc main_arg2)) := by
  simp only [opsC]
  after_results_simp
  all_goals rfl

set_option maxRecDepth 8192 in
set_option maxHeartbeats 2000000 in
theorem compD_main_v88 (V : Valuation τ sig (Elt F)) :
    after opsD V (Proc.devRef .tc main_v88) = fieldVal ![0, 21000] ![21, 0, 0] slices_S1024x26000_S1024x1000_0_21000 slices_S26x1000x64_S1x1000x64_21_0_0 (V (Proc.devRef .tc main_v0)) (V (Proc.devRef .tc main_arg2)) := by
  simp only [opsD]
  after_results_simp
  all_goals rfl

set_option maxRecDepth 8192 in
set_option maxHeartbeats 2000000 in
theorem compD_main_v92 (V : Valuation τ sig (Elt F)) :
    after opsD V (Proc.devRef .tc main_v92) = fieldVal ![0, 22000] ![22, 0, 0] slices_S1024x26000_S1024x1000_0_22000 slices_S26x1000x64_S1x1000x64_22_0_0 (V (Proc.devRef .tc main_v0)) (V (Proc.devRef .tc main_arg2)) := by
  simp only [opsD]
  after_results_simp
  all_goals rfl

set_option maxRecDepth 8192 in
set_option maxHeartbeats 2000000 in
theorem compD_main_v96 (V : Valuation τ sig (Elt F)) :
    after opsD V (Proc.devRef .tc main_v96) = fieldVal ![0, 23000] ![23, 0, 0] slices_S1024x26000_S1024x1000_0_23000 slices_S26x1000x64_S1x1000x64_23_0_0 (V (Proc.devRef .tc main_v0)) (V (Proc.devRef .tc main_arg2)) := by
  simp only [opsD]
  after_results_simp
  all_goals rfl

set_option maxRecDepth 8192 in
set_option maxHeartbeats 2000000 in
theorem compD_main_v100 (V : Valuation τ sig (Elt F)) :
    after opsD V (Proc.devRef .tc main_v100) = fieldVal ![0, 24000] ![24, 0, 0] slices_S1024x26000_S1024x1000_0_24000 slices_S26x1000x64_S1x1000x64_24_0_0 (V (Proc.devRef .tc main_v0)) (V (Proc.devRef .tc main_arg2)) := by
  simp only [opsD]
  after_results_simp
  all_goals rfl

set_option maxRecDepth 8192 in
set_option maxHeartbeats 2000000 in
theorem compD_main_v104 (V : Valuation τ sig (Elt F)) :
    after opsD V (Proc.devRef .tc main_v104) = fieldVal ![0, 25000] ![25, 0, 0] slices_S1024x26000_S1024x1000_0_25000 slices_S26x1000x64_S1x1000x64_25_0_0 (V (Proc.devRef .tc main_v0)) (V (Proc.devRef .tc main_arg2)) := by
  simp only [opsD]
  after_results_simp
  all_goals rfl

set_option maxRecDepth 8192 in
set_option maxHeartbeats 400000 in
theorem compE_main_v108 (V : Valuation τ sig (Elt F)) :
    after opsE V (Proc.devRef .tc main_v108) = (concatenate S1024x1677 1 [⟨S1024x13, V (Proc.devRef .tc main_arg0)⟩, ⟨S1024x1664, concatenate S1024x1664 1
      [⟨S1024x1024, concatenate S1024x1024 1 [⟨S1024x64, V (Proc.devRef .tc main_v4)⟩, ⟨S1024x64, V (Proc.devRef .tc main_v8)⟩, ⟨S1024x64, V (Proc.devRef .tc main_v12)⟩, ⟨S1024x64, V (Proc.devRef .tc main_v16)⟩, ⟨S1024x64, V (Proc.devRef .tc main_v20)⟩, ⟨S1024x64, V (Proc.devRef .tc main_v24)⟩, ⟨S1024x64, V (Proc.devRef .tc main_v28)⟩, ⟨S1024x64, V (Proc.devRef .tc main_v32)⟩, ⟨S1024x64, V (Proc.devRef .tc main_v36)⟩, ⟨S1024x64, V (Proc.devRef .tc main_v40)⟩, ⟨S1024x64, V (Proc.devRef .tc main_v44)⟩, ⟨S1024x64, V (Proc.devRef .tc main_v48)⟩, ⟨S1024x64, V (Proc.devRef .tc main_v52)⟩, ⟨S1024x64, V (Proc.devRef .tc main_v56)⟩, ⟨S1024x64, V (Proc.devRef .tc main_v60)⟩, ⟨S1024x64, V (Proc.devRef .tc main_v64)⟩] concatenates_S1024x64_S1024x64_S1024x64_S1024x64_S1024x64_S1024x64_S1024x64_S1024x64_S1024x64_S1024x64_S1024x64_S1024x64_S1024x64_S1024x64_S1024x64_S1024x64_S1024x1024_d1⟩,
       ⟨S1024x640, concatenate S1024x640 1 [⟨S1024x64, V (Proc.devRef .tc main_v68)⟩, ⟨S1024x64, V (Proc.devRef .tc main_v72)⟩, ⟨S1024x64, V (Proc.devRef .tc main_v76)⟩, ⟨S1024x64, V (Proc.devRef .tc main_v80)⟩, ⟨S1024x64, V (Proc.devRef .tc main_v84)⟩, ⟨S1024x64, V (Proc.devRef .tc main_v88)⟩, ⟨S1024x64, V (Proc.devRef .tc main_v92)⟩, ⟨S1024x64, V (Proc.devRef .tc main_v96)⟩, ⟨S1024x64, V (Proc.devRef .tc main_v100)⟩, ⟨S1024x64, V (Proc.devRef .tc main_v104)⟩] concatenates_S1024x64_S1024x64_S1024x64_S1024x64_S1024x64_S1024x64_S1024x64_S1024x64_S1024x64_S1024x64_S1024x640_d1⟩] concatenates_S1024x1024_S1024x640_S1024x1664_d1⟩]
      concatenates_S1024x13_S1024x1664_S1024x1677_d1 : (⟨S1024x1677, .f32⟩ : BufTy).Contents (Elt F)) := by
  simp only [opsE]
  after_results_simp
  all_goals rfl

/-! ## The whole line -/

/-- @main's operations, in order. -/
abbrev ops : List (HloOp τ sig (Elt F)) := (opsA ++ opsB) ++ (opsC ++ (opsD ++ opsE))

set_option maxRecDepth 8192 in
set_option maxHeartbeats 4000000 in
theorem main_part0_eq (c : Dev nD) : main_part0 (F := F) c = seq (opsA ++ opsB) := rfl

set_option maxRecDepth 8192 in
set_option maxHeartbeats 4000000 in
theorem main_part1_eq (c : Dev nD) : main_part1 (F := F) c = seq (opsC ++ (opsD ++ opsE)) := rfl

theorem main_eq (c : Dev nD) : main (F := F) c = seq ops := by
  show (main_part0 (F := F) c >>= fun _ => main_part1 (F := F) c) = _
  rw [main_part0_eq, main_part1_eq, ← seq_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with (h | h) | h | h | h
    exacts [List.forall_iff_forall_mem.mp opsA_sub op h, List.forall_iff_forall_mem.mp opsB_sub op h,
      List.forall_iff_forall_mem.mp opsC_sub op h, List.forall_iff_forall_mem.mp opsD_sub op h,
      List.forall_iff_forall_mem.mp opsE_sub op h]

theorem ops_fresh : ∀ op ∈ (ops : List (HloOp τ sig (Elt F))), op.fresh = ∅ := fun op h => by
  simp only [ops, List.mem_append] at h
  rcases h with (h | h) | h | h | h
  exacts [opsA_fresh op h, opsB_fresh op h, opsC_fresh op h, opsD_fresh op h, opsE_fresh op h]

/-- The result buffer after the whole line, from any contents. -/
theorem after_result (V : Valuation τ sig (Elt F)) :
    after ops V (Proc.devRef .tc main_v108)
      = refTerm (V (Proc.devRef .tc main_arg0)) (V (Proc.devRef .tc main_arg1)) (V (Proc.devRef .tc main_arg2)) := by
  simp only [ops, Cert.LibAfter.after_append]
  rw [compE_main_v108,
    keepD _ main_v4 (by decide),
    keepC _ main_v4 (by decide),
    keepB _ main_v4 (by decide),
    compA_main_v4,
    keepD _ main_v8 (by decide),
    keepC _ main_v8 (by decide),
    keepB _ main_v8 (by decide),
    compA_main_v8,
    keepD _ main_v12 (by decide),
    keepC _ main_v12 (by decide),
    keepB _ main_v12 (by decide),
    compA_main_v12,
    keepD _ main_v16 (by decide),
    keepC _ main_v16 (by decide),
    keepB _ main_v16 (by decide),
    compA_main_v16,
    keepD _ main_v20 (by decide),
    keepC _ main_v20 (by decide),
    keepB _ main_v20 (by decide),
    compA_main_v20,
    keepD _ main_v24 (by decide),
    keepC _ main_v24 (by decide),
    keepB _ main_v24 (by decide),
    compA_main_v24,
    keepD _ main_v28 (by decide),
    keepC _ main_v28 (by decide),
    keepB _ main_v28 (by decide),
    compA_main_v28,
    keepD _ main_v32 (by decide),
    keepC _ main_v32 (by decide),
    compB_main_v32,
    keepD _ main_v36 (by decide),
    keepC _ main_v36 (by decide),
    compB_main_v36,
    keepD _ main_v40 (by decide),
    keepC _ main_v40 (by decide),
    compB_main_v40,
    keepD _ main_v44 (by decide),
    keepC _ main_v44 (by decide),
    compB_main_v44,
    keepD _ main_v48 (by decide),
    keepC _ main_v48 (by decide),
    compB_main_v48,
    keepD _ main_v52 (by decide),
    keepC _ main_v52 (by decide),
    compB_main_v52,
    keepD _ main_v56 (by decide),
    keepC _ main_v56 (by decide),
    compB_main_v56,
    keepD _ main_v60 (by decide),
    compC_main_v60,
    keepD _ main_v64 (by decide),
    compC_main_v64,
    keepD _ main_v68 (by decide),
    compC_main_v68,
    keepD _ main_v72 (by decide),
    compC_main_v72,
    keepD _ main_v76 (by decide),
    compC_main_v76,
    keepD _ main_v80 (by decide),
    compC_main_v80,
    keepD _ main_v84 (by decide),
    compC_main_v84,
    compD_main_v88,
    compD_main_v92,
    compD_main_v96,
    compD_main_v100,
    compD_main_v104,
    compB_main_v57,
    compB_main_v59,
    keepC _ main_v0 (by decide),
    keepB _ main_v0 (by decide),
    compA_main_v0,
    keepD _ main_arg0 (by decide),
    keepC _ main_arg0 (by decide),
    keepB _ main_arg0 (by decide),
    keepA _ main_arg0 (by decide),
    keepC _ main_arg2 (by decide),
    keepB _ main_arg2 (by decide),
    keepA _ main_arg2 (by decide)]
  rfl

/-- An argument buffer after the whole line: no operation writes it. -/
theorem after_arg (V : Valuation τ sig (Elt F)) (r : Ref sig .tc)
    (hA : r ∉ opsA_W) (hB : r ∉ opsB_W) (hC : r ∉ opsC_W) (hD : r ∉ opsD_W) (hE : r ∉ opsE_W) :
    after ops V (Proc.devRef .tc r) = V (Proc.devRef .tc r) := by
  simp only [ops, Cert.LibAfter.after_append]
  rw [keepE _ r hE, keepD _ r hD, keepC _ r hC, keepB _ r hB, keepA _ r hA]

/-- On every device, from any memory with zero counters: every weakly fair execution of @main terminates with the result
    at `refTerm` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v108)
        = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v108).trans ((after_result _).trans rfl),
      (h c main_arg0).trans ((after_arg _ main_arg0 (by decide) (by decide) (by decide) (by decide) (by decide)).trans rfl),
      (h c main_arg1).trans ((after_arg _ main_arg1 (by decide) (by decide) (by decide) (by decide) (by decide)).trans rfl),
      (h c main_arg2).trans ((after_arg _ main_arg2 (by decide) (by decide) (by decide) (by decide) (by decide)).trans rfl)⟩)
    (run_seq scopedRefs_eq scopedSems_eq defs main (fun _ => ops) main_eq (fun _ => ops_sub) m ρ (fun _ => ops_fresh))

end Cert.ReferenceIdeal.RefRun

end
-- ==== Proof.lean ====
/-
  The kernel computes, for 1024 rows in eight blocks of 128, the 13 continuous features followed by 26 multi-hot
  embedding sums of 64 columns each: field i's sum is a [128, 1168] window of the category integers, starting at a
  lane-aligned column at or before the field's own first column 1000 i, times a [1168, 64] table that is zero except for
  the field's 1000 rows of W, placed where the field's columns fall inside the window. The table is built in a scratch
  buffer at the grid's first point and carried to the later points. The reference slices the field's own 1000 columns and
  multiplies by W(i, ·, ·).

  At the ideal values the two agree entry by entry: the window's sum is the field's sum plus terms cat · 0 = 0 (no
  finiteness is needed: x · 0 = 0 for every extended real, and only the commutative monoid of + is used), the integer
  to floating-point conversions are exact in both programs, and the changes of floating-point format are the identity.

  Modules: Spec (the result as one function; the padded table; the window-sum law, over PaddedSum), FieldProduct and
  Stores (each store of the body as a block of the target function), OutLater, TableFirst and OutFirst (what one grid point leaves: the output of a later
  point, the table and the output of the first), PointValue (the grid, by induction on the point), KernelValue (the result array),
  RefValue (the reference's result as one term, and that term is the specification), RefRun (the reference's run, in five
  stretches). The frames of the two kernel programs are the frame modules'; the
  reference's frame is its run with the result dropped; the ideal pass rewrote nothing, so `preserves` is `True`.
-/
import proofs.«123104_g7189775253945_cont_9to1c4b_357_9_alg».proof.Defs
import proofs.«123104_g7189775253945_cont_9to1c4b_357_9_alg».proof.Proof.Gen.Kernel
import proofs.«123104_g7189775253945_cont_9to1c4b_357_9_alg».proof.Proof.Gen.KernelIdeal
import proofs.«123104_g7189775253945_cont_9to1c4b_357_9_alg».proof.Proof.Gen.ReferenceIdeal
import proofs.«123104_g7189775253945_cont_9to1c4b_357_9_alg».proof.Proof.Gen.Pre_finite_inputs
import proofs.«123104_g7189775253945_cont_9to1c4b_357_9_alg».proof.Proof.FrameKernel
import proofs.«123104_g7189775253945_cont_9to1c4b_357_9_alg».proof.Proof.KernelValue
import proofs.«123104_g7189775253945_cont_9to1c4b_357_9_alg».proof.Proof.RefValue
import proofs.«123104_g7189775253945_cont_9to1c4b_357_9_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end with the specification's result of the arguments. -/
theorem algebraic : Cert.algebraic_KernelIdeal_ReferenceIdeal := by
  intro m ρ m' ρ' _ hagree
  refine ⟨fun c => Cert.KernelIdeal.Fields.resArr m c, Cert.KernelIdeal.Fields.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.Fields.reference_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
